-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x128 : Shape := ⟨2, ![1000, 128]⟩
abbrev S128x128 : Shape := ⟨2, ![128, 128]⟩
abbrev S128 : Shape := ⟨1, ![128]⟩
abbrev S128x256 : Shape := ⟨2, ![128, 256]⟩
abbrev S2x128 : Shape := ⟨2, ![2, 128]⟩
abbrev S2 : Shape := ⟨1, ![2]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S2x128 .f32) (main_arg6 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S1000x128 .f32) (main_arg1 : FVec F S128x128 .f32) (main_arg2 : FVec F S128 .f32) (main_arg3 : FVec F S128x256 .f32) (main_arg4 : FVec F S128 .f32) (main_arg5 : FVec F S2x128 .f32) (main_arg6 : FVec F S2 .f32) : IVec S_ 1 :=
  let main_v0 : FVec F S1000x128 .f32 := Host.absf main_arg0
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S1000x128 : Shape := ⟨2, ![1000, 128]⟩
abbrev S128x128 : Shape := ⟨2, ![128, 128]⟩
abbrev S128 : Shape := ⟨1, ![128]⟩
abbrev S128x256 : Shape := ⟨2, ![128, 256]⟩
abbrev S2x128 : Shape := ⟨2, ![2, 128]⟩
abbrev S2 : Shape := ⟨1, ![2]⟩
abbrev S1000x2 : Shape := ⟨2, ![1000, 2]⟩
abbrev S200x128 : Shape := ⟨2, ![200, 128]⟩
abbrev S1x128 : Shape := ⟨2, ![1, 128]⟩
abbrev S999x128 : Shape := ⟨2, ![999, 128]⟩
abbrev S1x2 : Shape := ⟨2, ![1, 2]⟩

abbrev nBuf : Space → Nat
  | .hbm => 8
  | .vmem => 10
  | .smem => 0
  | _ => 0

abbrev bufTy : (tb : Table) → Fin (tcTables nBuf tb) → BufTy
  | .hbm, ⟨0, _⟩ => ⟨S1000x128, .f32⟩
  | .hbm, ⟨1, _⟩ => ⟨S128x128, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S1000x2, .f32⟩
  | .local _ .vmem, ⟨0, _⟩ => ⟨S200x128, .f32⟩
  | .local _ .vmem, ⟨1, _⟩ => ⟨S200x128, .f32⟩
  | .local _ .vmem, ⟨2, _⟩ => ⟨S128x128, .f32⟩
  | .local _ .vmem, ⟨3, _⟩ => ⟨S128, .f32⟩
  | .local _ .vmem, ⟨4, _⟩ => ⟨S128x256, .f32⟩
  | .local _ .vmem, ⟨5, _⟩ => ⟨S128, .f32⟩
  | .local _ .vmem, ⟨6, _⟩ => ⟨S2x128, .f32⟩
  | .local _ .vmem, ⟨7, _⟩ => ⟨S2, .f32⟩
  | .local _ .vmem, ⟨8, _⟩ => ⟨S1000x2, .f32⟩
  | .local _ .vmem, ⟨9, _⟩ => ⟨S1000x128, .f32⟩
  | _, _ => ⟨S1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![5], ![false]⟩

def k0_off1 (i : grid0.Coords) : Fin 2 → Nat :=
  let arg0 : BitVec 32 := BitVec.ofNat 32 (i 0).val
  let c200_i32 : BitVec 32 := 200#32
  let v9 : BitVec 32 := Scalar.muli arg0 c200_i32
  let v10 : Index := Scalar.indexCast v9
  let c0_5 : Index := 0#32
  ![v10.toNat, 0]
def k0_cond1 (i : grid0.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32 : BitVec 32 := 0#32
  let v16 : BitVec 1 := Scalar.cmpi .ne v15 c0_i32
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1000x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S128_S128_0 : ∀ a, (![0] : Fin 1 → Nat) a + S128.size a ≤ S128.size a
  h_S128 : 0 < S128.numel
  inb_S200x128_S200x128_0_0 : ∀ a, (![0, 0] : Fin 2 → Nat) a + S200x128.size a ≤ S200x128.size a
  h_S200x128 : 0 < S200x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  broadcasts_S1x128_S200x128 : S1x128.Broadcasts S200x128
  shapeCasts_S200x128_S200x128 : S200x128.ShapeCasts S200x128
  inb_S128x256_S128x128_0_0 : ∀ a, (![0, 0] : Fin 2 → Nat) a + S128x128.size a ≤ S128x256.size a
  inb_S128x256_S128x128_0_128 : ∀ a, (![0, 128] : Fin 2 → Nat) a + S128x128.size a ≤ S128x256.size a
  inb_S1000x128_S1000x128_0_0 : ∀ a, (![0, 0] : Fin 2 → Nat) a + S1000x128.size a ≤ S1000x128.size a
  h_S1000x128 : 0 < S1000x128.numel
  broadcasts_S1x128_S1000x128 : S1x128.Broadcasts S1000x128
  slices_S1000x128_o1_0_S999x128 : S1000x128.Slices ![1, 0] S999x128
  slices_S1000x128_o0_0_S1x128 : S1000x128.Slices ![0, 0] S1x128
  concatenates_S999x128_S1x128_S1000x128_d0 : Shape.Concatenates [S999x128, S1x128] S1000x128 0
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  dot_S200x128_S128x128_S200x128_1_1_0_0_n_n_wf : DotDims.WF S200x128 S128x128 S200x128 [1] [1] [0] [0] [] []
  dot_S1000x128_S128x128_S1000x128_1_1_0_0_n_n_wf : DotDims.WF S1000x128 S128x128 S1000x128 [1] [1] [0] [0] [] []
  dot_S1000x128_S2x128_S1000x2_1_1_0_0_n_n_wf : DotDims.WF S1000x128 S2x128 S1000x2 [1] [1] [0] [0] [] []
  hrank0 : 0 < grid0.rank
  k0_off1_inb : ∀ i : grid0.Coords, ∀ a, (k0_off1 i) a + S200x128.size a ≤ S1000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S1000x128.size a
  hwx0_0 : ∀ i : grid0.Coords, EltTy.bits .f32 = 32 ∨ (Rect.block (s := S1000x128) S200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x128.size a
  hwx0_5 : ∀ i : grid0.Coords, EltTy.bits .f32 = 32 ∨ (Rect.block (s := S2x128) S2x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1000x2.size a ≤ S1000x2.size a
  hwx0_7 : ∀ i : grid0.Coords, EltTy.bits .f32 = 32 ∨ (Rect.block (s := S1000x2) S1000x2.size (cc0_transform_7 i) (hinb0_7 i)).WholeWords (EltTy.packing .f32)

variable [Facts₀]

def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf
def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf
def dot_S1000x128_S2x128_S1000x2_1_1_0_0_n_n : DotDims S1000x128 S2x128 S1000x2 where
  lhsContracting := [1]
  rhsContracting := [1]
  lhsNonContracting := [0]
  rhsNonContracting := [0]
  lhsBatch := []
  rhsBatch := []
  wf := dot_S1000x128_S2x128_S1000x2_1_1_0_0_n_n_wf

abbrev win0_0 : Pipeline.Window sig grid0 :=
  Pipeline.Window.ofSpec (Memref.whole main_arg0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1000x2.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) | ⟨_ + 8, h⟩ => absurd h (Nat.not_lt.2 (Nat.le_add_left _ _))

class Facts : Prop extends Facts₀ where

variable [Facts]
-- ==== ReferenceIdeal.lean ====
abbrev S1000x128 : Shape := ⟨2, ![1000, 128]⟩
abbrev S128x128 : Shape := ⟨2, ![128, 128]⟩
abbrev S128 : Shape := ⟨1, ![128]⟩
abbrev S128x256 : Shape := ⟨2, ![128, 256]⟩
abbrev S2x128 : Shape := ⟨2, ![2, 128]⟩
abbrev S2 : Shape := ⟨1, ![2]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1x128 : Shape := ⟨2, ![1, 128]⟩
abbrev S1000x256 : Shape := ⟨2, ![1000, 256]⟩
abbrev S256x128 : Shape := ⟨2, ![256, 128]⟩
abbrev S128x2 : Shape := ⟨2, ![128, 2]⟩
abbrev S1000x2 : Shape := ⟨2, ![1000, 2]⟩
abbrev S1x2 : Shape := ⟨2, ![1, 2]⟩

abbrev nBuf : Space → Nat
  | .hbm => 204
  | .vmem => 0
  | .smem => 0
  | _ => 0

abbrev hbmTy0_0 (i : Nat) : BufTy := match i % 128 with
  | 0 => ⟨S1000x128, .f32⟩
  | 1 => ⟨S128x128, .f32⟩
  | 2 => ⟨S128, .f32⟩
  | 3 => ⟨S128x256, .f32⟩
  | 4 => ⟨S128, .f32⟩
  | 5 => ⟨S2x128, .f32⟩
  | 6 => ⟨S2, .f32⟩
  | 7 => ⟨S1000, .i32⟩
  | 8 => ⟨S_, .i32⟩
  | 9 => ⟨S1000, .i32⟩
  | 10 => ⟨S1000, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S1000, .i32⟩
  | 18 => ⟨S1000, .i32⟩
  | 19 => ⟨S_, .i32⟩
  | 20 => ⟨S1000, .i32⟩
  | 21 => ⟨S1000, .i1⟩
  | 22 => ⟨S_, .i32⟩
  | 23 => ⟨S1000, .i32⟩
  | 24 => ⟨S1000, .i1⟩
  | 25 => ⟨S_, .i32⟩
  | 26 => ⟨S_, .i1⟩
  | 27 => ⟨S1000, .i1⟩
  | 28 => ⟨S1000, .i1⟩
  | 29 => ⟨S1000, .i1⟩
  | 30 => ⟨S1000, .i32⟩
  | 31 => ⟨S1000, .i32⟩
  | 32 => ⟨S1000, .i32⟩
  | 33 => ⟨S_, .i32⟩
  | 34 => ⟨S1000, .i32⟩
  | 35 => ⟨S1000, .i1⟩
  | 36 => ⟨S_, .i32⟩
  | 37 => ⟨S1000, .i32⟩
  | 38 => ⟨S1000, .i32⟩
  | 39 => ⟨S1000, .i32⟩
  | 40 => ⟨S1000x1, .i32⟩
  | 41 => ⟨S1, .i32⟩
  | 42 => ⟨S_, .i32⟩
  | 43 => ⟨S1000x1, .i32⟩
  | 44 => ⟨S1000x1, .i1⟩
  | 45 => ⟨S1x1, .i32⟩
  | 46 => ⟨S1000x1, .i32⟩
  | 47 => ⟨S1000x1, .i1⟩
  | 48 => ⟨S1000x1, .i1⟩
  | 49 => ⟨S_, .i1⟩
  | 50 => ⟨S1000, .i1⟩
  | 51 => ⟨S1000x128, .f32⟩
  | 52 => ⟨S1000x128, .i1⟩
  | 53 => ⟨S_, .f32⟩
  | 54 => ⟨S1000x128, .f32⟩
  | 55 => ⟨S1000x128, .f32⟩
  | 56 => ⟨S128x128, .f32⟩
  | 57 => ⟨S1000x128, .f32⟩
  | 58 => ⟨S1x128, .f32⟩
  | 59 => ⟨S1000x128, .f32⟩
  | 60 => ⟨S1000x128, .f32⟩
  | 61 => ⟨S_, .f32⟩
  | 62 => ⟨S1000x128, .f32⟩
  | 63 => ⟨S1000x128, .f32⟩
  | 64 => ⟨S_, .i32⟩
  | 65 => ⟨S1000, .i32⟩
  | 66 => ⟨S1000, .i1⟩
  | 67 => ⟨S_, .i32⟩
  | 68 => ⟨S1000, .i32⟩
  | 69 => ⟨S1000, .i32⟩
  | 70 => ⟨S1000, .i32⟩
  | 71 => ⟨S1000x1, .i32⟩
  | 72 => ⟨S1, .i32⟩
  | 73 => ⟨S_, .i32⟩
  | 74 => ⟨S1000x1, .i32⟩
  | 75 => ⟨S1000x1, .i1⟩
  | 76 => ⟨S1x1, .i32⟩
  | 77 => ⟨S1000x1, .i32⟩
  | 78 => ⟨S1000x1, .i1⟩
  | 79 => ⟨S1000x1, .i1⟩
  | 80 => ⟨S_, .i1⟩
  | 81 => ⟨S1000, .i1⟩
  | 82 => ⟨S1000x128, .f32⟩
  | 83 => ⟨S1000x128, .i1⟩
  | 84 => ⟨S_, .f32⟩
  | 85 => ⟨S1000x128, .f32⟩
  | 86 => ⟨S1000x128, .f32⟩
  | 87 => ⟨S128x128, .f32⟩
  | 88 => ⟨S1000x128, .f32⟩
  | 89 => ⟨S1x128, .f32⟩
  | 90 => ⟨S1000x128, .f32⟩
  | 91 => ⟨S1000x128, .f32⟩
  | 92 => ⟨S_, .f32⟩
  | 93 => ⟨S1000x128, .f32⟩
  | 94 => ⟨S1000x128, .f32⟩
  | 95 => ⟨S1000x256, .f32⟩
  | 96 => ⟨S256x128, .f32⟩
  | 97 => ⟨S1000x128, .f32⟩
  | 98 => ⟨S1x128, .f32⟩
  | 99 => ⟨S1000x128, .f32⟩
  | 100 => ⟨S1000x128, .f32⟩
  | 101 => ⟨S_, .f32⟩
  | 102 => ⟨S1000x128, .f32⟩
  | 103 => ⟨S1000x128, .f32⟩
  | 104 => ⟨S_, .i32⟩
  | 105 => ⟨S1000, .i32⟩
  | 106 => ⟨S1000, .i1⟩
  | 107 => ⟨S_, .i32⟩
  | 108 => ⟨S1000, .i32⟩
  | 109 => ⟨S1000, .i32⟩
  | 110 => ⟨S1000, .i32⟩
  | 111 => ⟨S1000x1, .i32⟩
  | 112 => ⟨S1, .i32⟩
  | 113 => ⟨S_, .i32⟩
  | 114 => ⟨S1000x1, .i32⟩
  | 115 => ⟨S1000x1, .i1⟩
  | 116 => ⟨S1x1, .i32⟩
  | 117 => ⟨S1000x1, .i32⟩
  | 118 => ⟨S1000x1, .i1⟩
  | 119 => ⟨S1000x1, .i1⟩
  | 120 => ⟨S_, .i1⟩
  | 121 => ⟨S1000, .i1⟩
  | 122 => ⟨S1000x128, .f32⟩
  | 123 => ⟨S1000x128, .i1⟩
  | 124 => ⟨S_, .f32⟩
  | 125 => ⟨S1000x128, .f32⟩
  | 126 => ⟨S1000x128, .f32⟩
  | 127 => ⟨S128x128, .f32⟩
  | _ => ⟨S1000x128, .f32⟩

abbrev hbmTy0_1 (i : Nat) : BufTy := match i % 128 with
  | 0 => ⟨S1000x128, .f32⟩
  | 1 => ⟨S1x128, .f32⟩
  | 2 => ⟨S1000x128, .f32⟩
  | 3 => ⟨S1000x128, .f32⟩
  | 4 => ⟨S_, .f32⟩
  | 5 => ⟨S1000x128, .f32⟩
  | 6 => ⟨S1000x128, .f32⟩
  | 7 => ⟨S_, .i32⟩
  | 8 => ⟨S1000, .i32⟩
  | 9 => ⟨S1000, .i1⟩
  | 10 => ⟨S_, .i32⟩
  | 11 => ⟨S1000, .i32⟩
  | 12 => ⟨S1000, .i32⟩
  | 13 => ⟨S1000, .i32⟩
  | 14 => ⟨S1000x1, .i32⟩
  | 15 => ⟨S1, .i32⟩
  | 16 => ⟨S_, .i32⟩
  | 17 => ⟨S1000x1, .i32⟩
  | 18 => ⟨S1000x1, .i1⟩
  | 19 => ⟨S1x1, .i32⟩
  | 20 => ⟨S1000x1, .i32⟩
  | 21 => ⟨S1000x1, .i1⟩
  | 22 => ⟨S1000x1, .i1⟩
  | 23 => ⟨S_, .i1⟩
  | 24 => ⟨S1000, .i1⟩
  | 25 => ⟨S1000x128, .f32⟩
  | 26 => ⟨S1000x128, .i1⟩
  | 27 => ⟨S_, .f32⟩
  | 28 => ⟨S1000x128, .f32⟩
  | 29 => ⟨S1000x128, .f32⟩
  | 30 => ⟨S128x128, .f32⟩
  | 31 => ⟨S1000x128, .f32⟩
  | 32 => ⟨S1x128, .f32⟩
  | 33 => ⟨S1000x128, .f32⟩
  | 34 => ⟨S1000x128, .f32⟩
  | 35 => ⟨S_, .f32⟩
  | 36 => ⟨S1000x128, .f32⟩
  | 37 => ⟨S1000x128, .f32⟩
  | 38 => ⟨S1000x256, .f32⟩
  | 39 => ⟨S256x128, .f32⟩
  | 40 => ⟨S1000x128, .f32⟩
  | 41 => ⟨S1x128, .f32⟩
  | 42 => ⟨S1000x128, .f32⟩
  | 43 => ⟨S1000x128, .f32⟩
  | 44 => ⟨S_, .f32⟩
  | 45 => ⟨S1000x128, .f32⟩
  | 46 => ⟨S1000x128, .f32⟩
  | 47 => ⟨S1000x128, .f32⟩
  | 48 => ⟨S_, .f32⟩
  | 49 => ⟨S1000x128, .f32⟩
  | 50 => ⟨S1000x128, .f32⟩
  | 51 => ⟨S_, .f32⟩
  | 52 => ⟨S1000x128, .f32⟩
  | 53 => ⟨S1000x128, .f32⟩
  | 54 => ⟨S128x128, .f32⟩
  | 55 => ⟨S1000x128, .f32⟩
  | 56 => ⟨S1x128, .f32⟩
  | 57 => ⟨S1000x128, .f32⟩
  | 58 => ⟨S1000x128, .f32⟩
  | 59 => ⟨S_, .f32⟩
  | 60 => ⟨S1000x128, .f32⟩
  | 61 => ⟨S1000x128, .f32⟩
  | 62 => ⟨S1000x256, .f32⟩
  | 63 => ⟨S256x128, .f32⟩
  | 64 => ⟨S1000x128, .f32⟩
  | 65 => ⟨S1x128, .f32⟩
  | 66 => ⟨S1000x128, .f32⟩
  | 67 => ⟨S1000x128, .f32⟩
  | 68 => ⟨S_, .f32⟩
  | 69 => ⟨S1000x128, .f32⟩
  | 70 => ⟨S1000x128, .f32⟩
  | 71 => ⟨S128x2, .f32⟩
  | 72 => ⟨S1000x2, .f32⟩
  | 73 => ⟨S1x2, .f32⟩
  | 74 => ⟨S1000x2, .f32⟩
  | 75 => ⟨S1000x2, .f32⟩
  | _ => ⟨S1000x128, .f32⟩

abbrev hbmTy (i : Nat) : BufTy := match i / 128 with
  | 0 => hbmTy0_0 i
  | 1 => hbmTy0_1 i
  | _ => ⟨S1000x128, .f32⟩

abbrev bufTy : (tb : Table) → Fin (tcTables nBuf tb) → BufTy
  | .hbm, ⟨i, _⟩ => hbmTy i
  | _, _ => ⟨S1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_call2_cst : Ref sig .tc := ⟨.hbm, 61, rfl⟩
abbrev main_call2_v0 : Ref sig .tc := ⟨.hbm, 62, rfl⟩
abbrev main_v10 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_v14 : Ref sig .tc := ⟨.hbm, 83, rfl⟩
abbrev main_call3_cst : Ref sig .tc := ⟨.hbm, 84, rfl⟩
abbrev main_call3_v15 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_call4_cst : Ref sig .tc := ⟨.hbm, 92, rfl⟩
abbrev main_call4_v0 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_call5_cst : Ref sig .tc := ⟨.hbm, 101, rfl⟩
abbrev main_call5_v0 : Ref sig .tc := ⟨.hbm, 102, rfl⟩
abbrev main_v24 : Ref sig .tc := ⟨.hbm, 103, rfl⟩
abbrev main_call6_c : Ref sig .tc := ⟨.hbm, 104, rfl⟩
abbrev main_call6_v0 : Ref sig .tc := ⟨.hbm, 105, rfl⟩
abbrev main_call6_v1 : Ref sig .tc := ⟨.hbm, 106, rfl⟩
abbrev main_call6_c_0 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_v5 : Ref sig .tc := ⟨.hbm, 111, rfl⟩
abbrev main_call6_c_1 : Ref sig .tc := ⟨.hbm, 112, rfl⟩
abbrev main_call6_c_2 : Ref sig .tc := ⟨.hbm, 113, rfl⟩
abbrev main_call6_v6 : Ref sig .tc := ⟨.hbm, 114, rfl⟩
abbrev main_call6_v7 : Ref sig .tc := ⟨.hbm, 115, rfl⟩
abbrev main_call6_v8 : Ref sig .tc := ⟨.hbm, 116, rfl⟩
abbrev main_call6_v9 : Ref sig .tc := ⟨.hbm, 117, rfl⟩
abbrev main_call6_v10 : Ref sig .tc := ⟨.hbm, 118, rfl⟩
abbrev main_call6_v11 : Ref sig .tc := ⟨.hbm, 119, rfl⟩
abbrev main_call6_c_3 : Ref sig .tc := ⟨.hbm, 120, rfl⟩
abbrev main_call6_v12 : Ref sig .tc := ⟨.hbm, 121, rfl⟩
abbrev main_call6_v13 : Ref sig .tc := ⟨.hbm, 122, rfl⟩
abbrev main_call6_v14 : Ref sig .tc := ⟨.hbm, 123, rfl⟩
abbrev main_call6_cst : Ref sig .tc := ⟨.hbm, 124, rfl⟩
abbrev main_call6_v15 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_call7_cst : Ref sig .tc := ⟨.hbm, 132, rfl⟩
abbrev main_call7_v0 : Ref sig .tc := ⟨.hbm, 133, rfl⟩
abbrev main_v31 : Ref sig .tc := ⟨.hbm, 134, rfl⟩
abbrev main_call8_c : Ref sig .tc := ⟨.hbm, 135, rfl⟩
abbrev main_call8_v0 : Ref sig .tc := ⟨.hbm, 136, rfl⟩
abbrev main_call8_v1 : Ref sig .tc := ⟨.hbm, 137, rfl⟩
abbrev main_call8_c_0 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_call8_v5 : Ref sig .tc := ⟨.hbm, 142, rfl⟩
abbrev main_call8_c_1 : Ref sig .tc := ⟨.hbm, 143, rfl⟩
abbrev main_call8_c_2 : Ref sig .tc := ⟨.hbm, 144, rfl⟩
abbrev main_call8_v6 : Ref sig .tc := ⟨.hbm, 145, rfl⟩
abbrev main_call8_v7 : Ref sig .tc := ⟨.hbm, 146, rfl⟩
abbrev main_call8_v8 : Ref sig .tc := ⟨.hbm, 147, rfl⟩
abbrev main_call8_v9 : Ref sig .tc := ⟨.hbm, 148, rfl⟩
abbrev main_call8_v10 : Ref sig .tc := ⟨.hbm, 149, rfl⟩
abbrev main_call8_v11 : Ref sig .tc := ⟨.hbm, 150, rfl⟩
abbrev main_call8_c_3 : Ref sig .tc := ⟨.hbm, 151, rfl⟩
abbrev main_call8_v12 : Ref sig .tc := ⟨.hbm, 152, rfl⟩
abbrev main_call8_v13 : Ref sig .tc := ⟨.hbm, 153, rfl⟩
abbrev main_call8_v14 : Ref sig .tc := ⟨.hbm, 154, rfl⟩
abbrev main_call8_cst : Ref sig .tc := ⟨.hbm, 155, rfl⟩
abbrev main_call8_v15 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_v35 : Ref sig .tc := ⟨.hbm, 160, rfl⟩
abbrev main_v36 : Ref sig .tc := ⟨.hbm, 161, rfl⟩
abbrev main_v37 : Ref sig .tc := ⟨.hbm, 162, rfl⟩
abbrev main_call9_cst : Ref sig .tc := ⟨.hbm, 163, rfl⟩
abbrev main_call9_v0 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_call10_cst : Ref sig .tc := ⟨.hbm, 172, rfl⟩
abbrev main_call10_v0 : Ref sig .tc := ⟨.hbm, 173, rfl⟩
abbrev main_v45 : Ref sig .tc := ⟨.hbm, 174, rfl⟩
abbrev main_v46 : Ref sig .tc := ⟨.hbm, 175, rfl⟩
abbrev main_cst : Ref sig .tc := ⟨.hbm, 176, rfl⟩
abbrev main_v47 : Ref sig .tc := ⟨.hbm, 177, rfl⟩
abbrev main_v48 : Ref sig .tc := ⟨.hbm, 178, rfl⟩
abbrev main_call11_cst : Ref sig .tc := ⟨.hbm, 179, rfl⟩
abbrev main_call11_v0 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_v54 : Ref sig .tc := ⟨.hbm, 186, rfl⟩
abbrev main_call12_cst : Ref sig .tc := ⟨.hbm, 187, rfl⟩
abbrev main_call12_v0 : Ref sig .tc := ⟨.hbm, 188, rfl⟩
abbrev main_v55 : Ref sig .tc := ⟨.hbm, 189, rfl⟩
abbrev main_v56 : Ref sig .tc := ⟨.hbm, 190, rfl⟩
abbrev main_v57 : Ref sig .tc := ⟨.hbm, 191, rfl⟩
abbrev main_v58 : Ref sig .tc := ⟨.hbm, 192, rfl⟩
abbrev main_v59 : Ref sig .tc := ⟨.hbm, 193, rfl⟩
abbrev main_v60 : Ref sig .tc := ⟨.hbm, 194, rfl⟩
abbrev main_v61 : Ref sig .tc := ⟨.hbm, 195, rfl⟩
abbrev main_call13_cst : Ref sig .tc := ⟨.hbm, 196, rfl⟩
abbrev main_call13_v0 : Ref sig .tc := ⟨.hbm, 197, rfl⟩
abbrev main_v62 : Ref sig .tc := ⟨.hbm, 198, rfl⟩
abbrev main_v63 : Ref sig .tc := ⟨.hbm, 199, rfl⟩
abbrev main_v64 : Ref sig .tc := ⟨.hbm, 200, rfl⟩
abbrev main_v65 : Ref sig .tc := ⟨.hbm, 201, rfl⟩
abbrev main_v66 : Ref sig .tc := ⟨.hbm, 202, rfl⟩
abbrev main_v67 : Ref sig .tc := ⟨.hbm, 203, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  h_S_ : 0 < S_.numel
  bcast_S1000_S1000x128_0 : S1000.BroadcastsInDim S1000x128 (![0] : Fin 1 → Fin S1000x128.rank)
  bcast_S_S1000x128 : S_.BroadcastsInDim S1000x128 (![] : Fin 0 → Fin S1000x128.rank)
  transposes_S128x128_S128x128_1_0 : S128x128.Transposes [1, 0] S128x128
  bcast_S128_S1x128_1 : S128.BroadcastsInDim S1x128 (![1] : Fin 1 → Fin S1x128.rank)
  bcast_S1x128_S1000x128_0_1 : S1x128.BroadcastsInDim S1000x128 (![0, 1] : Fin 2 → Fin S1000x128.rank)
  concatenates_S1000x128_S1000x128_S1000x256_d1 : Shape.Concatenates [S1000x128, S1000x128] S1000x256 1
  transposes_S128x256_S256x128_1_0 : S128x256.Transposes [1, 0] S256x128
  transposes_S2x128_S128x2_1_0 : S2x128.Transposes [1, 0] S128x2
  bcast_S2_S1x2_1 : S2.BroadcastsInDim S1x2 (![1] : Fin 1 → Fin S1x2.rank)
  bcast_S1x2_S1000x2_0_1 : S1x2.BroadcastsInDim S1000x2 (![0, 1] : Fin 2 → Fin S1000x2.rank)
  gather_S1000x128_S1000x1_S1000x128_1_0_n_n_0_1_1128_wf : GatherDims.WF S1000x128 S1000x1 S1000x128 [1] [0] [] [0] [] 1 ![1, 128]
  dot_S1000x128_S128x128_S1000x128_1_0_0_1_n_n_wf : DotDims.WF S1000x128 S128x128 S1000x128 [1] [0] [0] [1] [] []
  dot_S1000x256_S256x128_S1000x128_1_0_0_1_n_n_wf : DotDims.WF S1000x256 S256x128 S1000x128 [1] [0] [0] [1] [] []
  dot_S1000x128_S128x2_S1000x2_1_0_0_1_n_n_wf : DotDims.WF S1000x128 S128x2 S1000x2 [1] [0] [0] [1] [] []

variable [Facts₀]

def gather_S1000x128_S1000x1_S1000x128_1_0_n_n_0_1_1128 : GatherDims S1000x128 S1000x1 S1000x128 where
  offsetDims := [1]
  collapsedSliceDims := [0]
  operandBatchingDims := []
  startIndicesBatchingDims := []
  startIndexMap := [0]
  indexVectorDim := 1
  sliceSizes := ![1, 128]
  wf := gather_S1000x128_S1000x1_S1000x128_1_0_n_n_0_1_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x2_S1000x2_1_0_0_1_n_n : DotDims S1000x128 S128x2 S1000x2 where
  lhsContracting := [1]
  rhsContracting := [0]
  lhsNonContracting := [0]
  rhsNonContracting := [1]
  lhsBatch := []
  rhsBatch := []
  wf := dot_S1000x128_S128x2_S1000x2_1_0_0_1_n_n_wf

class Facts : Prop extends Facts₀ where

variable [Facts]
-- ==== Proof.BBodyRun.lean ====
/-
  One grid point of the kernel body, as a triple over symbolic staging memrefs, at any float instance.

  Every point computes the hidden layer of its 200-row block of the input, relu (x · wᵀ + b), and stores it into rows
  [o, o + 200) of the scratch, o the point's row offset; what the scratch held elsewhere is kept (`putRows`). The last
  point then loads the whole scratch and the two column halves of the second layer's weights, computes the read-out
  and stores it into the output block; the other points leave the output block as they found it.
-/
import proofs.«176965_g80925773791738_cont_9to1c4b_127_19_alg».proof.Proof.Gen.Kernel.Frame
import proofs.«176965_g80925773791738_cont_9to1c4b_127_19_alg».proof.Proof.Gen.Kernel.Skeleton
import Idealize.ShloMosaic.Lib.WritesUnit
import Idealize.ShloMosaic.Lib.ValueIdx
import Idealize.ShloMosaic.Lib.Pipeline.Value

set_option maxRecDepth 16384

noncomputable section

namespace Cert.Kernel.Ggcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Rows [o, o + 200) of `s` replaced by the 200-row block `p`; the other rows kept. -/
def putRows (s : Vec F S1000x128 .f32) (o : ℕ) (p : Vec F S200x128 .f32) : Vec F S1000x128 .f32 := fun y =>
  if h : o ≤ (y 0).val ∧ (y 0).val < o + 200 then
    p (ix2 (⟨(y 0).val - o, by omega⟩ : Fin 200) (⟨(y 1).val, idx2_lt1 y⟩ : Fin 128))
  else s y

/-- A row inside the band reads the block. -/
theorem putRows_of_mem (s : Vec F S1000x128 .f32) (o : ℕ) (p : Vec F S200x128 .f32) (a : Fin 200) (k : Fin 128)
    (h : o + a.val < 1000) : putRows s o p (ix2 (⟨o + a.val, h⟩ : Fin 1000) k) = p (ix2 a k) := by
  unfold putRows
  rw [dif_pos (show o ≤ o + a.val ∧ o + a.val < o + 200 from ⟨Nat.le_add_right _ _, by have := a.isLt; omega⟩)]
  congr 1
  funext d; match d with
  | ⟨0, _⟩ => exact Fin.ext (by show o + a.val - o = a.val; omega)
  | ⟨1, _⟩ => rfl

/-- A row outside the band reads what was there. -/
theorem putRows_of_not_mem (s : Vec F S1000x128 .f32) (o : ℕ) (p : Vec F S200x128 .f32) (y : S1000x128.Idx)
    (h : (y 0).val < o ∨ o + 200 ≤ (y 0).val) : putRows s o p y = s y := by
  unfold putRows
  rw [dif_neg (by omega)]

/-- One store of a 200-row band through a view of the scratch, read back whole: `putRows` of what the view read before. -/
theorem read_store_rows {κ : Kind} {sp : Space} (v : View sig κ sp S1000x128 .f32) (f : v.ty.Contents (Elt F))
    (off : Fin 2 → ℕ) (inb : ∀ a, off a + S200x128.size a ≤ S1000x128.size a)
    (w : (Rect.unit (s := S1000x128) off S200x128.size inb).shape.Idx → Elt F .f32) (hoff : off = ![off 0, 0]) :
    v.read (Elt F) (v.writes (Elt F) f [⟨Rect.unit (s := S1000x128) off S200x128.size inb, w⟩])
      = putRows (v.read (Elt F) f) (off 0) w := by
  funext y
  by_cases h : off 0 ≤ (y 0).val ∧ (y 0).val < off 0 + 200
  · unfold putRows
    rw [dif_pos h]
    exact View.read_writes_cons_rows_of_mem v f inb w [] y _ hoff (by show (y 0).val = off 0 + ((y 0).val - off 0); omega) rfl
  · rw [putRows_of_not_mem _ _ _ _ (by omega)]
    exact (View.read_writes_cons_rows_of_not_mem v f inb w [] y hoff (W := 200) rfl (by omega)).trans rfl

/-- The all-zero offsets of a whole block, rank 1 and rank 2. -/
theorem zero1 : (![0] : Fin 1 → ℕ) = fun _ => 0 := by
  funext a; match a with
  | ⟨0, _⟩ => rfl
theorem zero2 : (![0, 0] : Fin 2 → ℕ) = fun _ => 0 := by
  funext a; match a with
  | ⟨0, _⟩ => rfl
  | ⟨1, _⟩ => rfl

/-- The point's row offset has column offset 0. -/
theorem off1_eq (i : grid0.Coords) : k0_off1 i = ![k0_off1 i 0, 0] := by
  funext a; match a with
  | ⟨0, _⟩ => rfl
  | ⟨1, _⟩ => rfl

/-- One store through the whole output block, read back: the payload. -/
theorem read_store_whole {κ : Kind} {sp : Space} (v : View sig κ sp S1000x2 .f32) (f : v.ty.Contents (Elt F))
    (inb : ∀ a, (![0, 0] : Fin 2 → ℕ) a + S1000x2.size a ≤ S1000x2.size a) (w : S1000x2.Idx → Elt F .f32) :
    v.read (Elt F) (v.writes (Elt F) f [⟨Rect.unit (s := S1000x2) ![0, 0] S1000x2.size inb, w⟩]) = w := by
  funext y
  exact View.read_writes_cons_unit_of_mem v f inb w [] y y rfl (fun a => by
    match a with
    | ⟨0, _⟩ => exact (Nat.zero_add _).symm
    | ⟨1, _⟩ => exact (Nat.zero_add _).symm)

/-- A load of the whole scratch after one band store: `putRows` of what was there. -/
theorem load_after_store {κ : Kind} {sp : Space} (v : View sig κ sp S1000x128 .f32) (f : v.ty.Contents (Elt F))
    (off : Fin 2 → ℕ) (inb : ∀ a, off a + S200x128.size a ≤ S1000x128.size a)
    (w : (Rect.unit (s := S1000x128) off S200x128.size inb).shape.Idx → Elt F .f32) (hoff : off = ![off 0, 0])
    (inb0 : ∀ a, (![0, 0] : Fin 2 → ℕ) a + S1000x128.size a ≤ S1000x128.size a) :
    v.readAt (Elt F) (Rect.unit (s := S1000x128) ![0, 0] S1000x128.size inb0).toLoadRect
        (v.writes (Elt F) f [⟨Rect.unit (s := S1000x128) off S200x128.size inb, w⟩])
      = putRows (v.read (Elt F) f) (off 0) w := by
  rw [View.readAt_eq_ld, read_store_rows v f off inb w hoff, View.ld_unit_zero (S := S1000x128) zero2]

/-- A load of a whole rank-1 staging block at its contents. -/
theorem load_whole1 {S : Shape} (hS : S.rank = 1) {M : Memref sig .tc .vmem S .f32} (h : M.IsWhole) (x : Vec F S .f32)
    {off : Fin S.rank → ℕ} (hz : off = fun _ => 0) (inb : ∀ a, off a + S.size a ≤ S.size a) :
    M.view.readAt (Elt F) (Rect.unit (s := S) off S.size inb).toLoadRect (h.unread x) = x := by
  rw [View.readAt_eq_ld, h.read_unread, View.ld_unit_zero (S := S) hz]

/-- A load of a box of a staging block at its contents: the box of the contents. -/
theorem load_box {S : Shape} {M : Memref sig .tc .vmem S .f32} (h : M.IsWhole) (x : Vec F S .f32) (r : Rect S) :
    M.view.readAt (Elt F) r.toLoadRect (h.unread x) = View.ld x r := by
  rw [View.readAt_eq_ld, h.read_unread]

/-- The left column half of the second layer's weights, as the body loads it. -/
abbrev leftHalf (x3 : Vec F S128x256 .f32) : Vec F S128x128 .f32 :=
  View.ld x3 (Rect.unit (s := S128x256) ![0, 0] S128x128.size inb_S128x256_S128x128_0_0)
/-- The right column half. -/
abbrev rightHalf (x3 : Vec F S128x256 .f32) : Vec F S128x128 .f32 :=
  View.ld x3 (Rect.unit (s := S128x256) ![0, 128] S128x128.size inb_S128x256_S128x128_0_128)

set_option maxHeartbeats 2000000 in
/-- A point that is not the last: the scratch takes the point's hidden block, everything else is handed back as found. -/
theorem run_store (c : Dev nD) (i : grid0.Coords) (arg1 : Memref sig .tc .vmem S200x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S128 .f32) (harg5 : arg5.IsWhole) (arg6 : Memref sig .tc .vmem S2x128 .f32) (harg6 : arg6.IsWhole) (arg7 : Memref sig .tc .vmem S2 .f32) (harg7 : arg7.IsWhole) (arg8 : Memref sig .tc .vmem S1000x2 .f32) (harg8 : arg8.IsWhole) (arg9 : Memref sig .tc .vmem S1000x128 .f32) (harg9 : arg9.IsWhole) (hc0 : ¬ (k0_cond1 i = 1#1)) (x0 : Vec F S200x128 .f32) (x1 : Vec F S128x128 .f32) (x2 : Vec F S128 .f32) (x3 : Vec F S128x256 .f32) (x4 : Vec F S128 .f32) (x5 : Vec F S2x128 .f32) (x6 : Vec F S2 .f32) (s : Vec F S1000x128 .f32) (y7 : Vec F S1000x2 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare s
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7
              ∗ owns (c : Thread nD τ) arg9 fullShare (putRows s (k0_off1 i 0) (k0_pay1 x2 x0 x1))) -∗ K ⟨⟩))
        ⊢ wp frame (wpE (defs₀ (F := F)) Variants.none c none) E (cc0__ggcn_kernel i arg1 harg1 arg2 harg2 arg3 harg3 arg4 harg4 arg5 harg5 arg6 harg6 arg7 harg7 arg8 harg8 arg9 harg9) K := by
  intro E K
  simp only [cc0__ggcn_kernel_eq_skeleton]; unfold cc0__ggcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact hf7
    iexact H7
  iexists _; isplitr; swap; · iexact HS0
  ipureintro
  rw [read_store_rows arg9.view _ _ _ _ (off1_eq i), harg9.read_unread]
  simp only [View.readAt_eq_ld, harg1.read_unread, harg2.read_unread, harg3.read_unread,
    View.ld_unit_zero (S := S128) zero1, View.ld_unit_zero (S := S200x128) zero2, View.ld_unit_zero (S := S128x128) zero2]

set_option maxHeartbeats 4000000 in
/-- The last point: the scratch takes the point's hidden block, and the output block takes the read-out computed from the
    whole scratch as it then stands and the weights' two column halves. -/
theorem run_tail (c : Dev nD) (i : grid0.Coords) (arg1 : Memref sig .tc .vmem S200x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S128 .f32) (harg5 : arg5.IsWhole) (arg6 : Memref sig .tc .vmem S2x128 .f32) (harg6 : arg6.IsWhole) (arg7 : Memref sig .tc .vmem S2 .f32) (harg7 : arg7.IsWhole) (arg8 : Memref sig .tc .vmem S1000x2 .f32) (harg8 : arg8.IsWhole) (arg9 : Memref sig .tc .vmem S1000x128 .f32) (harg9 : arg9.IsWhole) (hc0 : k0_cond1 i = 1#1) (x0 : Vec F S200x128 .f32) (x1 : Vec F S128x128 .f32) (x2 : Vec F S128 .f32) (x3 : Vec F S128x256 .f32) (x4 : Vec F S128 .f32) (x5 : Vec F S2x128 .f32) (x6 : Vec F S2 .f32) (s : Vec F S1000x128 .f32) (y7 : Vec F S1000x2 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare s
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
              ∗ owns (c : Thread nD τ) arg8 fullShare (k0_pay2 x4 (leftHalf x3) (rightHalf x3) (putRows s (k0_off1 i 0) (k0_pay1 x2 x0 x1)) x5 x6)
              ∗ owns (c : Thread nD τ) arg9 fullShare (putRows s (k0_off1 i 0) (k0_pay1 x2 x0 x1))) -∗ K ⟨⟩))
        ⊢ wp frame (wpE (defs₀ (F := F)) Variants.none c none) E (cc0__ggcn_kernel i arg1 harg1 arg2 harg2 arg3 harg3 arg4 harg4 arg5 harg5 arg6 harg6 arg7 harg7 arg8 harg8 arg9 harg9) K := by
  intro E K
  simp only [cc0__ggcn_kernel_eq_skeleton]; unfold cc0__ggcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    sl_unfold_run_names
    rw [read_store_whole, load_after_store arg9.view _ _ _ _ (off1_eq i), harg9.read_unread,
      load_whole1 rfl harg5 x4 zero1, load_whole1 rfl harg3 x2 zero1, load_whole1 rfl harg7 x6 zero1,
      load_box harg4 x3, load_box harg4 x3, load_box harg1 x0, load_box harg2 x1, load_box harg6 x5,
      View.ld_unit_zero (S := S200x128) zero2, View.ld_unit_zero (S := S128x128) zero2, View.ld_unit_zero (S := S2x128) zero2]
  iexists _; isplitr; swap; · iexact HS0
  ipureintro
  sl_unfold_run_names
  rw [read_store_rows arg9.view _ _ _ _ (off1_eq i), harg9.read_unread,
    load_whole1 rfl harg3 x2 zero1, load_box harg1 x0, load_box harg2 x1,
    View.ld_unit_zero (S := S200x128) zero2, View.ld_unit_zero (S := S128x128) zero2]

end Cert.Kernel.Ggcn
end
-- ==== Proof.BBodyDat.lean ====
/-
  The pipeline's proof data and the body obligation, at any float instance; the frame run and the output array it leaves.

  Across the five grid points the scratch is filled band by band: before point n, rows [200 t, 200 t + 200) hold the
  hidden block of point t for every t < n (`Filled`), the rest anything. The invariant carries the scratch at SOME
  contents with that fact; each point's store extends it by one band (`filled_step`), and after the fifth the scratch
  is the whole hidden layer (`eq_hidAll_of_filled`), from which the last point computes the output block.
-/
import proofs.«176965_g80925773791738_cont_9to1c4b_127_19_alg».proof.Proof.BBodyRun

set_option maxRecDepth 16384

noncomputable section

namespace Cert.Kernel.Ggcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five points, decided -/

/-- The tail runs at the last point only. -/
theorem tail_iff : ∀ t : Fin cfg0.N, k0_cond1 (grid0.coords t) = 1#1 ↔ t.val = 4 :=
  (by decide +kernel : ∀ t : Fin grid0.N, k0_cond1 (grid0.coords t) = 1#1 ↔ t.val = 4)
/-- Point t stores rows from 200 t. -/
theorem rowOff : ∀ t : Fin cfg0.N, k0_off1 (grid0.coords t) 0 = 200 * t.val :=
  (by decide +kernel : ∀ t : Fin grid0.N, k0_off1 (grid0.coords t) 0 = 200 * t.val)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output block is idle, and not written back, at every point but the last. -/
theorem idle7 : ∀ t : Fin cfg0.N, t.val ≠ 4 → cfg0.idle 7 (grid0.coords t) = true :=
  (by decide +kernel : ∀ t : Fin grid0.N, t.val ≠ 4 → cfg0.idle 7 (grid0.coords t) = true)
theorem live7 : ∀ t : Fin cfg0.N, t.val = 4 → cfg0.idle 7 (grid0.coords t) = false :=
  (by decide +kernel : ∀ t : Fin grid0.N, t.val = 4 → cfg0.idle 7 (grid0.coords t) = false)
theorem noflush7 : ∀ t : Fin cfg0.N, t.val ≠ 4 → (cfg0.win 7).flush t = false :=
  (by decide +kernel : ∀ t : Fin grid0.N, t.val ≠ 4 → win0_7.flush t = false)
theorem flush7 : ∀ t : Fin cfg0.N, (cfg0.win 7).flush t = true → t.val = 4 :=
  (by decide +kernel : ∀ t : Fin grid0.N, win0_7.flush t = true → t.val = 4)

/-- The last point. -/
abbrev lastPt : Fin cfg0.N := ⟨4, by rw [show cfg0.N = 5 from N_0]; norm_num⟩

/-! ## The staging memrefs and the scratch -/

abbrev ms0 (t : Fin cfg0.N) : Memref sig .tc .vmem S200x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S128 .f32 := win0_2.stage (cfg0.slots t 2)
abbrev ms3 (t : Fin cfg0.N) : Memref sig .tc .vmem S128x256 .f32 := win0_3.stage (cfg0.slots t 3)
abbrev ms4 (t : Fin cfg0.N) : Memref sig .tc .vmem S128 .f32 := win0_4.stage (cfg0.slots t 4)
abbrev ms5 (t : Fin cfg0.N) : Memref sig .tc .vmem S2x128 .f32 := win0_5.stage (cfg0.slots t 5)
abbrev ms6 (t : Fin cfg0.N) : Memref sig .tc .vmem S2 .f32 := win0_6.stage (cfg0.slots t 6)
abbrev ms7 (t : Fin cfg0.N) : Memref sig .tc .vmem S1000x2 .f32 := win0_7.stage (cfg0.slots t 7)
/-- The scratch: a whole scoped buffer of the kernel's own. -/
abbrev scM : Memref sig .tc .vmem S1000x128 .f32 := Memref.whole cc0_scratch0

/-- The class invariant: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the scratch holds point by point -/

/-- The hidden block point t computes from its input blocks. -/
abbrev hidBlk (c : Dev nD) (t : Fin cfg0.N) : Vec F S200x128 .f32 := k0_pay1 (iblk m c 2 t) (iblk m c 0 t) (iblk m c 1 t)

/-- Rows below 200 n hold the hidden blocks of the points below n. -/
def Filled (c : Dev nD) (n : ℕ) (d : Vec F S1000x128 .f32) : Prop :=
  ∀ t : Fin cfg0.N, t.val < n → ∀ (a : Fin 200) (k : Fin 128) (h : 200 * t.val + a.val < 1000),
    d (ix2 (⟨200 * t.val + a.val, h⟩ : Fin 1000) k) = hidBlk m c t (ix2 a k)

theorem filled_zero (c : Dev nD) (d : Vec F S1000x128 .f32) : Filled m c 0 d := fun t h => absurd h (Nat.not_lt_zero _)

/-- Point t's store extends the filled rows by its band; the bands below are untouched. -/
theorem filled_step (c : Dev nD) (t : Fin cfg0.N) (d : Vec F S1000x128 .f32) (hd : Filled m c t.val d) :
    Filled m c (t.val + 1) (putRows d (200 * t.val) (hidBlk m c t)) := by
  intro t' ht' a k h
  by_cases e : t'.val = t.val
  · obtain rfl : t' = t := Fin.ext e
    exact putRows_of_mem _ _ _ a k h
  · rw [putRows_of_not_mem _ _ _ _ (Or.inl (by show 200 * t'.val + a.val < 200 * t.val; have := a.isLt; omega))]
    exact hd t' (by omega) a k h

/-- The whole hidden layer: row r is row r mod 200 of the hidden block of point r / 200. -/
def hidAll (c : Dev nD) : Vec F S1000x128 .f32 := fun y =>
  hidBlk m c (⟨(y 0).val / 200, by rw [show cfg0.N = 5 from N_0]; have := idx2_lt0 y; omega⟩)
    (ix2 (⟨(y 0).val % 200, Nat.mod_lt _ (by norm_num)⟩ : Fin 200) (⟨(y 1).val, idx2_lt1 y⟩ : Fin 128))

/-- Once all five bands are filled the scratch is the whole hidden layer. -/
theorem eq_hidAll_of_filled (c : Dev nD) (d : Vec F S1000x128 .f32) (hd : Filled m c 5 d) : d = hidAll m c := by
  funext y
  have h0 := idx2_lt0 y
  have e := hd (⟨(y 0).val / 200, by rw [show cfg0.N = 5 from N_0]; omega⟩) (by show (y 0).val / 200 < 5; omega)
    (⟨(y 0).val % 200, Nat.mod_lt _ (by norm_num)⟩ : Fin 200) (⟨(y 1).val, idx2_lt1 y⟩ : Fin 128)
    (by show 200 * ((y 0).val / 200) + (y 0).val % 200 < 1000; omega)
  refine (congrArg d ?_).trans e
  funext a; match a with
  | ⟨0, _⟩ => exact Fin.ext (by show (y 0).val = 200 * ((y 0).val / 200) + (y 0).val % 200; omega)
  | ⟨1, _⟩ => rfl

/-- The output block the last point stores. -/
def outAll (c : Dev nD) : Vec F S1000x2 .f32 :=
  k0_pay2 (iblk m c 4 lastPt) (leftHalf (iblk m c 3 lastPt)) (rightHalf (iblk m c 3 lastPt)) (hidAll m c)
    (iblk m c 5 lastPt) (iblk m c 6 lastPt)

/-- The invariant before point n: the scratch at some contents whose first n bands are filled. -/
def PhiS (c : Dev nD) (n : ℕ) : sProp 𝕄 :=
  iprop(iprop(∃ d, ⌜Filled m c n d⌝ ∗ owns (c : Thread nD τ) scM fullShare d) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAll m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAll m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rewrite [show (dats m 0 c).owesAt () t.succ = (dats m 0 c).owesAt () t.castSucc from rfl]
  rewrite [show (dats m 0 c).Φ t.succ = PhiS m c (t.val + 1) from rfl,
    show (dats m 0 c).Φ t.castSucc = PhiS m c t.val from rfl]
  unfold PhiS
  by_cases h4 : t.val = 4
  · obtain rfl : t = lastPt := Fin.ext h4
    rewrite [show (dats m 0 c).leavesExact 0 lastPt = owns (c : Thread nD τ) (ms0 lastPt) fullShare ((dats m 0 c).after 0 lastPt) from by
      unfold Dat.leavesExact; rw [live0 lastPt], after0]
    rewrite [show (dats m 0 c).leavesExact 1 lastPt = owns (c : Thread nD τ) (ms1 lastPt) fullShare ((dats m 0 c).after 1 lastPt) from by
      unfold Dat.leavesExact; rw [live1 lastPt], after1]
    rewrite [show (dats m 0 c).leavesExact 2 lastPt = owns (c : Thread nD τ) (ms2 lastPt) fullShare ((dats m 0 c).after 2 lastPt) from by
      unfold Dat.leavesExact; rw [live2 lastPt], after2]
    rewrite [show (dats m 0 c).leavesExact 3 lastPt = owns (c : Thread nD τ) (ms3 lastPt) fullShare ((dats m 0 c).after 3 lastPt) from by
      unfold Dat.leavesExact; rw [live3 lastPt], after3]
    rewrite [show (dats m 0 c).leavesExact 4 lastPt = owns (c : Thread nD τ) (ms4 lastPt) fullShare ((dats m 0 c).after 4 lastPt) from by
      unfold Dat.leavesExact; rw [live4 lastPt], after4]
    rewrite [show (dats m 0 c).leavesExact 5 lastPt = owns (c : Thread nD τ) (ms5 lastPt) fullShare ((dats m 0 c).after 5 lastPt) from by
      unfold Dat.leavesExact; rw [live5 lastPt], after5]
    rewrite [show (dats m 0 c).leavesExact 6 lastPt = owns (c : Thread nD τ) (ms6 lastPt) fullShare ((dats m 0 c).after 6 lastPt) from by
      unfold Dat.leavesExact; rw [live6 lastPt], after6]
    rewrite [show (dats m 0 c).leavesExact 7 lastPt = owns (c : Thread nD τ) (ms7 lastPt) fullShare ((dats m 0 c).after 7 lastPt) from by
      unfold Dat.leavesExact; rw [live7 lastPt rfl], after7]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hE : putRows d (k0_off1 (grid0.coords lastPt) 0) (hidBlk m c lastPt) = hidAll m c := by
      rw [rowOff]; exact eq_hidAll_of_filled m c _ (filled_step m c lastPt d hd)
    iapply ((run_tail c (grid0.coords lastPt) _ _ _ _ _ _ _ _ _ _ _ _ _ _ _ _ _ _ ((tail_iff lastPt).mpr rfl) (iblk m c 0 lastPt) (iblk m c 1 lastPt) (iblk m c 2 lastPt) (iblk m c 3 lastPt) (iblk m c 4 lastPt) (iblk m c 5 lastPt) (iblk m c 6 lastPt) d ((dats m 0 c).before 7 lastPt d7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    rw [hE]
    isplitl [HS0 Hg]
    · isplitl [HS0]
      · iexists _; isplitr; swap; · iexact HS0
        ipureintro; rw [← hE, rowOff]; exact filled_step m c lastPt d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ·
    rewrite [show (dats m 0 c).leavesExact 0 t = owns (c : Thread nD τ) (ms0 t) fullShare ((dats m 0 c).after 0 t) from by
      unfold Dat.leavesExact; rw [live0 t], after0]
    rewrite [show (dats m 0 c).leavesExact 1 t = owns (c : Thread nD τ) (ms1 t) fullShare ((dats m 0 c).after 1 t) from by
      unfold Dat.leavesExact; rw [live1 t], after1]
    rewrite [show (dats m 0 c).leavesExact 2 t = owns (c : Thread nD τ) (ms2 t) fullShare ((dats m 0 c).after 2 t) from by
      unfold Dat.leavesExact; rw [live2 t], after2]
    rewrite [show (dats m 0 c).leavesExact 3 t = owns (c : Thread nD τ) (ms3 t) fullShare ((dats m 0 c).after 3 t) from by
      unfold Dat.leavesExact; rw [live3 t], after3]
    rewrite [show (dats m 0 c).leavesExact 4 t = owns (c : Thread nD τ) (ms4 t) fullShare ((dats m 0 c).after 4 t) from by
      unfold Dat.leavesExact; rw [live4 t], after4]
    rewrite [show (dats m 0 c).leavesExact 5 t = owns (c : Thread nD τ) (ms5 t) fullShare ((dats m 0 c).after 5 t) from by
      unfold Dat.leavesExact; rw [live5 t], after5]
    rewrite [show (dats m 0 c).leavesExact 6 t = owns (c : Thread nD τ) (ms6 t) fullShare ((dats m 0 c).after 6 t) from by
      unfold Dat.leavesExact; rw [live6 t], after6]
    rewrite [Dat.leavesExact_idle (dats m 0 c) 7 t (idle7 t h4) (noflush7 t h4)]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_store c (grid0.coords t) _ _ _ _ _ _ _ _ _ _ _ _ _ _ _ _ _ _ (fun h => h4 ((tail_iff t).mp h)) (iblk m c 0 t) (iblk m c 1 t) (iblk m c 2 t) (iblk m c 3 t) (iblk m c 4 t) (iblk m c 5 t) (iblk m c 6 t) d ((dats m 0 c).before 7 t d7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexists _; isplitr; swap; · iexact HS0
        ipureintro; rw [rowOff]; exact filled_step m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point no band is asked for. -/
theorem hin (c : Dev nD) : Pipeline.ΦA spec0 c ⊢ (dats m 0 c).Φ 0 := by
  rewrite [show (dats m 0 c).Φ 0 = PhiS m c 0 from rfl, PhiA_eq]
  unfold PhiS
  iintro ⟨⟨%d, HS0⟩, Hg⟩
  isplitl [HS0]
  · iexists d; isplitr; · ipureintro; exact filled_zero m c d
    iexact HS0
  iexact Hg

/-- After the last point the scratch's contents are forgotten. -/
theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA_eq]
  unfold PhiS
  iintro ⟨⟨%d, %hd, HS0⟩, Hg⟩
  isplitl [HS0]
  · iexists d; iexact HS0
  iexact Hg

/-! ## The run and the frame -/

set_option backward.isDefEq.respectTransparency.types false in
/-- Every weakly fair execution of @main terminates, every array of the pipeline at what the proof data compute and
    every other unscoped buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Ggcn
end
-- ==== Proof.KBodyRun.lean ====
/-
  One grid point of the kernel body, as a triple over symbolic staging memrefs, at any float instance.

  Every point computes the hidden layer of its 200-row block of the input, relu (x · wᵀ + b), and stores it into rows
  [o, o + 200) of the scratch, o the point's row offset; what the scratch held elsewhere is kept (`putRows`). The last
  point then loads the whole scratch and the two column halves of the second layer's weights, computes the read-out
  and stores it into the output block; the other points leave the output block as they found it.
-/
import proofs.«176965_g80925773791738_cont_9to1c4b_127_19_alg».proof.Proof.Gen.KernelIdeal.Frame
import proofs.«176965_g80925773791738_cont_9to1c4b_127_19_alg».proof.Proof.Gen.KernelIdeal.Skeleton
import Idealize.ShloMosaic.Lib.WritesUnit
import Idealize.ShloMosaic.Lib.ValueIdx
import Idealize.ShloMosaic.Lib.Pipeline.Value

set_option maxRecDepth 16384

noncomputable section

namespace Cert.KernelIdeal.Ggcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Rows [o, o + 200) of `s` replaced by the 200-row block `p`; the other rows kept. -/
def putRows (s : Vec F S1000x128 .f32) (o : ℕ) (p : Vec F S200x128 .f32) : Vec F S1000x128 .f32 := fun y =>
  if h : o ≤ (y 0).val ∧ (y 0).val < o + 200 then
    p (ix2 (⟨(y 0).val - o, by omega⟩ : Fin 200) (⟨(y 1).val, idx2_lt1 y⟩ : Fin 128))
  else s y

/-- A row inside the band reads the block. -/
theorem putRows_of_mem (s : Vec F S1000x128 .f32) (o : ℕ) (p : Vec F S200x128 .f32) (a : Fin 200) (k : Fin 128)
    (h : o + a.val < 1000) : putRows s o p (ix2 (⟨o + a.val, h⟩ : Fin 1000) k) = p (ix2 a k) := by
  unfold putRows
  rw [dif_pos (show o ≤ o + a.val ∧ o + a.val < o + 200 from ⟨Nat.le_add_right _ _, by have := a.isLt; omega⟩)]
  congr 1
  funext d; match d with
  | ⟨0, _⟩ => exact Fin.ext (by show o + a.val - o = a.val; omega)
  | ⟨1, _⟩ => rfl

/-- A row outside the band reads what was there. -/
theorem putRows_of_not_mem (s : Vec F S1000x128 .f32) (o : ℕ) (p : Vec F S200x128 .f32) (y : S1000x128.Idx)
    (h : (y 0).val < o ∨ o + 200 ≤ (y 0).val) : putRows s o p y = s y := by
  unfold putRows
  rw [dif_neg (by omega)]

/-- One store of a 200-row band through a view of the scratch, read back whole: `putRows` of what the view read before. -/
theorem read_store_rows {κ : Kind} {sp : Space} (v : View sig κ sp S1000x128 .f32) (f : v.ty.Contents (Elt F))
    (off : Fin 2 → ℕ) (inb : ∀ a, off a + S200x128.size a ≤ S1000x128.size a)
    (w : (Rect.unit (s := S1000x128) off S200x128.size inb).shape.Idx → Elt F .f32) (hoff : off = ![off 0, 0]) :
    v.read (Elt F) (v.writes (Elt F) f [⟨Rect.unit (s := S1000x128) off S200x128.size inb, w⟩])
      = putRows (v.read (Elt F) f) (off 0) w := by
  funext y
  by_cases h : off 0 ≤ (y 0).val ∧ (y 0).val < off 0 + 200
  · unfold putRows
    rw [dif_pos h]
    exact View.read_writes_cons_rows_of_mem v f inb w [] y _ hoff (by show (y 0).val = off 0 + ((y 0).val - off 0); omega) rfl
  · rw [putRows_of_not_mem _ _ _ _ (by omega)]
    exact (View.read_writes_cons_rows_of_not_mem v f inb w [] y hoff (W := 200) rfl (by omega)).trans rfl

/-- The all-zero offsets of a whole block, rank 1 and rank 2. -/
theorem zero1 : (![0] : Fin 1 → ℕ) = fun _ => 0 := by
  funext a; match a with
  | ⟨0, _⟩ => rfl
theorem zero2 : (![0, 0] : Fin 2 → ℕ) = fun _ => 0 := by
  funext a; match a with
  | ⟨0, _⟩ => rfl
  | ⟨1, _⟩ => rfl

/-- The point's row offset has column offset 0. -/
theorem off1_eq (i : grid0.Coords) : k0_off1 i = ![k0_off1 i 0, 0] := by
  funext a; match a with
  | ⟨0, _⟩ => rfl
  | ⟨1, _⟩ => rfl

/-- One store through the whole output block, read back: the payload. -/
theorem read_store_whole {κ : Kind} {sp : Space} (v : View sig κ sp S1000x2 .f32) (f : v.ty.Contents (Elt F))
    (inb : ∀ a, (![0, 0] : Fin 2 → ℕ) a + S1000x2.size a ≤ S1000x2.size a) (w : S1000x2.Idx → Elt F .f32) :
    v.read (Elt F) (v.writes (Elt F) f [⟨Rect.unit (s := S1000x2) ![0, 0] S1000x2.size inb, w⟩]) = w := by
  funext y
  exact View.read_writes_cons_unit_of_mem v f inb w [] y y rfl (fun a => by
    match a with
    | ⟨0, _⟩ => exact (Nat.zero_add _).symm
    | ⟨1, _⟩ => exact (Nat.zero_add _).symm)

/-- A load of the whole scratch after one band store: `putRows` of what was there. -/
theorem load_after_store {κ : Kind} {sp : Space} (v : View sig κ sp S1000x128 .f32) (f : v.ty.Contents (Elt F))
    (off : Fin 2 → ℕ) (inb : ∀ a, off a + S200x128.size a ≤ S1000x128.size a)
    (w : (Rect.unit (s := S1000x128) off S200x128.size inb).shape.Idx → Elt F .f32) (hoff : off = ![off 0, 0])
    (inb0 : ∀ a, (![0, 0] : Fin 2 → ℕ) a + S1000x128.size a ≤ S1000x128.size a) :
    v.readAt (Elt F) (Rect.unit (s := S1000x128) ![0, 0] S1000x128.size inb0).toLoadRect
        (v.writes (Elt F) f [⟨Rect.unit (s := S1000x128) off S200x128.size inb, w⟩])
      = putRows (v.read (Elt F) f) (off 0) w := by
  rw [View.readAt_eq_ld, read_store_rows v f off inb w hoff, View.ld_unit_zero (S := S1000x128) zero2]

/-- A load of a whole rank-1 staging block at its contents. -/
theorem load_whole1 {S : Shape} (hS : S.rank = 1) {M : Memref sig .tc .vmem S .f32} (h : M.IsWhole) (x : Vec F S .f32)
    {off : Fin S.rank → ℕ} (hz : off = fun _ => 0) (inb : ∀ a, off a + S.size a ≤ S.size a) :
    M.view.readAt (Elt F) (Rect.unit (s := S) off S.size inb).toLoadRect (h.unread x) = x := by
  rw [View.readAt_eq_ld, h.read_unread, View.ld_unit_zero (S := S) hz]

/-- A load of a box of a staging block at its contents: the box of the contents. -/
theorem load_box {S : Shape} {M : Memref sig .tc .vmem S .f32} (h : M.IsWhole) (x : Vec F S .f32) (r : Rect S) :
    M.view.readAt (Elt F) r.toLoadRect (h.unread x) = View.ld x r := by
  rw [View.readAt_eq_ld, h.read_unread]

/-- The left column half of the second layer's weights, as the body loads it. -/
abbrev leftHalf (x3 : Vec F S128x256 .f32) : Vec F S128x128 .f32 :=
  View.ld x3 (Rect.unit (s := S128x256) ![0, 0] S128x128.size inb_S128x256_S128x128_0_0)
/-- The right column half. -/
abbrev rightHalf (x3 : Vec F S128x256 .f32) : Vec F S128x128 .f32 :=
  View.ld x3 (Rect.unit (s := S128x256) ![0, 128] S128x128.size inb_S128x256_S128x128_0_128)

set_option maxHeartbeats 2000000 in
/-- A point that is not the last: the scratch takes the point's hidden block, everything else is handed back as found. -/
theorem run_store (c : Dev nD) (i : grid0.Coords) (arg1 : Memref sig .tc .vmem S200x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S128 .f32) (harg5 : arg5.IsWhole) (arg6 : Memref sig .tc .vmem S2x128 .f32) (harg6 : arg6.IsWhole) (arg7 : Memref sig .tc .vmem S2 .f32) (harg7 : arg7.IsWhole) (arg8 : Memref sig .tc .vmem S1000x2 .f32) (harg8 : arg8.IsWhole) (arg9 : Memref sig .tc .vmem S1000x128 .f32) (harg9 : arg9.IsWhole) (hc0 : ¬ (k0_cond1 i = 1#1)) (x0 : Vec F S200x128 .f32) (x1 : Vec F S128x128 .f32) (x2 : Vec F S128 .f32) (x3 : Vec F S128x256 .f32) (x4 : Vec F S128 .f32) (x5 : Vec F S2x128 .f32) (x6 : Vec F S2 .f32) (s : Vec F S1000x128 .f32) (y7 : Vec F S1000x2 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare s
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7
              ∗ owns (c : Thread nD τ) arg9 fullShare (putRows s (k0_off1 i 0) (k0_pay1 x2 x0 x1))) -∗ K ⟨⟩))
        ⊢ wp frame (wpE (defs₀ (F := F)) Variants.none c none) E (cc0__ggcn_kernel i arg1 harg1 arg2 harg2 arg3 harg3 arg4 harg4 arg5 harg5 arg6 harg6 arg7 harg7 arg8 harg8 arg9 harg9) K := by
  intro E K
  simp only [cc0__ggcn_kernel_eq_skeleton]; unfold cc0__ggcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact hf7
    iexact H7
  iexists _; isplitr; swap; · iexact HS0
  ipureintro
  rw [read_store_rows arg9.view _ _ _ _ (off1_eq i), harg9.read_unread]
  simp only [View.readAt_eq_ld, harg1.read_unread, harg2.read_unread, harg3.read_unread,
    View.ld_unit_zero (S := S128) zero1, View.ld_unit_zero (S := S200x128) zero2, View.ld_unit_zero (S := S128x128) zero2]

set_option maxHeartbeats 4000000 in
/-- The last point: the scratch takes the point's hidden block, and the output block takes the read-out computed from the
    whole scratch as it then stands and the weights' two column halves. -/
theorem run_tail (c : Dev nD) (i : grid0.Coords) (arg1 : Memref sig .tc .vmem S200x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x256 .f32) (harg4 : arg4.IsWhole) (arg5 : Memref sig .tc .vmem S128 .f32) (harg5 : arg5.IsWhole) (arg6 : Memref sig .tc .vmem S2x128 .f32) (harg6 : arg6.IsWhole) (arg7 : Memref sig .tc .vmem S2 .f32) (harg7 : arg7.IsWhole) (arg8 : Memref sig .tc .vmem S1000x2 .f32) (harg8 : arg8.IsWhole) (arg9 : Memref sig .tc .vmem S1000x128 .f32) (harg9 : arg9.IsWhole) (hc0 : k0_cond1 i = 1#1) (x0 : Vec F S200x128 .f32) (x1 : Vec F S128x128 .f32) (x2 : Vec F S128 .f32) (x3 : Vec F S128x256 .f32) (x4 : Vec F S128 .f32) (x5 : Vec F S2x128 .f32) (x6 : Vec F S2 .f32) (s : Vec F S1000x128 .f32) (y7 : Vec F S1000x2 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare s
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
              ∗ owns (c : Thread nD τ) arg8 fullShare (k0_pay2 x4 (leftHalf x3) (rightHalf x3) (putRows s (k0_off1 i 0) (k0_pay1 x2 x0 x1)) x5 x6)
              ∗ owns (c : Thread nD τ) arg9 fullShare (putRows s (k0_off1 i 0) (k0_pay1 x2 x0 x1))) -∗ K ⟨⟩))
        ⊢ wp frame (wpE (defs₀ (F := F)) Variants.none c none) E (cc0__ggcn_kernel i arg1 harg1 arg2 harg2 arg3 harg3 arg4 harg4 arg5 harg5 arg6 harg6 arg7 harg7 arg8 harg8 arg9 harg9) K := by
  intro E K
  simp only [cc0__ggcn_kernel_eq_skeleton]; unfold cc0__ggcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    sl_unfold_run_names
    rw [read_store_whole, load_after_store arg9.view _ _ _ _ (off1_eq i), harg9.read_unread,
      load_whole1 rfl harg5 x4 zero1, load_whole1 rfl harg3 x2 zero1, load_whole1 rfl harg7 x6 zero1,
      load_box harg4 x3, load_box harg4 x3, load_box harg1 x0, load_box harg2 x1, load_box harg6 x5,
      View.ld_unit_zero (S := S200x128) zero2, View.ld_unit_zero (S := S128x128) zero2, View.ld_unit_zero (S := S2x128) zero2]
  iexists _; isplitr; swap; · iexact HS0
  ipureintro
  sl_unfold_run_names
  rw [read_store_rows arg9.view _ _ _ _ (off1_eq i), harg9.read_unread,
    load_whole1 rfl harg3 x2 zero1, load_box harg1 x0, load_box harg2 x1,
    View.ld_unit_zero (S := S200x128) zero2, View.ld_unit_zero (S := S128x128) zero2]

end Cert.KernelIdeal.Ggcn
end
-- ==== Proof.KBodyDat.lean ====
/-
  The pipeline's proof data and the body obligation, at any float instance; the frame run and the output array it leaves.

  Across the five grid points the scratch is filled band by band: before point n, rows [200 t, 200 t + 200) hold the
  hidden block of point t for every t < n (`Filled`), the rest anything. The invariant carries the scratch at SOME
  contents with that fact; each point's store extends it by one band (`filled_step`), and after the fifth the scratch
  is the whole hidden layer (`eq_hidAll_of_filled`), from which the last point computes the output block.
-/
import proofs.«176965_g80925773791738_cont_9to1c4b_127_19_alg».proof.Proof.KBodyRun

set_option maxRecDepth 16384

noncomputable section

namespace Cert.KernelIdeal.Ggcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five points, decided -/

/-- The tail runs at the last point only. -/
theorem tail_iff : ∀ t : Fin cfg0.N, k0_cond1 (grid0.coords t) = 1#1 ↔ t.val = 4 :=
  (by decide +kernel : ∀ t : Fin grid0.N, k0_cond1 (grid0.coords t) = 1#1 ↔ t.val = 4)
/-- Point t stores rows from 200 t. -/
theorem rowOff : ∀ t : Fin cfg0.N, k0_off1 (grid0.coords t) 0 = 200 * t.val :=
  (by decide +kernel : ∀ t : Fin grid0.N, k0_off1 (grid0.coords t) 0 = 200 * t.val)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
/-- The output block is idle, and not written back, at every point but the last. -/
theorem idle7 : ∀ t : Fin cfg0.N, t.val ≠ 4 → cfg0.idle 7 (grid0.coords t) = true :=
  (by decide +kernel : ∀ t : Fin grid0.N, t.val ≠ 4 → cfg0.idle 7 (grid0.coords t) = true)
theorem live7 : ∀ t : Fin cfg0.N, t.val = 4 → cfg0.idle 7 (grid0.coords t) = false :=
  (by decide +kernel : ∀ t : Fin grid0.N, t.val = 4 → cfg0.idle 7 (grid0.coords t) = false)
theorem noflush7 : ∀ t : Fin cfg0.N, t.val ≠ 4 → (cfg0.win 7).flush t = false :=
  (by decide +kernel : ∀ t : Fin grid0.N, t.val ≠ 4 → win0_7.flush t = false)
theorem flush7 : ∀ t : Fin cfg0.N, (cfg0.win 7).flush t = true → t.val = 4 :=
  (by decide +kernel : ∀ t : Fin grid0.N, win0_7.flush t = true → t.val = 4)

/-- The last point. -/
abbrev lastPt : Fin cfg0.N := ⟨4, by rw [show cfg0.N = 5 from N_0]; norm_num⟩

/-! ## The staging memrefs and the scratch -/

abbrev ms0 (t : Fin cfg0.N) : Memref sig .tc .vmem S200x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S128 .f32 := win0_2.stage (cfg0.slots t 2)
abbrev ms3 (t : Fin cfg0.N) : Memref sig .tc .vmem S128x256 .f32 := win0_3.stage (cfg0.slots t 3)
abbrev ms4 (t : Fin cfg0.N) : Memref sig .tc .vmem S128 .f32 := win0_4.stage (cfg0.slots t 4)
abbrev ms5 (t : Fin cfg0.N) : Memref sig .tc .vmem S2x128 .f32 := win0_5.stage (cfg0.slots t 5)
abbrev ms6 (t : Fin cfg0.N) : Memref sig .tc .vmem S2 .f32 := win0_6.stage (cfg0.slots t 6)
abbrev ms7 (t : Fin cfg0.N) : Memref sig .tc .vmem S1000x2 .f32 := win0_7.stage (cfg0.slots t 7)
/-- The scratch: a whole scoped buffer of the kernel's own. -/
abbrev scM : Memref sig .tc .vmem S1000x128 .f32 := Memref.whole cc0_scratch0

/-- The class invariant: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the scratch holds point by point -/

/-- The hidden block point t computes from its input blocks. -/
abbrev hidBlk (c : Dev nD) (t : Fin cfg0.N) : Vec F S200x128 .f32 := k0_pay1 (iblk m c 2 t) (iblk m c 0 t) (iblk m c 1 t)

/-- Rows below 200 n hold the hidden blocks of the points below n. -/
def Filled (c : Dev nD) (n : ℕ) (d : Vec F S1000x128 .f32) : Prop :=
  ∀ t : Fin cfg0.N, t.val < n → ∀ (a : Fin 200) (k : Fin 128) (h : 200 * t.val + a.val < 1000),
    d (ix2 (⟨200 * t.val + a.val, h⟩ : Fin 1000) k) = hidBlk m c t (ix2 a k)

theorem filled_zero (c : Dev nD) (d : Vec F S1000x128 .f32) : Filled m c 0 d := fun t h => absurd h (Nat.not_lt_zero _)

/-- Point t's store extends the filled rows by its band; the bands below are untouched. -/
theorem filled_step (c : Dev nD) (t : Fin cfg0.N) (d : Vec F S1000x128 .f32) (hd : Filled m c t.val d) :
    Filled m c (t.val + 1) (putRows d (200 * t.val) (hidBlk m c t)) := by
  intro t' ht' a k h
  by_cases e : t'.val = t.val
  · obtain rfl : t' = t := Fin.ext e
    exact putRows_of_mem _ _ _ a k h
  · rw [putRows_of_not_mem _ _ _ _ (Or.inl (by show 200 * t'.val + a.val < 200 * t.val; have := a.isLt; omega))]
    exact hd t' (by omega) a k h

/-- The whole hidden layer: row r is row r mod 200 of the hidden block of point r / 200. -/
def hidAll (c : Dev nD) : Vec F S1000x128 .f32 := fun y =>
  hidBlk m c (⟨(y 0).val / 200, by rw [show cfg0.N = 5 from N_0]; have := idx2_lt0 y; omega⟩)
    (ix2 (⟨(y 0).val % 200, Nat.mod_lt _ (by norm_num)⟩ : Fin 200) (⟨(y 1).val, idx2_lt1 y⟩ : Fin 128))

/-- Once all five bands are filled the scratch is the whole hidden layer. -/
theorem eq_hidAll_of_filled (c : Dev nD) (d : Vec F S1000x128 .f32) (hd : Filled m c 5 d) : d = hidAll m c := by
  funext y
  have h0 := idx2_lt0 y
  have e := hd (⟨(y 0).val / 200, by rw [show cfg0.N = 5 from N_0]; omega⟩) (by show (y 0).val / 200 < 5; omega)
    (⟨(y 0).val % 200, Nat.mod_lt _ (by norm_num)⟩ : Fin 200) (⟨(y 1).val, idx2_lt1 y⟩ : Fin 128)
    (by show 200 * ((y 0).val / 200) + (y 0).val % 200 < 1000; omega)
  refine (congrArg d ?_).trans e
  funext a; match a with
  | ⟨0, _⟩ => exact Fin.ext (by show (y 0).val = 200 * ((y 0).val / 200) + (y 0).val % 200; omega)
  | ⟨1, _⟩ => rfl

/-- The output block the last point stores. -/
def outAll (c : Dev nD) : Vec F S1000x2 .f32 :=
  k0_pay2 (iblk m c 4 lastPt) (leftHalf (iblk m c 3 lastPt)) (rightHalf (iblk m c 3 lastPt)) (hidAll m c)
    (iblk m c 5 lastPt) (iblk m c 6 lastPt)

/-- The invariant before point n: the scratch at some contents whose first n bands are filled. -/
def PhiS (c : Dev nD) (n : ℕ) : sProp 𝕄 :=
  iprop(iprop(∃ d, ⌜Filled m c n d⌝ ∗ owns (c : Thread nD τ) scM fullShare d) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAll m c
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outAll m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rewrite [show (dats m 0 c).owesAt () t.succ = (dats m 0 c).owesAt () t.castSucc from rfl]
  rewrite [show (dats m 0 c).Φ t.succ = PhiS m c (t.val + 1) from rfl,
    show (dats m 0 c).Φ t.castSucc = PhiS m c t.val from rfl]
  unfold PhiS
  by_cases h4 : t.val = 4
  · obtain rfl : t = lastPt := Fin.ext h4
    rewrite [show (dats m 0 c).leavesExact 0 lastPt = owns (c : Thread nD τ) (ms0 lastPt) fullShare ((dats m 0 c).after 0 lastPt) from by
      unfold Dat.leavesExact; rw [live0 lastPt], after0]
    rewrite [show (dats m 0 c).leavesExact 1 lastPt = owns (c : Thread nD τ) (ms1 lastPt) fullShare ((dats m 0 c).after 1 lastPt) from by
      unfold Dat.leavesExact; rw [live1 lastPt], after1]
    rewrite [show (dats m 0 c).leavesExact 2 lastPt = owns (c : Thread nD τ) (ms2 lastPt) fullShare ((dats m 0 c).after 2 lastPt) from by
      unfold Dat.leavesExact; rw [live2 lastPt], after2]
    rewrite [show (dats m 0 c).leavesExact 3 lastPt = owns (c : Thread nD τ) (ms3 lastPt) fullShare ((dats m 0 c).after 3 lastPt) from by
      unfold Dat.leavesExact; rw [live3 lastPt], after3]
    rewrite [show (dats m 0 c).leavesExact 4 lastPt = owns (c : Thread nD τ) (ms4 lastPt) fullShare ((dats m 0 c).after 4 lastPt) from by
      unfold Dat.leavesExact; rw [live4 lastPt], after4]
    rewrite [show (dats m 0 c).leavesExact 5 lastPt = owns (c : Thread nD τ) (ms5 lastPt) fullShare ((dats m 0 c).after 5 lastPt) from by
      unfold Dat.leavesExact; rw [live5 lastPt], after5]
    rewrite [show (dats m 0 c).leavesExact 6 lastPt = owns (c : Thread nD τ) (ms6 lastPt) fullShare ((dats m 0 c).after 6 lastPt) from by
      unfold Dat.leavesExact; rw [live6 lastPt], after6]
    rewrite [show (dats m 0 c).leavesExact 7 lastPt = owns (c : Thread nD τ) (ms7 lastPt) fullShare ((dats m 0 c).after 7 lastPt) from by
      unfold Dat.leavesExact; rw [live7 lastPt rfl], after7]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hE : putRows d (k0_off1 (grid0.coords lastPt) 0) (hidBlk m c lastPt) = hidAll m c := by
      rw [rowOff]; exact eq_hidAll_of_filled m c _ (filled_step m c lastPt d hd)
    iapply ((run_tail c (grid0.coords lastPt) _ _ _ _ _ _ _ _ _ _ _ _ _ _ _ _ _ _ ((tail_iff lastPt).mpr rfl) (iblk m c 0 lastPt) (iblk m c 1 lastPt) (iblk m c 2 lastPt) (iblk m c 3 lastPt) (iblk m c 4 lastPt) (iblk m c 5 lastPt) (iblk m c 6 lastPt) d ((dats m 0 c).before 7 lastPt d7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    rw [hE]
    isplitl [HS0 Hg]
    · isplitl [HS0]
      · iexists _; isplitr; swap; · iexact HS0
        ipureintro; rw [← hE, rowOff]; exact filled_step m c lastPt d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ·
    rewrite [show (dats m 0 c).leavesExact 0 t = owns (c : Thread nD τ) (ms0 t) fullShare ((dats m 0 c).after 0 t) from by
      unfold Dat.leavesExact; rw [live0 t], after0]
    rewrite [show (dats m 0 c).leavesExact 1 t = owns (c : Thread nD τ) (ms1 t) fullShare ((dats m 0 c).after 1 t) from by
      unfold Dat.leavesExact; rw [live1 t], after1]
    rewrite [show (dats m 0 c).leavesExact 2 t = owns (c : Thread nD τ) (ms2 t) fullShare ((dats m 0 c).after 2 t) from by
      unfold Dat.leavesExact; rw [live2 t], after2]
    rewrite [show (dats m 0 c).leavesExact 3 t = owns (c : Thread nD τ) (ms3 t) fullShare ((dats m 0 c).after 3 t) from by
      unfold Dat.leavesExact; rw [live3 t], after3]
    rewrite [show (dats m 0 c).leavesExact 4 t = owns (c : Thread nD τ) (ms4 t) fullShare ((dats m 0 c).after 4 t) from by
      unfold Dat.leavesExact; rw [live4 t], after4]
    rewrite [show (dats m 0 c).leavesExact 5 t = owns (c : Thread nD τ) (ms5 t) fullShare ((dats m 0 c).after 5 t) from by
      unfold Dat.leavesExact; rw [live5 t], after5]
    rewrite [show (dats m 0 c).leavesExact 6 t = owns (c : Thread nD τ) (ms6 t) fullShare ((dats m 0 c).after 6 t) from by
      unfold Dat.leavesExact; rw [live6 t], after6]
    rewrite [Dat.leavesExact_idle (dats m 0 c) 7 t (idle7 t h4) (noflush7 t h4)]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_store c (grid0.coords t) _ _ _ _ _ _ _ _ _ _ _ _ _ _ _ _ _ _ (fun h => h4 ((tail_iff t).mp h)) (iblk m c 0 t) (iblk m c 1 t) (iblk m c 2 t) (iblk m c 3 t) (iblk m c 4 t) (iblk m c 5 t) (iblk m c 6 t) d ((dats m 0 c).before 7 t d7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · isplitl [HS0]
      · iexists _; isplitr; swap; · iexact HS0
        ipureintro; rw [rowOff]; exact filled_step m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point no band is asked for. -/
theorem hin (c : Dev nD) : Pipeline.ΦA spec0 c ⊢ (dats m 0 c).Φ 0 := by
  rewrite [show (dats m 0 c).Φ 0 = PhiS m c 0 from rfl, PhiA_eq]
  unfold PhiS
  iintro ⟨⟨%d, HS0⟩, Hg⟩
  isplitl [HS0]
  · iexists d; isplitr; · ipureintro; exact filled_zero m c d
    iexact HS0
  iexact Hg

/-- After the last point the scratch's contents are forgotten. -/
theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA_eq]
  unfold PhiS
  iintro ⟨⟨%d, %hd, HS0⟩, Hg⟩
  isplitl [HS0]
  · iexists d; iexact HS0
  iexact Hg

/-! ## The run and the frame -/

set_option backward.isDefEq.respectTransparency.types false in
/-- Every weakly fair execution of @main terminates, every array of the pipeline at what the proof data compute and
    every other unscoped buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Ggcn
end
-- ==== Proof.KFinal.lean ====
/-
  The output array after the run. Only the last point writes the output block back, and that block is the whole
  array; so the array ends at what the last point stored: the read-out of the whole hidden layer.
-/
import proofs.«176965_g80925773791738_cont_9to1c4b_127_19_alg».proof.Proof.KBodyDat

set_option maxRecDepth 16384

noncomputable section

namespace Cert.KernelIdeal.Ggcn

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]
variable (m : (ℓ : Loc nD τ sig) → Buf (Elt F) ℓ) (ρ : Dev nD → PrngReg)

/-- The output window's block index is (0, 0) at every point. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- What a point writes back is its block, the whole array, of the read-out. -/
theorem flushed7_eq (c : Dev nD) (t : Fin cfg0.N) :
    (dats m 0 c).flushed 7 t = ((cfg0.win 7).blk t).view.read (Elt F) (outAll m c) := by
  show (cfg0.win 7).cut (grid0.coords t) ((dats m 0 c).after 7 t) = _
  rw [after7]
  obtain ⟨e0, e1⟩ := idx7 t
  funext j
  show outAll m c j = outAll m c (((cfg0.win 7).blk t).view.emb j)
  congr 1
  funext a; apply Fin.ext
  match a with
  | ⟨0, _⟩ => show (j 0).val = win0_7.index t (0 : Fin 2) * 1000 + 1 * (j 0).val; omega
  | ⟨1, _⟩ => show (j 1).val = win0_7.index t (1 : Fin 2) * 2 + 1 * (j 1).val; omega

/-- An index is in point t's block iff each coordinate is in the block's range. -/
theorem mem_blk7 (t : Fin cfg0.N) (i : S1000x2.Idx) :
    i ∈ ((cfg0.win 7).blk t).view.set ↔ ∀ a : Fin 2, win0_7.index t a * S1000x2.size a ≤ (i a).val ∧ (i a).val < win0_7.index t a * S1000x2.size a + S1000x2.size a := by
  show i ∈ ((View.whole main_v0).slice (win0_7.rect t)).set ↔ _
  rw [View.set_slice_whole, Rect.mem_set_unit]
  exact Iff.rfl

/-- Every index of the array is in the last point's block, which is written back. -/
theorem cover7 (i : S1000x2.Idx) : ∃ t : Fin cfg0.N, (cfg0.win 7).flush t = true ∧ i ∈ ((cfg0.win 7).blk t).view.set := by
  refine ⟨lastPt, (flush0_7 lastPt).mpr rfl, ?_⟩
  rw [mem_blk7]
  obtain ⟨e0, e1⟩ := idx7 lastPt
  intro a
  match a with
  | ⟨0, _⟩ =>
    show win0_7.index lastPt (0 : Fin 2) * 1000 ≤ (i 0).val ∧ (i 0).val < win0_7.index lastPt (0 : Fin 2) * 1000 + 1000
    have := idx2_lt0 i; omega
  | ⟨1, _⟩ =>
    show win0_7.index lastPt (1 : Fin 2) * 2 ≤ (i 1).val ∧ (i 1).val < win0_7.index lastPt (1 : Fin 2) * 2 + 2
    have := idx2_lt1 i; omega

/-- The output array after the run. -/
theorem out_final (c : Dev nD) : (dats m 0 c).arrAt 7 cfg0.N = outAll m c :=
  (dats m 0 c).arrAt_eq_of_cover 7 (outAll m c) (fun t _ => flushed7_eq m c t) cover7

/-- The run with the output named: the result array at the read-out, the argument arrays unchanged. -/
theorem run : θ_run defs (onTc (τ := τ) (main (F := F))) ⟨m, fun _ => 0, ρ⟩ (fun r => ∀ c : Dev nD,
      r.2.mem ((c.tc : Thread nD τ).loc main_v0) = outAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (out_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Ggcn
end
-- ==== Proof.Spec.lean ====
/-
  The two forward passes of the ring graph network, as functions on the extended reals.

  A node row r of the hidden layer is hid r = relu (X r · w j + b j). The graph is a ring: node r's neighbour is
  next r = (r + 1) mod 1000. With P = hid · W1ᵀ and Q = hid · W2ᵀ (W1 | W2 the two column halves of gw):

  * the fused form: gA = relu ((P∘next + gb) + Q), gB = relu (P + (Q∘next + gb)), Fs = gA + gB,
    E2 = relu ((P + gb) + Fs · (W2 · ½)ᵀ), y = E2 · fwᵀ + fb;
  * the layered form: g (a ‖ b) = relu ((a ‖ b) · gwᵀ + gb) over the 256 concatenated columns,
    E = relu ((g (hid∘next ‖ hid) + g (hid ‖ hid∘next)) / 2), E2 = g (hid ‖ E), y = E2 · fwᵀ + fb.

  They agree: a sum over 256 columns splits into the two halves, Fs is non-negative so relu (Fs / 2) = Fs / 2,
  and (Fs · ½) · W = Fs · (W · ½) by commutativity and associativity of the product on the extended reals.
-/
import Idealize.ShloMosaic.PureOps.Ideal

noncomputable section

open scoped BigOperators

namespace Cert.Ggcn.Spec

open Idealize.ShloMosaic

variable (X : Fin 1000 → Fin 128 → EReal) (w : Fin 128 → Fin 128 → EReal) (b : Fin 128 → EReal)
  (gw : Fin 128 → Fin 256 → EReal) (gb : Fin 128 → EReal) (fw : Fin 2 → Fin 128 → EReal) (fb : Fin 2 → EReal)

/-- The ring neighbour of node r. -/
def next (r : Fin 1000) : Fin 1000 := ⟨(r.val + 1) % 1000, Nat.mod_lt _ (by norm_num)⟩
/-- Column k of the left half of a 256-column row. -/
def lo (k : Fin 128) : Fin 256 := ⟨k.val, by omega⟩
/-- Column k of the right half of a 256-column row. -/
def hi (k : Fin 128) : Fin 256 := ⟨128 + k.val, by omega⟩
/-- One half, as an extended real. -/
def half : EReal := ((1 / 2 : ℝ) : EReal)

/-- The hidden layer. -/
def hid (r : Fin 1000) (j : Fin 128) : EReal := max ((∑ k : Fin 128, X r k * w j k) + b j) 0

/-! ### The fused form -/
def P (r : Fin 1000) (j : Fin 128) : EReal := ∑ k : Fin 128, hid X w b r k * gw j (lo k)
def Q (r : Fin 1000) (j : Fin 128) : EReal := ∑ k : Fin 128, hid X w b r k * gw j (hi k)
def kA (r : Fin 1000) (j : Fin 128) : EReal := max ((P X w b gw (next r) j + gb j) + Q X w b gw r j) 0
def kB (r : Fin 1000) (j : Fin 128) : EReal := max (P X w b gw r j + (Q X w b gw (next r) j + gb j)) 0
def kF (r : Fin 1000) (j : Fin 128) : EReal := kA X w b gw gb r j + kB X w b gw gb r j
def kE2 (r : Fin 1000) (j : Fin 128) : EReal :=
  max ((P X w b gw r j + gb j) + ∑ k : Fin 128, kF X w b gw gb r k * (gw j (hi k) * half)) 0
def kY (r : Fin 1000) (q : Fin 2) : EReal := (∑ j : Fin 128, kE2 X w b gw gb r j * fw q j) + fb q

/-! ### The layered form -/
/-- Two 128-column rows side by side. -/
def cat (a c : Fin 128 → EReal) (k : Fin 256) : EReal :=
  if h : k.val < 128 then a ⟨k.val, h⟩ else c ⟨k.val - 128, by omega⟩
/-- The second layer on two row families side by side. -/
def g (a c : Fin 1000 → Fin 128 → EReal) (r : Fin 1000) (j : Fin 128) : EReal :=
  max ((∑ k : Fin 256, cat (a r) (c r) k * gw j k) + gb j) 0
def rA : Fin 1000 → Fin 128 → EReal := g gw gb (fun r => hid X w b (next r)) (hid X w b)
def rB : Fin 1000 → Fin 128 → EReal := g gw gb (hid X w b) (fun r => hid X w b (next r))
def rE (r : Fin 1000) (j : Fin 128) : EReal :=
  max (Ideal.div (rA X w b gw gb r j + rB X w b gw gb r j) ((2 : ℝ) : EReal)) 0
def rE2 : Fin 1000 → Fin 128 → EReal := g gw gb (hid X w b) (rE X w b gw gb)
def rY (r : Fin 1000) (q : Fin 2) : EReal := (∑ j : Fin 128, rE2 X w b gw gb r j * fw q j) + fb q

end Cert.Ggcn.Spec

end
-- ==== Proof.KValue.lean ====
/-
  The idealized kernel's two payloads read at an index (floats are extended reals).

  Each matrix product contracts the second axis of both operands, so at (a, b) it is the sum over c of the entries
  (a, c) and (b, c). A 128-vector cast to one row and broadcast down the rows reads its column. A slice from row 1
  followed by row 0, joined along the rows, is the rotation by one row: row r reads row (r + 1) mod 1000. With these the
  first payload is the hidden layer and the second is the fused form of the ring network's forward pass.
-/
import proofs.«176965_g80925773791738_cont_9to1c4b_127_19_alg».proof.Proof.Gen.KernelIdeal.Skeleton
import proofs.«176965_g80925773791738_cont_9to1c4b_127_19_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.KernelIdeal.Ggcn

open Cert.KernelIdeal Cert.KernelIdeal.Gen Idealize.ShloMosaic Idealize.ShloMosaic.ValueIdx

variable [Facts]

/-! ### A product with the right operand contracted on its second axis -/

section Product
variable {m k n : Nat}

theorem lhsT_0 (j : (⟨2, ![m, n]⟩ : Shape).Idx) (c : (DotDims.transposedRhs m k n).contr.Idx) :
    ((DotDims.transposedRhs m k n).lhsIdx j c 0).val = (j 0).val := by
  simp [DotDims.lhsIdx, DotDims.transposedRhs] <;> rfl

theorem lhsT_1 (j : (⟨2, ![m, n]⟩ : Shape).Idx) (c : (DotDims.transposedRhs m k n).contr.Idx) :
    ((DotDims.transposedRhs m k n).lhsIdx j c 1).val = (c ⟨0, Nat.one_pos⟩).val :=
  (DotDims.transposedRhs m k n).lhsIdx_val_of_single (cl := 1) rfl j c

theorem rhsT_0 (j : (⟨2, ![m, n]⟩ : Shape).Idx) (c : (DotDims.transposedRhs m k n).contr.Idx) :
    ((DotDims.transposedRhs m k n).rhsIdx j c 0).val = (j 1).val := by
  simp [DotDims.rhsIdx, DotDims.transposedRhs] <;> rfl

theorem rhsT_1 (j : (⟨2, ![m, n]⟩ : Shape).Idx) (c : (DotDims.transposedRhs m k n).contr.Idx) :
    ((DotDims.transposedRhs m k n).rhsIdx j c 1).val = (c ⟨0, Nat.one_pos⟩).val :=
  (DotDims.transposedRhs m k n).rhsIdx_val_of_single (cr := 1) rfl j c

/-- The product into the zero accumulator, read at (a, b): the sum over the contracted coordinate. -/
theorem matmulT_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => exact lhsT_0 _ _
    | ⟨1, _⟩ => exact (lhsT_1 _ _).trans hc
  have hr : (DotDims.transposedRhs m k n).rhsIdx (ix2 a b) ((contrEquiv1 _ k rfl rfl).symm c) = ix2 b c := by
    funext ax; apply Fin.ext
    match ax with
    | ⟨0, _⟩ => exact rhsT_0 _ _
    | ⟨1, _⟩ => exact (rhsT_1 _ _).trans hc
  rw [hl, hr]

end Product

/-! ### A vector as one row, broadcast down the rows -/

theorem biasRows_apply {α : Type} {E C : Nat} (h₁ : (⟨1, ![C]⟩ : Shape).ShapeCasts ⟨2, ![1, C]⟩)
    (h₂ : (⟨2, ![1, C]⟩ : Shape).Broadcasts ⟨2, ![E, C]⟩) (v : (⟨1, ![C]⟩ : Shape).Idx → α) (e : Fin E) (c : Fin C) :
    broadcastTo ⟨2, ![E, C]⟩ (shapeCast ⟨2, ![1, C]⟩ v h₁) h₂ (ix2 e c) = v (ix1 c) := by
  refine (broadcastTo_apply _ h₂ (ix2 e c) (ix2 (0 : Fin 1) c) ?_).trans ?_
  · intro a
    match a with
    | ⟨0, _⟩ => show (0 : ℕ) = if (1 : ℕ) = 1 then 0 else _; rw [if_pos rfl]
    | ⟨1, _⟩ =>
      show c.val = if C = 1 then 0 else c.val
      split
      · have := c.isLt; omega
      · rfl
  · refine (shapeCast_addUnit_apply ![C] v h₁ (ix2 (0 : Fin 1) c)).trans (congrArg v ?_)
    funext a
    match a with
    | ⟨0, _⟩ => rfl

/-! ### The rotation by one row -/

/-- Rows 1 … 999 followed by row 0, read at (r, j): row (r + 1) mod 1000. -/
theorem rollRows_apply {α : Type} (h₁ : (⟨2, ![1000, 128]⟩ : Shape).Slices ![1, 0] ⟨2, ![999, 128]⟩)
    (h₀ : (⟨2, ![1000, 128]⟩ : Shape).Slices ![0, 0] ⟨2, ![1, 128]⟩)
    (hc : Shape.Concatenates [(⟨2, ![999, 128]⟩ : Shape), ⟨2, ![1, 128]⟩] ⟨2, ![1000, 128]⟩ 0)
    (y : (⟨2, ![1000, 128]⟩ : Shape).Idx → α) (r : Fin 1000) (j : Fin 128) :
    concatenate ⟨2, ![1000, 128]⟩ 0 [⟨⟨2, ![999, 128]⟩, extractStridedSlice ⟨2, ![999, 128]⟩ ![1, 0] y h₁⟩,
        ⟨⟨2, ![1, 128]⟩, extractStridedSlice ⟨2, ![1, 128]⟩ ![0, 0] y h₀⟩] hc (ix2 r j)
      = y (ix2 (Cert.Ggcn.Spec.next r) j) := by
  have hr := r.isLt
  by_cases h : r.val < 999
  · -- the first piece: row r of the slice from row 1
    refine (concatenate_pair_apply_left (0 : Fin 2) (extractStridedSlice ⟨2, ![999, 128]⟩ ![1, 0] y h₁)
      (extractStridedSlice ⟨2, ![1, 128]⟩ ![0, 0] y h₀) hc (ix2 r j) rfl (ix2 (⟨r.val, h⟩ : Fin 999) j)
      (fun b => by match b with | ⟨0, _⟩ => rfl | ⟨1, _⟩ => rfl)).trans ?_
    refine extractStridedSlice_apply ![1, 0] y h₁ _ (ix2 (Cert.Ggcn.Spec.next r) j) ?_
    intro a
    match a with
    | ⟨0, _⟩ => show (r.val + 1) % 1000 = 1 + r.val; omega
    | ⟨1, _⟩ => show j.val = 0 + j.val; omega
  · -- the second piece: the one row, row 0
    refine (concatenate_pair_apply_right (0 : Fin 2) (extractStridedSlice ⟨2, ![999, 128]⟩ ![1, 0] y h₁)
      (extractStridedSlice ⟨2, ![1, 128]⟩ ![0, 0] y h₀) hc (ix2 r j) rfl rfl (ix2 (0 : Fin 1) j)
      (fun b hb => by
        match b, hb with
        | ⟨0, _⟩, hb => exact absurd rfl hb
        | ⟨1, _⟩, _ => rfl)
      (by show 0 + 999 = r.val; omega)).trans ?_
    refine extractStridedSlice_apply ![0, 0] y h₀ _ (ix2 (Cert.Ggcn.Spec.next r) j) ?_
    intro a
    match a with
    | ⟨0, _⟩ => show (r.val + 1) % 1000 = 0 + 0; omega
    | ⟨1, _⟩ => show j.val = 0 + j.val; omega

/-! ### Two bit patterns -/

/-- The pattern 0x3F000000 is one half. -/
theorem ofBits_half_f32 : Ideal.ofBits .f32 0x3F000000#32 = Cert.Ggcn.Spec.half := by
  unfold Cert.Ggcn.Spec.half
  simp [Ideal.ofBits, Ideal.ieee, -EReal.coe_mul]; norm_num

/-! ### The three records -/

theorem dot200_eq : dot_S200x128_S128x128_S200x128_1_1_0_0_n_n = DotDims.transposedRhs 200 128 128 := rfl
theorem dotK_eq : dot_S1000x128_S128x128_S1000x128_1_1_0_0_n_n = DotDims.transposedRhs 1000 128 128 := rfl
theorem dotOut_eq : dot_S1000x128_S2x128_S1000x2_1_1_0_0_n_n = DotDims.transposedRhs 1000 128 2 := rfl

/-! ### The first payload: the hidden layer -/

theorem hid_apply (x2 : FVec Ideal S128 .f32) (x0 : FVec Ideal S200x128 .f32) (x1 : FVec Ideal S128x128 .f32)
    (a : Fin 200) (j : Fin 128) :
    k0_pay1 (F := Ideal) x2 x0 x1 (ix2 a j)
      = max ((∑ k : Fin 128, x0 (ix2 a k) * x1 (ix2 j k)) + x2 (ix1 j)) 0 := by
  unfold k0_pay1
  rw [shapeCast_self]
  show max (FloatOps.matmul dot_S200x128_S128x128_S200x128_1_1_0_0_n_n none x0 x1 (constant S200x128 .f32 0x00000000#32) (ix2 a j)
      + broadcastTo S200x128 (shapeCast S1x128 x2 shapeCasts_S128_S1x128) broadcasts_S1x128_S200x128 (ix2 a j))
    (Ideal.ofBits .f32 0x00000000#32) = _
  rw [Ideal.ofBits_zero_f32, dot200_eq, matmulT_zero_apply,
    biasRows_apply shapeCasts_S128_S1x128 broadcasts_S1x128_S200x128 x2 a j]

/-! ### The second payload: the fused forward pass -/

/-- h · wᵀ. -/
def prodK (h : FVec Ideal S1000x128 .f32) (w : FVec Ideal S128x128 .f32) : FVec Ideal S1000x128 .f32 :=
  FloatOps.matmul dot_S1000x128_S128x128_S1000x128_1_1_0_0_n_n none h w (constant S1000x128 .f32 0x00000000#32)
/-- A 128-vector on every row. -/
def biasK (v : FVec Ideal S128 .f32) : FVec Ideal S1000x128 .f32 :=
  broadcastTo S1000x128 (shapeCast S1x128 v shapeCasts_S128_S1x128) broadcasts_S1x128_S1000x128
/-- The rotation by one row. -/
def rollK (y : FVec Ideal S1000x128 .f32) : FVec Ideal S1000x128 .f32 :=
  concatenate S1000x128 0 [⟨S999x128, extractStridedSlice S999x128 ![1, 0] y slices_S1000x128_o1_0_S999x128⟩,
    ⟨S1x128, extractStridedSlice S1x128 ![0, 0] y slices_S1000x128_o0_0_S1x128⟩] concatenates_S999x128_S1x128_S1000x128_d0
/-- max (·, 0). -/
def relu0 (y : FVec Ideal S1000x128 .f32) : FVec Ideal S1000x128 .f32 :=
  maximumf y (broadcast S1000x128 (Scalar.ofBits (F := Ideal) .f32 0x00000000#32))

section Fused
variable (x4 : FVec Ideal S128 .f32) (w1 w2 : FVec Ideal S128x128 .f32) (h : FVec Ideal S1000x128 .f32)

/-- relu ((P∘next + gb) + Q). -/
def vA : FVec Ideal S1000x128 .f32 := relu0 (addf (rollK (addf (prodK h w1) (biasK x4))) (prodK h w2))
/-- relu (P + (Q∘next + gb)). -/
def vB : FVec Ideal S1000x128 .f32 := relu0 (addf (prodK h w1) (rollK (addf (prodK h w2) (biasK x4))))
/-- relu ((P + gb) + (A + B) · (w2 · ½)ᵀ). -/
def vE2 : FVec Ideal S1000x128 .f32 :=
  relu0 (addf (addf (prodK h w1) (biasK x4))
    (prodK (addf (vA x4 w1 w2 h) (vB x4 w1 w2 h))
      (mulf w2 (broadcast S128x128 (Scalar.ofBits (F := Ideal) .f32 0x3F000000#32)))))

/-- The second payload is the read-out of that array. -/
theorem pay2_eq (x5 : FVec Ideal S2x128 .f32) (x6 : FVec Ideal S2 .f32) :
    k0_pay2 (F := Ideal) x4 w1 w2 h x5 x6
      = addf (FloatOps.matmul dot_S1000x128_S2x128_S1000x2_1_1_0_0_n_n none (vE2 x4 w1 w2 h) x5
          (constant S1000x2 .f32 0x00000000#32))
        (broadcastTo S1000x2 (shapeCast S1x2 x6 shapeCasts_S2_S1x2) broadcasts_S1x2_S1000x2) := rfl

end Fused

theorem prodK_apply (h : FVec Ideal S1000x128 .f32) (w : FVec Ideal S128x128 .f32) (r : Fin 1000) (j : Fin 128) :
    prodK h w (ix2 r j) = ∑ k : Fin 128, h (ix2 r k) * w (ix2 j k) := by
  unfold prodK
  rw [dotK_eq, matmulT_zero_apply]

theorem biasK_apply (v : FVec Ideal S128 .f32) (r : Fin 1000) (j : Fin 128) : biasK v (ix2 r j) = v (ix1 j) :=
  biasRows_apply shapeCasts_S128_S1x128 broadcasts_S1x128_S1000x128 v r j

theorem rollK_apply (y : FVec Ideal S1000x128 .f32) (r : Fin 1000) (j : Fin 128) :
    rollK y (ix2 r j) = y (ix2 (Cert.Ggcn.Spec.next r) j) :=
  rollRows_apply slices_S1000x128_o1_0_S999x128 slices_S1000x128_o0_0_S1x128 concatenates_S999x128_S1x128_S1000x128_d0 y r j

theorem relu0_apply (y : FVec Ideal S1000x128 .f32) (r : Fin 1000) (j : Fin 128) :
    relu0 y (ix2 r j) = max (y (ix2 r j)) 0 := by
  show max (y (ix2 r j)) (Ideal.ofBits .f32 0x00000000#32) = _
  rw [Ideal.ofBits_zero_f32]

section FusedValue
variable (X : Fin 1000 → Fin 128 → EReal) (w : Fin 128 → Fin 128 → EReal) (b : Fin 128 → EReal)
  (gw : Fin 128 → Fin 256 → EReal) (gb : Fin 128 → EReal)
  (x4 : FVec Ideal S128 .f32) (w1 w2 : FVec Ideal S128x128 .f32) (h : FVec Ideal S1000x128 .f32)
  (hh : ∀ r k, h (ix2 r k) = Cert.Ggcn.Spec.hid X w b r k)
  (hw1 : ∀ j k, w1 (ix2 j k) = gw j (Cert.Ggcn.Spec.lo k)) (hw2 : ∀ j k, w2 (ix2 j k) = gw j (Cert.Ggcn.Spec.hi k))
  (h4 : ∀ j, x4 (ix1 j) = gb j)

include hh hw1 in
theorem P_apply (r : Fin 1000) (j : Fin 128) : prodK h w1 (ix2 r j) = Cert.Ggcn.Spec.P X w b gw r j := by
  rw [prodK_apply]
  unfold Cert.Ggcn.Spec.P
  simp only [hh, hw1]

include hh hw2 in
theorem Q_apply (r : Fin 1000) (j : Fin 128) : prodK h w2 (ix2 r j) = Cert.Ggcn.Spec.Q X w b gw r j := by
  rw [prodK_apply]
  unfold Cert.Ggcn.Spec.Q
  simp only [hh, hw2]

include hh hw1 hw2 h4 in
theorem vA_apply (r : Fin 1000) (j : Fin 128) : vA x4 w1 w2 h (ix2 r j) = Cert.Ggcn.Spec.kA X w b gw gb r j := by
  unfold vA Cert.Ggcn.Spec.kA
  rw [relu0_apply, addf_apply, rollK_apply, addf_apply, P_apply X w b gw w1 h hh hw1, biasK_apply, h4,
    Q_apply X w b gw w2 h hh hw2]

include hh hw1 hw2 h4 in
theorem vB_apply (r : Fin 1000) (j : Fin 128) : vB x4 w1 w2 h (ix2 r j) = Cert.Ggcn.Spec.kB X w b gw gb r j := by
  unfold vB Cert.Ggcn.Spec.kB
  rw [relu0_apply, addf_apply, P_apply X w b gw w1 h hh hw1, rollK_apply, addf_apply, Q_apply X w b gw w2 h hh hw2,
    biasK_apply, h4]

include hh hw1 hw2 h4 in
theorem vE2_apply (r : Fin 1000) (j : Fin 128) : vE2 x4 w1 w2 h (ix2 r j) = Cert.Ggcn.Spec.kE2 X w b gw gb r j := by
  unfold vE2 Cert.Ggcn.Spec.kE2
  rw [relu0_apply, addf_apply, addf_apply, P_apply X w b gw w1 h hh hw1, biasK_apply, h4, prodK_apply]
  refine congrArg (fun s => max ((Cert.Ggcn.Spec.P X w b gw r j + gb j) + s) 0) (Finset.sum_congr rfl fun k _ => ?_)
  rw [addf_apply, vA_apply X w b gw gb x4 w1 w2 h hh hw1 hw2 h4, vB_apply X w b gw gb x4 w1 w2 h hh hw1 hw2 h4,
    mulf_apply, hw2]
  show _ * (gw j (Cert.Ggcn.Spec.hi k) * Ideal.ofBits .f32 0x3F000000#32) = _
  rw [ofBits_half_f32]
  rfl

end FusedValue

theorem out_apply (X : Fin 1000 → Fin 128 → EReal) (w : Fin 128 → Fin 128 → EReal) (b : Fin 128 → EReal)
    (gw : Fin 128 → Fin 256 → EReal) (gb : Fin 128 → EReal) (fw : Fin 2 → Fin 128 → EReal) (fb : Fin 2 → EReal)
    (x4 : FVec Ideal S128 .f32) (w1 w2 : FVec Ideal S128x128 .f32) (h : FVec Ideal S1000x128 .f32)
    (x5 : FVec Ideal S2x128 .f32) (x6 : FVec Ideal S2 .f32)
    (hh : ∀ r k, h (ix2 r k) = Cert.Ggcn.Spec.hid X w b r k)
    (hw1 : ∀ j k, w1 (ix2 j k) = gw j (Cert.Ggcn.Spec.lo k)) (hw2 : ∀ j k, w2 (ix2 j k) = gw j (Cert.Ggcn.Spec.hi k))
    (h4 : ∀ j, x4 (ix1 j) = gb j) (h5 : ∀ q j, x5 (ix2 q j) = fw q j) (h6 : ∀ q, x6 (ix1 q) = fb q)
    (r : Fin 1000) (q : Fin 2) :
    k0_pay2 (F := Ideal) x4 w1 w2 h x5 x6 (ix2 r q) = Cert.Ggcn.Spec.kY X w b gw gb fw fb r q := by
  rw [pay2_eq, addf_apply, biasRows_apply shapeCasts_S2_S1x2 broadcasts_S1x2_S1000x2 x6 r q, dotOut_eq,
    matmulT_zero_apply, h6]
  unfold Cert.Ggcn.Spec.kY
  refine congrArg (· + fb q) (Finset.sum_congr rfl fun j _ => ?_)
  rw [vE2_apply X w b gw gb x4 w1 w2 h hh hw1 hw2 h4, h5]

end Cert.KernelIdeal.Ggcn

end
-- ==== Proof.KRead.lean ====
/-
  The kernel's output array over the extended reals, read at an index, is the fused form of the ring network on the
  argument arrays.

  A window's block at a grid point is a box of its array: on axis a the local index y sits at
  (block index on a) · (block extent on a) + y a. The input rows come in five blocks of 200 rows, block t from row
  200 t; every other window's block is its whole array at every point. The two column halves of the second layer's
  weights are the boxes from column 0 and from column 128. So the hidden layer assembled from the five row blocks is
  the hidden layer of the whole input (row r is row r mod 200 of block r / 200, and 200 (r / 200) + r mod 200 = r),
  and the read-out computed from it is the fused form.
-/
import proofs.«176965_g80925773791738_cont_9to1c4b_127_19_alg».proof.Proof.KBodyDat
import proofs.«176965_g80925773791738_cont_9to1c4b_127_19_alg».proof.Proof.KValue
import proofs.«176965_g80925773791738_cont_9to1c4b_127_19_alg».proof.Proof.Spec

set_option maxRecDepth 16384

noncomputable section

namespace Cert.KernelIdeal.Ggcn

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ### The block index maps, decided over the five points -/

/-- The input rows: block t on the row axis, block 0 on the column axis. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index2 : ∀ t : Fin cfg0.N, win0_2.index t (0 : Fin 1) = 0 :=
  (by decide +kernel : ∀ t : Fin grid0.N, win0_2.index t (0 : Fin 1) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 1) = 0 :=
  (by decide +kernel : ∀ t : Fin grid0.N, win0_4.index t (0 : Fin 1) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 1) = 0 :=
  (by decide +kernel : ∀ t : Fin grid0.N, win0_6.index t (0 : Fin 1) = 0)

/-! ### Each window's block read at an index -/

/-- Row a of the input's block t is row 200 t + a of the input. -/
theorem iblk0_apply (c : Dev nD) (t : Fin cfg0.N) (a : Fin 200) (k : Fin 128) (h : 200 * t.val + a.val < 1000) :
    iblk m c 0 t (ix2 a k) = m ((c.tc : Thread nD τ).loc main_arg0) (ix2 (⟨200 * t.val + a.val, h⟩ : Fin 1000) k) := by
  obtain ⟨e0, e1⟩ := index0 t
  show V m c main_arg0 (((cfg0.win 0).blk t).view.emb (ix2 a k)) = _
  refine congrArg (V m c main_arg0) ?_
  funext d; apply Fin.ext
  match d with
  | ⟨0, _⟩ => show win0_0.index t (0 : Fin 2) * 200 + 1 * a.val = 200 * t.val + a.val; omega
  | ⟨1, _⟩ => show win0_0.index t (1 : Fin 2) * 128 + 1 * k.val = k.val; omega

theorem iblk1_apply (c : Dev nD) (t : Fin cfg0.N) (j : Fin 128) (k : Fin 128) :
    iblk m c 1 t (ix2 j k) = m ((c.tc : Thread nD τ).loc main_arg1) (ix2 j k) := by
  obtain ⟨e0, e1⟩ := index1 t
  show V m c main_arg1 (((cfg0.win 1).blk t).view.emb (ix2 j k)) = _
  refine congrArg (V m c main_arg1) ?_
  funext d; apply Fin.ext
  match d with
  | ⟨0, _⟩ => show win0_1.index t (0 : Fin 2) * 128 + 1 * j.val = j.val; omega
  | ⟨1, _⟩ => show win0_1.index t (1 : Fin 2) * 128 + 1 * k.val = k.val; omega

theorem iblk2_apply (c : Dev nD) (t : Fin cfg0.N) (j : Fin 128) :
    iblk m c 2 t (ix1 j) = m ((c.tc : Thread nD τ).loc main_arg2) (ix1 j) := by
  have e0 := index2 t
  show V m c main_arg2 (((cfg0.win 2).blk t).view.emb (ix1 j)) = _
  refine congrArg (V m c main_arg2) ?_
  funext d; apply Fin.ext
  match d with
  | ⟨0, _⟩ => show win0_2.index t (0 : Fin 1) * 128 + 1 * j.val = j.val; omega

theorem iblk3_apply (c : Dev nD) (t : Fin cfg0.N) (j : Fin 128) (k : Fin 256) :
    iblk m c 3 t (ix2 j k) = m ((c.tc : Thread nD τ).loc main_arg3) (ix2 j k) := by
  obtain ⟨e0, e1⟩ := index3 t
  show V m c main_arg3 (((cfg0.win 3).blk t).view.emb (ix2 j k)) = _
  refine congrArg (V m c main_arg3) ?_
  funext d; apply Fin.ext
  match d with
  | ⟨0, _⟩ => show win0_3.index t (0 : Fin 2) * 128 + 1 * j.val = j.val; omega
  | ⟨1, _⟩ => show win0_3.index t (1 : Fin 2) * 256 + 1 * k.val = k.val; omega

theorem iblk4_apply (c : Dev nD) (t : Fin cfg0.N) (j : Fin 128) :
    iblk m c 4 t (ix1 j) = m ((c.tc : Thread nD τ).loc main_arg4) (ix1 j) := by
  have e0 := index4 t
  show V m c main_arg4 (((cfg0.win 4).blk t).view.emb (ix1 j)) = _
  refine congrArg (V m c main_arg4) ?_
  funext d; apply Fin.ext
  match d with
  | ⟨0, _⟩ => show win0_4.index t (0 : Fin 1) * 128 + 1 * j.val = j.val; omega

theorem iblk5_apply (c : Dev nD) (t : Fin cfg0.N) (j : Fin 2) (k : Fin 128) :
    iblk m c 5 t (ix2 j k) = m ((c.tc : Thread nD τ).loc main_arg5) (ix2 j k) := by
  obtain ⟨e0, e1⟩ := index5 t
  show V m c main_arg5 (((cfg0.win 5).blk t).view.emb (ix2 j k)) = _
  refine congrArg (V m c main_arg5) ?_
  funext d; apply Fin.ext
  match d with
  | ⟨0, _⟩ => show win0_5.index t (0 : Fin 2) * 2 + 1 * j.val = j.val; omega
  | ⟨1, _⟩ => show win0_5.index t (1 : Fin 2) * 128 + 1 * k.val = k.val; omega

theorem iblk6_apply (c : Dev nD) (t : Fin cfg0.N) (j : Fin 2) :
    iblk m c 6 t (ix1 j) = m ((c.tc : Thread nD τ).loc main_arg6) (ix1 j) := by
  have e0 := index6 t
  show V m c main_arg6 (((cfg0.win 6).blk t).view.emb (ix1 j)) = _
  refine congrArg (V m c main_arg6) ?_
  funext d; apply Fin.ext
  match d with
  | ⟨0, _⟩ => show win0_6.index t (0 : Fin 1) * 2 + 1 * j.val = j.val; omega

/-! ### The two column halves -/

/-- The box from column 0: column k of the left half is column k. -/
theorem leftHalf_apply (x : Vec Ideal S128x256 .f32) (j k : Fin 128) :
    leftHalf x (ix2 j k) = x (ix2 j (Cert.Ggcn.Spec.lo k)) := by
  show x ((Rect.unit (s := S128x256) ![0, 0] S128x128.size inb_S128x256_S128x128_0_0).idx (ix2 j k)) = _
  refine congrArg x ?_
  funext d; apply Fin.ext
  match d with
  | ⟨0, _⟩ => show 0 + 1 * j.val = j.val; omega
  | ⟨1, _⟩ => show 0 + 1 * k.val = k.val; omega

/-- The box from column 128: column k of the right half is column 128 + k. -/
theorem rightHalf_apply (x : Vec Ideal S128x256 .f32) (j k : Fin 128) :
    rightHalf x (ix2 j k) = x (ix2 j (Cert.Ggcn.Spec.hi k)) := by
  show x ((Rect.unit (s := S128x256) ![0, 128] S128x128.size inb_S128x256_S128x128_0_128).idx (ix2 j k)) = _
  refine congrArg x ?_
  funext d; apply Fin.ext
  match d with
  | ⟨0, _⟩ => show 0 + 1 * j.val = j.val; omega
  | ⟨1, _⟩ => show 128 + 1 * k.val = 128 + k.val; omega

/-! ### The hidden layer assembled from the five row blocks -/

theorem hidAll_apply (c : Dev nD) (r : Fin 1000) (k : Fin 128) :
    hidAll (F := Ideal) m c (ix2 r k)
      = Cert.Ggcn.Spec.hid (fun r k => m ((c.tc : Thread nD τ).loc main_arg0) (ix2 r k)) (fun j k => m ((c.tc : Thread nD τ).loc main_arg1) (ix2 j k))
          (fun j => m ((c.tc : Thread nD τ).loc main_arg2) (ix1 j)) r k := by
  have hr := r.isLt
  have hN : r.val / 200 < cfg0.N := by rw [show cfg0.N = 5 from N_0]; omega
  have hrow : ∀ k' : Fin 128,
      iblk m c 0 (⟨r.val / 200, hN⟩ : Fin cfg0.N) (ix2 (⟨r.val % 200, Nat.mod_lt _ (by norm_num)⟩ : Fin 200) k')
        = m ((c.tc : Thread nD τ).loc main_arg0) (ix2 r k') := by
    intro k'
    rw [iblk0_apply m c (⟨r.val / 200, hN⟩ : Fin cfg0.N) (⟨r.val % 200, Nat.mod_lt _ (by norm_num)⟩ : Fin 200) k'
      (by show 200 * (r.val / 200) + r.val % 200 < 1000; omega)]
    congr 2
    exact Fin.ext (by show 200 * (r.val / 200) + r.val % 200 = r.val; omega)
  show k0_pay1 (F := Ideal) (iblk m c 2 (⟨r.val / 200, hN⟩ : Fin cfg0.N)) (iblk m c 0 (⟨r.val / 200, hN⟩ : Fin cfg0.N))
      (iblk m c 1 (⟨r.val / 200, hN⟩ : Fin cfg0.N))
      (ix2 (⟨r.val % 200, Nat.mod_lt _ (by norm_num)⟩ : Fin 200) k) = _
  rw [hid_apply]
  unfold Cert.Ggcn.Spec.hid
  simp only [hrow, iblk1_apply, iblk2_apply]

/-! ### The output array -/

theorem outAll_apply (m : (ℓ : Loc nD τ sig) → Buf (Elt Ideal) ℓ) (c : Dev nD) (r : Fin 1000) (q : Fin 2) :
    outAll (F := Ideal) m c (ix2 r q)
      = Cert.Ggcn.Spec.kY (fun r k => m ((c.tc : Thread nD τ).loc main_arg0) (ix2 r k)) (fun j k => m ((c.tc : Thread nD τ).loc main_arg1) (ix2 j k)) (fun j => m ((c.tc : Thread nD τ).loc main_arg2) (ix1 j)) (fun j k => m ((c.tc : Thread nD τ).loc main_arg3) (ix2 j k)) (fun j => m ((c.tc : Thread nD τ).loc main_arg4) (ix1 j)) (fun q j => m ((c.tc : Thread nD τ).loc main_arg5) (ix2 q j)) (fun q => m ((c.tc : Thread nD τ).loc main_arg6) (ix1 q)) r q := by
  unfold outAll
  exact out_apply _ _ _ _ _ _ _ _ _ _ _ _ _
    (fun r k => hidAll_apply m c r k)
    (fun j k => (leftHalf_apply _ j k).trans (iblk3_apply m c lastPt j _))
    (fun j k => (rightHalf_apply _ j k).trans (iblk3_apply m c lastPt j _))
    (fun j => iblk4_apply m c lastPt j)
    (fun q j => iblk5_apply m c lastPt q j)
    (fun q => iblk6_apply m c lastPt q)
    r q

end Cert.KernelIdeal.Ggcn

end
-- ==== Proof.RefTerm.lean ====
/-
  The reference program's result as ONE term of its seven argument arrays, assembled from the layers the
  program applies: the node indices and their ring neighbours (iota, +1, jnp's remainder by 1000), a row take
  with out-of-range rows filled, the hidden layer h = relu (x · wᵀ + b), the second layer
  g = relu ((a ‖ c) · gwᵀ + gb), the average of the two neighbour orders, and the read-out.
  Each definition lists the host operations in the order the program applies them.
-/
import proofs.«176965_g80925773791738_cont_9to1c4b_127_19_alg».proof.ReferenceIdeal

noncomputable section

namespace Cert.ReferenceIdeal.Ggcn

open Idealize.ShloMosaic Cert.ReferenceIdeal
open Cert.ReferenceIdeal.Facts₀

variable {F : FTy → Type} [FloatOps F] [Facts]

/-- The node indices 0 … 999. -/
def nodeIdx : IVec S1000 32 := iotaInDim S1000 32 0

/-- jnp's remainder of a vector by a scalar, as the program computes it: the divisor replaced by 1 if it is 0, the
    truncated remainder, then the divisor added back where the remainder is non-zero and of the other sign. -/
def remBy (x : IVec S1000 32) (n : IVec S_ 32) : IVec S1000 32 :=
  let v0 : IVec S_ 32 := id n
  let v1 : IVec S_ 1 := cmpi .eq v0 (constantI S_ 32 0#32)
  let d : IVec S_ 32 := select v1 (constantI S_ 32 1#32) v0
  let v3 : IVec S1000 32 := broadcastInDim S1000 ![] bcast_S_S1000 d
  let v4 : IVec S1000 32 := Host.remsi x v3
  let v6 : IVec S1000 1 := cmpi .ne v4 (broadcastInDim S1000 ![] bcast_S_S1000 (constantI S_ 32 0#32))
  let v8 : IVec S1000 1 := cmpi .slt v4 (broadcastInDim S1000 ![] bcast_S_S1000 (constantI S_ 32 0#32))
  let v9 : IVec S_ 1 := cmpi .slt d (constantI S_ 32 0#32)
  let v10 : IVec S1000 1 := broadcastInDim S1000 ![] bcast_S_S1000 v9
  let v11 : IVec S1000 1 := cmpi .ne v8 v10
  let v12 : IVec S1000 1 := andi v11 v6
  let v14 : IVec S1000 32 := addi v4 (broadcastInDim S1000 ![] bcast_S_S1000 d)
  select v12 v14 v4

/-- Each node's ring neighbour: (index + 1) mod 1000. -/
def ringNext : IVec S1000 32 :=
  remBy (addi nodeIdx (broadcastInDim S1000 ![] bcast_S_S1000 (constantI S_ 32 1#32))) (constantI S_ 32 1000#32)

/-- A row take in fill mode: negative indices wrapped once, rows gathered at the clamped index, and a row whose
    index is outside [0, 999] replaced by the fill pattern. -/
def takeRows (x : FVec F S1000x128 .f32) (idx : IVec S1000 32) : FVec F S1000x128 .f32 :=
  let v1 : IVec S1000 1 := cmpi .slt idx (broadcastInDim S1000 ![] bcast_S_S1000 (constantI S_ 32 0#32))
  let v3 : IVec S1000 32 := addi idx (broadcastInDim S1000 ![] bcast_S_S1000 (constantI S_ 32 1000#32))
  let v4 : IVec S1000 32 := select v1 v3 idx
  let v5 : IVec S1000x1 32 := broadcastInDim S1000x1 ![0] bcast_S1000_S1000x1_0 v4
  let v7 : IVec S1000x1 1 := cmpi .sge v5 (broadcastInDim S1000x1 ![] bcast_S_S1000x1 (constantI S_ 32 0#32))
  let v9 : IVec S1000x1 32 := broadcastInDim S1000x1 ![0, 1] bcast_S1x1_S1000x1_0_1
    (broadcastInDim S1x1 ![1] bcast_S1_S1x1_1 (constantI S1 32 999#32))
  let v10 : IVec S1000x1 1 := cmpi .sle v5 v9
  let v11 : IVec S1000x1 1 := andi v7 v10
  let v12 : IVec S1000 1 := Host.reduce IntOp.andi v11 (constantI S_ 1 1#1) reducesTo_S1000x1_S1000_d1 h_S_
  let v13 : FVec F S1000x128 .f32 := Host.gather gather_S1000x128_S1000x1_S1000x128_1_0_n_n_0_1_1128 x v5
  let v14 : IVec S1000x128 1 := broadcastInDim S1000x128 ![0] bcast_S1000_S1000x128_0 v12
  let v15 : FVec F S1000x128 .f32 := broadcastInDim S1000x128 ![] bcast_S_S1000x128 (constant S_ .f32 0x7FC00000#32)
  select v14 v13 v15

/-- max (·, 0), elementwise. -/
def relu (x : FVec F S1000x128 .f32) : FVec F S1000x128 .f32 :=
  maximumf x (broadcastInDim S1000x128 ![] bcast_S_S1000x128 (constant S_ .f32 0x00000000#32))

/-- A 128-vector added to every row. -/
def rowBias (v : FVec F S128 .f32) : FVec F S1000x128 .f32 :=
  broadcastInDim S1000x128 ![0, 1] bcast_S1x128_S1000x128_0_1 (broadcastInDim S1x128 ![1] bcast_S128_S1x128_1 v)

/-- The hidden layer: relu (x · wᵀ + b). -/
def hLayer (x : FVec F S1000x128 .f32) (w : FVec F S128x128 .f32) (b : FVec F S128 .f32) : FVec F S1000x128 .f32 :=
  relu (addf (Host.dotGeneral dot_S1000x128_S128x128_S1000x128_1_0_0_1_n_n none x
    (transpose S128x128 [1, 0] w transposes_S128x128_S128x128_1_0)) (rowBias b))

/-- The second layer on two blocks side by side: relu ((a ‖ c) · gwᵀ + gb). -/
def gLayer (a c : FVec F S1000x128 .f32) (gw : FVec F S128x256 .f32) (gb : FVec F S128 .f32) : FVec F S1000x128 .f32 :=
  relu (addf (Host.dotGeneral dot_S1000x256_S256x128_S1000x128_1_0_0_1_n_n none
    (concatenate S1000x256 1 [⟨S1000x128, a⟩, ⟨S1000x128, c⟩] concatenates_S1000x128_S1000x128_S1000x256_d1)
    (transpose S256x128 [1, 0] gw transposes_S128x256_S256x128_1_0)) (rowBias gb))

/-- The reference's result. -/
def refOut (x : FVec F S1000x128 .f32) (w : FVec F S128x128 .f32) (b : FVec F S128 .f32) (gw : FVec F S128x256 .f32)
    (gb : FVec F S128 .f32) (fw : FVec F S2x128 .f32) (fb : FVec F S2 .f32) : FVec F S1000x2 .f32 :=
  let hn : FVec F S1000x128 .f32 := hLayer (takeRows x ringNext) w b
  let hs : FVec F S1000x128 .f32 := hLayer (takeRows x nodeIdx) w b
  let gA : FVec F S1000x128 .f32 := gLayer hn hs gw gb
  let gB : FVec F S1000x128 .f32 := gLayer hs hn gw gb
  let e : FVec F S1000x128 .f32 := relu (Host.divf (addf gA gB)
    (broadcastInDim S1000x128 ![] bcast_S_S1000x128 (constant S_ .f32 0x40000000#32)))
  let e2 : FVec F S1000x128 .f32 := gLayer (hLayer x w b) e gw gb
  addf (Host.dotGeneral dot_S1000x128_S128x2_S1000x2_1_0_0_1_n_n none e2
      (transpose S128x2 [1, 0] fw transposes_S2x128_S128x2_1_0))
    (broadcastInDim S1000x2 ![0, 1] bcast_S1x2_S1000x2_0_1 (broadcastInDim S1x2 ![1] bcast_S2_S1x2_1 fb))

end Cert.ReferenceIdeal.Ggcn

end
-- ==== Proof.RefRun.lean ====
/-
  The reference program's run. Its @main is a straight line of 197 host operations once the calls of the
  module's functions (jnp's remainder, the row take, relu, each with its inner select) are unfolded at their call
  sites. The line is cut into 25 stretches, one per call and one per stretch of @main's own operations between two
  calls; each stretch is read as a function of the buffer contents it starts from (what its last buffer holds, and
  that every buffer it does not write keeps its contents), and the stretches are composed in program order into
  the one term `refOut` of the seven argument arrays.
-/
import proofs.«176965_g80925773791738_cont_9to1c4b_127_19_alg».proof.Proof.RefTerm
import proofs.«176965_g80925773791738_cont_9to1c4b_127_19_alg».proof.Proof.Gen.ReferenceIdeal
import Idealize.ShloMosaic.Lib.StableHlo.Run
import Idealize.ShloMosaic.Lib.Pipeline.Frame

noncomputable section

namespace Cert.ReferenceIdeal.Ggcn

open Cert.ReferenceIdeal Idealize.ShloMosaic Idealize.ShloMosaic.TcCoe Idealize.SL.Sem Idealize.ShloMosaic.StableHlo
open Cert.ReferenceIdeal.Facts₀

-- the side conditions are read off the `[Facts]` in scope, as the program's definitions read them
attribute [-instance] Cert.ReferenceIdeal.Gen.facts₀ Cert.ReferenceIdeal.Gen.facts

variable {F : FTy → Type} [FloatOps F] [Facts]

/-! ## The operations of one call of each function, and of each repeated stretch of @main -/

/-- One call of jnp's remainder (with its inner select): 21 operations over the call's arguments and buffers. -/
abbrev remOps (a0 : TRef sig ⟨S1000, .i32⟩) (a1 : TRef sig ⟨S_, .i32⟩) (φ : fn_remainder.Bufs) : List (HloOp τ sig (Elt F)) :=
  [ TRef.unary a1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S1000 ![] bcast_S_S1000),
    TRef.binary a0 φ.v3 φ.v4 Host.remsi,
    TRef.nullary φ.c_1 (constantI S_ 32 0#32),
    TRef.unary φ.c_1 φ.v5 (broadcastInDim S1000 ![] bcast_S_S1000),
    TRef.binary φ.v4 φ.v5 φ.v6 (cmpi .ne),
    TRef.nullary φ.c_2 (constantI S_ 32 0#32),
    TRef.unary φ.c_2 φ.v7 (broadcastInDim S1000 ![] bcast_S_S1000),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S1000 ![] bcast_S_S1000),
    TRef.binary φ.v8 φ.v10 φ.v11 (cmpi .ne),
    TRef.binary φ.v11 φ.v6 φ.v12 andi,
    TRef.unary φ.call0.v0 φ.v13 (broadcastInDim S1000 ![] bcast_S_S1000),
    TRef.binary φ.v4 φ.v13 φ.v14 addi,
    TRef.ternary φ.v12 φ.v14 φ.v4 φ.v15 select ]

/-- The buffers one call of the remainder writes. -/
abbrev remW (φ : fn_remainder.Bufs) : List (Ref sig .tc) :=
  [φ.v0.ref, φ.c.ref, φ.v1.ref, φ.c_0.ref, φ.call0.v0.ref, φ.v3.ref, φ.v4.ref, φ.c_1.ref, φ.v5.ref, φ.v6.ref, φ.c_2.ref,
    φ.v7.ref, φ.v8.ref, φ.c_3.ref, φ.v9.ref, φ.v10.ref, φ.v11.ref, φ.v12.ref, φ.v13.ref, φ.v14.ref, φ.v15.ref]

/-- One call of the row take (with its inner select): 23 operations over the call's arguments and buffers. -/
abbrev takeOps (a0 : TRef sig ⟨S1000x128, .f32⟩) (a1 : TRef sig ⟨S1000, .i32⟩) (φ : fn_take.Bufs) : List (HloOp τ sig (Elt F)) :=
  [ TRef.nullary φ.c (constantI S_ 32 0#32),
    TRef.unary φ.c φ.v0 (broadcastInDim S1000 ![] bcast_S_S1000),
    TRef.binary a1 φ.v0 φ.v1 (cmpi .slt),
    TRef.nullary φ.c_0 (constantI S_ 32 1000#32),
    TRef.unary φ.c_0 φ.v2 (broadcastInDim S1000 ![] bcast_S_S1000),
    TRef.binary a1 φ.v2 φ.v3 addi,
    TRef.ternary φ.v1 φ.v3 a1 φ.call0.v0 select,
    TRef.unary φ.call0.v0 φ.v5 (broadcastInDim S1000x1 ![0] bcast_S1000_S1000x1_0),
    TRef.nullary φ.c_1 (constantI S1 32 999#32),
    TRef.nullary φ.c_2 (constantI S_ 32 0#32),
    TRef.unary φ.c_2 φ.v6 (broadcastInDim S1000x1 ![] bcast_S_S1000x1),
    TRef.binary φ.v5 φ.v6 φ.v7 (cmpi .sge),
    TRef.unary φ.c_1 φ.v8 (broadcastInDim S1x1 ![1] bcast_S1_S1x1_1),
    TRef.unary φ.v8 φ.v9 (broadcastInDim S1000x1 ![0, 1] bcast_S1x1_S1000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1000x1_S1000_d1 h_S_),
    TRef.binary a0 φ.v5 φ.v13 (fun x i => Host.gather gather_S1000x128_S1000x1_S1000x128_1_0_n_n_0_1_1128 x i),
    TRef.unary φ.v12 φ.v14 (broadcastInDim S1000x128 ![0] bcast_S1000_S1000x128_0),
    TRef.nullary φ.cst (constant S_ .f32 0x7FC00000#32),
    TRef.unary φ.cst φ.v15 (broadcastInDim S1000x128 ![] bcast_S_S1000x128),
    TRef.ternary φ.v14 φ.v13 φ.v15 φ.v16 select ]

/-- The buffers one call of the row take writes. -/
abbrev takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
    φ.v7.ref, φ.v8.ref, φ.v9.ref, φ.v10.ref, φ.v11.ref, φ.c_3.ref, φ.v12.ref, φ.v13.ref, φ.v14.ref, φ.cst.ref, φ.v15.ref,
    φ.v16.ref]

/-- One call of relu: the zero, its broadcast, the maximum. -/
abbrev reluOps (a0 : TRef sig ⟨S1000x128, .f32⟩) (φ : fn_relu.Bufs) : List (HloOp τ sig (Elt F)) :=
  [ TRef.nullary φ.cst (constant S_ .f32 0x00000000#32),
    TRef.unary φ.cst φ.v0 (broadcastInDim S1000x128 ![] bcast_S_S1000x128),
    TRef.binary a0 φ.v0 φ.v1 maximumf ]

/-- The buffers one call of relu writes. -/
abbrev reluW (φ : fn_relu.Bufs) : List (Ref sig .tc) := [φ.cst.ref, φ.v0.ref, φ.v1.ref]

/-- x · wᵀ + b before the hidden layer's relu, as @main writes it: the transpose, the product, the bias's two
    broadcasts, the sum. -/
abbrev affOps (x : TRef sig ⟨S1000x128, .f32⟩) (w : TRef sig ⟨S128x128, .f32⟩) (b : TRef sig ⟨S128, .f32⟩)
    (wt : TRef sig ⟨S128x128, .f32⟩) (d : TRef sig ⟨S1000x128, .f32⟩) (b1 : TRef sig ⟨S1x128, .f32⟩)
    (b2 y : TRef sig ⟨S1000x128, .f32⟩) : List (HloOp τ sig (Elt F)) :=
  [ TRef.unary w wt (transpose S128x128 [1, 0] · transposes_S128x128_S128x128_1_0),
    TRef.binary x wt d (fun l r => Host.dotGeneral dot_S1000x128_S128x128_S1000x128_1_0_0_1_n_n none l r),
    TRef.unary b b1 (broadcastInDim S1x128 ![1] bcast_S128_S1x128_1),
    TRef.unary b1 b2 (broadcastInDim S1000x128 ![0, 1] bcast_S1x128_S1000x128_0_1),
    TRef.binary d b2 y addf ]

/-- (a ‖ c) · gwᵀ + gb before the second layer's relu, as @main writes it: the concatenation, the transpose, the
    product, the bias's two broadcasts, the sum. -/
abbrev catOps (a c : TRef sig ⟨S1000x128, .f32⟩) (gw : TRef sig ⟨S128x256, .f32⟩) (gb : TRef sig ⟨S128, .f32⟩)
    (ac : TRef sig ⟨S1000x256, .f32⟩) (gwt : TRef sig ⟨S256x128, .f32⟩) (d : TRef sig ⟨S1000x128, .f32⟩)
    (b1 : TRef sig ⟨S1x128, .f32⟩) (b2 y : TRef sig ⟨S1000x128, .f32⟩) : List (HloOp τ sig (Elt F)) :=
  [ TRef.binary a c ac (fun u v => concatenate S1000x256 1 [⟨S1000x128, u⟩, ⟨S1000x128, v⟩] concatenates_S1000x128_S1000x128_S1000x256_d1),
    TRef.unary gw gwt (transpose S256x128 [1, 0] · transposes_S128x256_S256x128_1_0),
    TRef.binary ac gwt d (fun l r => Host.dotGeneral dot_S1000x256_S256x128_S1000x128_1_0_0_1_n_n none l r),
    TRef.unary gb b1 (broadcastInDim S1x128 ![1] bcast_S128_S1x128_1),
    TRef.unary b1 b2 (broadcastInDim S1000x128 ![0, 1] bcast_S1x128_S1000x128_0_1),
    TRef.binary d b2 y addf ]

/-! ## The 25 stretches of @main, in program order -/

/-- The node indices, the constant 1 and its broadcast, index + 1, the constant 1000. -/
def opsA : List (HloOp τ sig (Elt F)) :=
  [ nullary main_v0 (iotaInDim S1000 32 0),
    nullary main_c (constantI S_ 32 1#32),
    unary main_c main_v1 (broadcastInDim S1000 ![] bcast_S_S1000 : (⟨S_, .i32⟩ : BufTy).Contents (Elt F) → (⟨S1000, .i32⟩ : BufTy).Contents (Elt F)),
    binary main_v0 main_v1 main_v2 (addi : (⟨S1000, .i32⟩ : BufTy).Contents (Elt F) → (⟨S1000, .i32⟩ : BufTy).Contents (Elt F) → (⟨S1000, .i32⟩ : BufTy).Contents (Elt F)),
    nullary main_c_0 (constantI S_ 32 1000#32) ]
/-- (index + 1) mod 1000. -/
def opsRem : List (HloOp τ sig (Elt F)) := remOps (.of main_v2) (.of main_c_0) main_call0
/-- The rows of x at the ring neighbours. -/
def opsT1 : List (HloOp τ sig (Elt F)) := takeOps (.of main_arg0) (.of main_v3) main_call1
def opsH1 : List (HloOp τ sig (Elt F)) :=
  affOps (.of main_v4) (.of main_arg1) (.of main_arg2) (.of main_v5) (.of main_v6) (.of main_v7) (.of main_v8) (.of main_v9)
def opsR2 : List (HloOp τ sig (Elt F)) := reluOps (.of main_v9) main_call2
/-- The rows of x at the node indices. -/
def opsT3 : List (HloOp τ sig (Elt F)) := takeOps (.of main_arg0) (.of main_v0) main_call3
def opsH3 : List (HloOp τ sig (Elt F)) :=
  affOps (.of main_v11) (.of main_arg1) (.of main_arg2) (.of main_v12) (.of main_v13) (.of main_v14) (.of main_v15) (.of main_v16)
def opsR4 : List (HloOp τ sig (Elt F)) := reluOps (.of main_v16) main_call4
/-- The second layer on (neighbour ‖ self). -/
def opsG1 : List (HloOp τ sig (Elt F)) :=
  catOps (.of main_v10) (.of main_v17) (.of main_arg3) (.of main_arg4) (.of main_v18) (.of main_v19) (.of main_v20) (.of main_v21)
    (.of main_v22) (.of main_v23)
def opsR5 : List (HloOp τ sig (Elt F)) := reluOps (.of main_v23) main_call5
def opsT6 : List (HloOp τ sig (Elt F)) := takeOps (.of main_arg0) (.of main_v0) main_call6
def opsH6 : List (HloOp τ sig (Elt F)) :=
  affOps (.of main_v25) (.of main_arg1) (.of main_arg2) (.of main_v26) (.of main_v27) (.of main_v28) (.of main_v29) (.of main_v30)
def opsR7 : List (HloOp τ sig (Elt F)) := reluOps (.of main_v30) main_call7
def opsT8 : List (HloOp τ sig (Elt F)) := takeOps (.of main_arg0) (.of main_v3) main_call8
def opsH8 : List (HloOp τ sig (Elt F)) :=
  affOps (.of main_v32) (.of main_arg1) (.of main_arg2) (.of main_v33) (.of main_v34) (.of main_v35) (.of main_v36) (.of main_v37)
def opsR9 : List (HloOp τ sig (Elt F)) := reluOps (.of main_v37) main_call9
/-- The second layer on (self ‖ neighbour). -/
def opsG2 : List (HloOp τ sig (Elt F)) :=
  catOps (.of main_v31) (.of main_v38) (.of main_arg3) (.of main_arg4) (.of main_v39) (.of main_v40) (.of main_v41) (.of main_v42)
    (.of main_v43) (.of main_v44)
def opsR10 : List (HloOp τ sig (Elt F)) := reluOps (.of main_v44) main_call10
/-- The sum of the two orders, the constant 2 and its broadcast, the quotient. -/
def opsE : List (HloOp τ sig (Elt F)) :=
  [ binary main_v24 main_v45 main_v46 (addf : (⟨S1000x128, .f32⟩ : BufTy).Contents (Elt F) → (⟨S1000x128, .f32⟩ : BufTy).Contents (Elt F) → (⟨S1000x128, .f32⟩ : BufTy).Contents (Elt F)),
    nullary main_cst (constant S_ .f32 0x40000000#32),
    unary main_cst main_v47 (broadcastInDim S1000x128 ![] bcast_S_S1000x128 : (⟨S_, .f32⟩ : BufTy).Contents (Elt F) → (⟨S1000x128, .f32⟩ : BufTy).Contents (Elt F)),
    binary main_v46 main_v47 main_v48 (Host.divf : (⟨S1000x128, .f32⟩ : BufTy).Contents (Elt F) → (⟨S1000x128, .f32⟩ : BufTy).Contents (Elt F) → (⟨S1000x128, .f32⟩ : BufTy).Contents (Elt F)) ]
def opsR11 : List (HloOp τ sig (Elt F)) := reluOps (.of main_v48) main_call11
def opsH12 : List (HloOp τ sig (Elt F)) :=
  affOps (.of main_arg0) (.of main_arg1) (.of main_arg2) (.of main_v50) (.of main_v51) (.of main_v52) (.of main_v53) (.of main_v54)
def opsR12 : List (HloOp τ sig (Elt F)) := reluOps (.of main_v54) main_call12
/-- The second layer on (hidden layer of x ‖ the averaged embedding). -/
def opsG3 : List (HloOp τ sig (Elt F)) :=
  catOps (.of main_v55) (.of main_v49) (.of main_arg3) (.of main_arg4) (.of main_v56) (.of main_v57) (.of main_v58) (.of main_v59)
    (.of main_v60) (.of main_v61)
def opsR13 : List (HloOp τ sig (Elt F)) := reluOps (.of main_v61) main_call13
/-- The read-out: the transpose, the product, the bias's two broadcasts, the sum. -/
def opsOut : List (HloOp τ sig (Elt F)) :=
  [ unary main_arg5 main_v63 ((transpose S128x2 [1, 0] · transposes_S2x128_S128x2_1_0) : (⟨S2x128, .f32⟩ : BufTy).Contents (Elt F) → (⟨S128x2, .f32⟩ : BufTy).Contents (Elt F)),
    binary main_v62 main_v63 main_v64 ((fun l r => Host.dotGeneral dot_S1000x128_S128x2_S1000x2_1_0_0_1_n_n none l r) : (⟨S1000x128, .f32⟩ : BufTy).Contents (Elt F) → (⟨S128x2, .f32⟩ : BufTy).Contents (Elt F) → (⟨S1000x2, .f32⟩ : BufTy).Contents (Elt F)),
    unary main_arg6 main_v65 (broadcastInDim S1x2 ![1] bcast_S2_S1x2_1 : (⟨S2, .f32⟩ : BufTy).Contents (Elt F) → (⟨S1x2, .f32⟩ : BufTy).Contents (Elt F)),
    unary main_v65 main_v66 (broadcastInDim S1000x2 ![0, 1] bcast_S1x2_S1000x2_0_1 : (⟨S1x2, .f32⟩ : BufTy).Contents (Elt F) → (⟨S1000x2, .f32⟩ : BufTy).Contents (Elt F)),
    binary main_v64 main_v66 main_v67 (addf : (⟨S1000x2, .f32⟩ : BufTy).Contents (Elt F) → (⟨S1000x2, .f32⟩ : BufTy).Contents (Elt F) → (⟨S1000x2, .f32⟩ : BufTy).Contents (Elt F)) ]

/-- @main's 197 operations, in order: the stretches one after the other. -/
def ops : List (HloOp τ sig (Elt F)) :=
  opsA ++ opsRem ++ opsT1 ++ opsH1 ++ opsR2 ++ opsT3 ++ opsH3 ++ opsR4 ++ opsG1 ++ opsR5 ++ opsT6 ++ opsH6 ++ opsR7 ++ opsT8
    ++ opsH8 ++ opsR9 ++ opsG2 ++ opsR10 ++ opsE ++ opsR11 ++ opsH12 ++ opsR12 ++ opsG3 ++ opsR13 ++ opsOut

/-- @main is that straight line: each call's body is its operations in order, and sequencing re-associates. -/
theorem main_eq (c : Dev nD) : main (F := F) c = seq ops := by
  chain_rfl

/-! ## Every operation touches TensorCore buffers only, determines its results, and writes a listed buffer -/

section Lists

variable (a0 : TRef sig ⟨S1000, .i32⟩) (a1 : TRef sig ⟨S_, .i32⟩) (ρ : fn_remainder.Bufs)
  (x0 : TRef sig ⟨S1000x128, .f32⟩) (i1 : TRef sig ⟨S1000, .i32⟩) (φ : fn_take.Bufs) (ψ : fn_relu.Bufs)
  (w : TRef sig ⟨S128x128, .f32⟩) (b : TRef sig ⟨S128, .f32⟩) (wt : TRef sig ⟨S128x128, .f32⟩) (d : TRef sig ⟨S1000x128, .f32⟩)
  (b1 : TRef sig ⟨S1x128, .f32⟩) (b2 y c : TRef sig ⟨S1000x128, .f32⟩) (gw : TRef sig ⟨S128x256, .f32⟩)
  (ac : TRef sig ⟨S1000x256, .f32⟩) (gwt : TRef sig ⟨S256x128, .f32⟩)

theorem remOps_sub : (remOps (F := F) a0 a1 ρ).Forall fun op => op.bufs ⊆ tcRefs τ sig := by
  simp only [List.Forall, nullary_bufs_sub, unary_bufs_sub, binary_bufs_sub, ternary_bufs_sub, and_self]
theorem takeOps_sub : (takeOps (F := F) x0 i1 φ).Forall fun op => op.bufs ⊆ tcRefs τ sig := by
  simp only [List.Forall, nullary_bufs_sub, unary_bufs_sub, binary_bufs_sub, ternary_bufs_sub, and_self]
theorem reluOps_sub : (reluOps (F := F) x0 ψ).Forall fun op => op.bufs ⊆ tcRefs τ sig := by
  simp only [List.Forall, nullary_bufs_sub, unary_bufs_sub, binary_bufs_sub, and_self]
theorem affOps_sub : (affOps (F := F) x0 w b wt d b1 b2 y).Forall fun op => op.bufs ⊆ tcRefs τ sig := by
  simp only [List.Forall, unary_bufs_sub, binary_bufs_sub, and_self]
theorem catOps_sub : (catOps (F := F) x0 c gw b ac gwt d b1 b2 y).Forall fun op => op.bufs ⊆ tcRefs τ sig := by
  simp only [List.Forall, unary_bufs_sub, binary_bufs_sub, and_self]
theorem opsA_sub : (opsA (F := F)).Forall fun op => op.bufs ⊆ tcRefs τ sig := by
  simp only [opsA, List.Forall, nullary_bufs_sub, unary_bufs_sub, binary_bufs_sub, and_self]
theorem opsE_sub : (opsE (F := F)).Forall fun op => op.bufs ⊆ tcRefs τ sig := by
  simp only [opsE, List.Forall, nullary_bufs_sub, unary_bufs_sub, binary_bufs_sub, and_self]
theorem opsOut_sub : (opsOut (F := F)).Forall fun op => op.bufs ⊆ tcRefs τ sig := by
  simp only [opsOut, List.Forall, unary_bufs_sub, binary_bufs_sub, and_self]

theorem remOps_fresh : (remOps (F := F) a0 a1 ρ).Forall fun op => op.fresh = ∅ := by
  simp only [List.Forall]; repeat' constructor
theorem takeOps_fresh : (takeOps (F := F) x0 i1 φ).Forall fun op => op.fresh = ∅ := by
  simp only [List.Forall]; repeat' constructor
theorem reluOps_fresh : (reluOps (F := F) x0 ψ).Forall fun op => op.fresh = ∅ := by
  simp only [List.Forall]; repeat' constructor
theorem affOps_fresh : (affOps (F := F) x0 w b wt d b1 b2 y).Forall fun op => op.fresh = ∅ := by
  simp only [List.Forall]; repeat' constructor
theorem catOps_fresh : (catOps (F := F) x0 c gw b ac gwt d b1 b2 y).Forall fun op => op.fresh = ∅ := by
  simp only [List.Forall]; repeat' constructor
theorem opsA_fresh : (opsA (F := F)).Forall fun op => op.fresh = ∅ := by
  simp only [opsA, List.Forall]; repeat' constructor
theorem opsE_fresh : (opsE (F := F)).Forall fun op => op.fresh = ∅ := by
  simp only [opsE, List.Forall]; repeat' constructor
theorem opsOut_fresh : (opsOut (F := F)).Forall fun op => op.fresh = ∅ := by
  simp only [opsOut, List.Forall]; repeat' constructor

/-- An operation whose one result buffer is in a list writes inside the list. -/
theorem writes_sub {W : List (Ref sig .tc)} {op : HloOp τ sig (Elt F)} {r : Ref sig .tc}
    (hw : op.writes = {Proc.devRef .tc r}) (hr : r ∈ W) :
    op.writes ⊆ (W.map (Proc.devRef (τ := τ) .tc)).toFinset := by
  rw [hw, Finset.singleton_subset_iff, List.mem_toFinset]; exact List.mem_map_of_mem hr

theorem remOps_writes : (remOps (F := F) a0 a1 ρ).Forall fun op => op.writes ⊆ ((remW ρ).map (Proc.devRef (τ := τ) .tc)).toFinset := by
  simp only [List.Forall]; repeat' constructor
  all_goals exact writes_sub rfl (by simp only [remW, List.mem_cons, true_or, or_true])
theorem takeOps_writes : (takeOps (F := F) x0 i1 φ).Forall fun op => op.writes ⊆ ((takeW φ).map (Proc.devRef (τ := τ) .tc)).toFinset := by
  simp only [List.Forall]; repeat' constructor
  all_goals exact writes_sub rfl (by simp only [takeW, List.mem_cons, true_or, or_true])
theorem reluOps_writes : (reluOps (F := F) x0 ψ).Forall fun op => op.writes ⊆ ((reluW ψ).map (Proc.devRef (τ := τ) .tc)).toFinset := by
  simp only [List.Forall]; repeat' constructor
  all_goals exact writes_sub rfl (by simp only [reluW, List.mem_cons, true_or, or_true])

end Lists

section Lists2

variable (x0 : TRef sig ⟨S1000x128, .f32⟩) (w : TRef sig ⟨S128x128, .f32⟩) (b : TRef sig ⟨S128, .f32⟩)
  (wt : TRef sig ⟨S128x128, .f32⟩) (d : TRef sig ⟨S1000x128, .f32⟩)
  (b1 : TRef sig ⟨S1x128, .f32⟩) (b2 y c : TRef sig ⟨S1000x128, .f32⟩) (gw : TRef sig ⟨S128x256, .f32⟩)
  (ac : TRef sig ⟨S1000x256, .f32⟩) (gwt : TRef sig ⟨S256x128, .f32⟩)

/-- The buffers x · wᵀ + b writes. -/
abbrev affW : List (Ref sig .tc) := [wt.ref, d.ref, b1.ref, b2.ref, y.ref]
/-- The buffers (a ‖ c) · gwᵀ + gb writes. -/
abbrev catW : List (Ref sig .tc) := [ac.ref, gwt.ref, d.ref, b1.ref, b2.ref, y.ref]
/-- The buffers the first, the averaging and the read-out stretch write. -/
abbrev opsA_W : List (Ref sig .tc) := [main_v0, main_c, main_v1, main_v2, main_c_0]
abbrev opsE_W : List (Ref sig .tc) := [main_v46, main_cst, main_v47, main_v48]
abbrev opsOut_W : List (Ref sig .tc) := [main_v63, main_v64, main_v65, main_v66, main_v67]

theorem affOps_writes : (affOps (F := F) x0 w b wt d b1 b2 y).Forall fun op => op.writes ⊆ ((affW wt d b1 b2 y).map (Proc.devRef (τ := τ) .tc)).toFinset := by
  simp only [List.Forall]; repeat' constructor
  all_goals exact writes_sub rfl (by simp only [affW, List.mem_cons, true_or, or_true])
theorem catOps_writes : (catOps (F := F) x0 c gw b ac gwt d b1 b2 y).Forall fun op => op.writes ⊆ ((catW d b1 b2 y ac gwt).map (Proc.devRef (τ := τ) .tc)).toFinset := by
  simp only [List.Forall]; repeat' constructor
  all_goals exact writes_sub rfl (by simp only [catW, List.mem_cons, true_or, or_true])
theorem opsA_writes : (opsA (F := F)).Forall fun op => op.writes ⊆ (opsA_W.map (Proc.devRef (τ := τ) .tc)).toFinset := by
  simp only [opsA, List.Forall]; repeat' constructor
  all_goals exact writes_sub rfl (by decide)
theorem opsE_writes : (opsE (F := F)).Forall fun op => op.writes ⊆ (opsE_W.map (Proc.devRef (τ := τ) .tc)).toFinset := by
  simp only [opsE, List.Forall]; repeat' constructor
  all_goals exact writes_sub rfl (by decide)
theorem opsOut_writes : (opsOut (F := F)).Forall fun op => op.writes ⊆ (opsOut_W.map (Proc.devRef (τ := τ) .tc)).toFinset := by
  simp only [opsOut, List.Forall]; repeat' constructor
  all_goals exact writes_sub rfl (by decide)

end Lists2

/-! ## A buffer a stretch does not write keeps its contents through it -/

section Keep

variable (W : Valuation τ sig (Elt F)) {r : Ref sig .tc}

theorem keepA (h : r ∉ opsA_W) : after (opsA (F := F)) W (no_index (Proc.devRef .tc r)) = W (Proc.devRef .tc r) :=
  after_of_writes_sub _ W opsA_writes h
theorem keepRem (h : r ∉ remW main_call0) : after (opsRem (F := F)) W (no_index (Proc.devRef .tc r)) = W (Proc.devRef .tc r) :=
  after_of_writes_sub _ W (remOps_writes _ _ _) h
theorem keepT1 (h : r ∉ takeW main_call1) : after (opsT1 (F := F)) W (no_index (Proc.devRef .tc r)) = W (Proc.devRef .tc r) :=
  after_of_writes_sub _ W (takeOps_writes _ _ _) h
theorem keepH1 (h : r ∉ ([main_v5, main_v6, main_v7, main_v8, main_v9] : List (Ref sig .tc))) :
    after (opsH1 (F := F)) W (no_index (Proc.devRef .tc r)) = W (Proc.devRef .tc r) :=
  after_of_writes_sub _ W (affOps_writes _ _ _ _ _ _ _ _) h
theorem keepR2 (h : r ∉ reluW main_call2) : after (opsR2 (F := F)) W (no_index (Proc.devRef .tc r)) = W (Proc.devRef .tc r) :=
  after_of_writes_sub _ W (reluOps_writes _ _) h
theorem keepT3 (h : r ∉ takeW main_call3) : after (opsT3 (F := F)) W (no_index (Proc.devRef .tc r)) = W (Proc.devRef .tc r) :=
  after_of_writes_sub _ W (takeOps_writes _ _ _) h
theorem keepH3 (h : r ∉ ([main_v12, main_v13, main_v14, main_v15, main_v16] : List (Ref sig .tc))) :
    after (opsH3 (F := F)) W (no_index (Proc.devRef .tc r)) = W (Proc.devRef .tc r) :=
  after_of_writes_sub _ W (affOps_writes _ _ _ _ _ _ _ _) h
theorem keepR4 (h : r ∉ reluW main_call4) : after (opsR4 (F := F)) W (no_index (Proc.devRef .tc r)) = W (Proc.devRef .tc r) :=
  after_of_writes_sub _ W (reluOps_writes _ _) h
theorem keepG1 (h : r ∉ ([main_v18, main_v19, main_v20, main_v21, main_v22, main_v23] : List (Ref sig .tc))) :
    after (opsG1 (F := F)) W (no_index (Proc.devRef .tc r)) = W (Proc.devRef .tc r) :=
  after_of_writes_sub _ W (catOps_writes _ _ _ _ _ _ _ _ _ _) h
theorem keepR5 (h : r ∉ reluW main_call5) : after (opsR5 (F := F)) W (no_index (Proc.devRef .tc r)) = W (Proc.devRef .tc r) :=
  after_of_writes_sub _ W (reluOps_writes _ _) h
theorem keepT6 (h : r ∉ takeW main_call6) : after (opsT6 (F := F)) W (no_index (Proc.devRef .tc r)) = W (Proc.devRef .tc r) :=
  after_of_writes_sub _ W (takeOps_writes _ _ _) h
theorem keepH6 (h : r ∉ ([main_v26, main_v27, main_v28, main_v29, main_v30] : List (Ref sig .tc))) :
    after (opsH6 (F := F)) W (no_index (Proc.devRef .tc r)) = W (Proc.devRef .tc r) :=
  after_of_writes_sub _ W (affOps_writes _ _ _ _ _ _ _ _) h
theorem keepR7 (h : r ∉ reluW main_call7) : after (opsR7 (F := F)) W (no_index (Proc.devRef .tc r)) = W (Proc.devRef .tc r) :=
  after_of_writes_sub _ W (reluOps_writes _ _) h
theorem keepT8 (h : r ∉ takeW main_call8) : after (opsT8 (F := F)) W (no_index (Proc.devRef .tc r)) = W (Proc.devRef .tc r) :=
  after_of_writes_sub _ W (takeOps_writes _ _ _) h
theorem keepH8 (h : r ∉ ([main_v33, main_v34, main_v35, main_v36, main_v37] : List (Ref sig .tc))) :
    after (opsH8 (F := F)) W (no_index (Proc.devRef .tc r)) = W (Proc.devRef .tc r) :=
  after_of_writes_sub _ W (affOps_writes _ _ _ _ _ _ _ _) h
theorem keepR9 (h : r ∉ reluW main_call9) : after (opsR9 (F := F)) W (no_index (Proc.devRef .tc r)) = W (Proc.devRef .tc r) :=
  after_of_writes_sub _ W (reluOps_writes _ _) h
theorem keepG2 (h : r ∉ ([main_v39, main_v40, main_v41, main_v42, main_v43, main_v44] : List (Ref sig .tc))) :
    after (opsG2 (F := F)) W (no_index (Proc.devRef .tc r)) = W (Proc.devRef .tc r) :=
  after_of_writes_sub _ W (catOps_writes _ _ _ _ _ _ _ _ _ _) h
theorem keepR10 (h : r ∉ reluW main_call10) : after (opsR10 (F := F)) W (no_index (Proc.devRef .tc r)) = W (Proc.devRef .tc r) :=
  after_of_writes_sub _ W (reluOps_writes _ _) h
theorem keepE (h : r ∉ opsE_W) : after (opsE (F := F)) W (no_index (Proc.devRef .tc r)) = W (Proc.devRef .tc r) :=
  after_of_writes_sub _ W opsE_writes h
theorem keepR11 (h : r ∉ reluW main_call11) : after (opsR11 (F := F)) W (no_index (Proc.devRef .tc r)) = W (Proc.devRef .tc r) :=
  after_of_writes_sub _ W (reluOps_writes _ _) h
theorem keepH12 (h : r ∉ ([main_v50, main_v51, main_v52, main_v53, main_v54] : List (Ref sig .tc))) :
    after (opsH12 (F := F)) W (no_index (Proc.devRef .tc r)) = W (Proc.devRef .tc r) :=
  after_of_writes_sub _ W (affOps_writes _ _ _ _ _ _ _ _) h
theorem keepR12 (h : r ∉ reluW main_call12) : after (opsR12 (F := F)) W (no_index (Proc.devRef .tc r)) = W (Proc.devRef .tc r) :=
  after_of_writes_sub _ W (reluOps_writes _ _) h
theorem keepG3 (h : r ∉ ([main_v56, main_v57, main_v58, main_v59, main_v60, main_v61] : List (Ref sig .tc))) :
    after (opsG3 (F := F)) W (no_index (Proc.devRef .tc r)) = W (Proc.devRef .tc r) :=
  after_of_writes_sub _ W (catOps_writes _ _ _ _ _ _ _ _ _ _) h
theorem keepR13 (h : r ∉ reluW main_call13) : after (opsR13 (F := F)) W (no_index (Proc.devRef .tc r)) = W (Proc.devRef .tc r) :=
  after_of_writes_sub _ W (reluOps_writes _ _) h
theorem keepOut (h : r ∉ opsOut_W) : after (opsOut (F := F)) W (no_index (Proc.devRef .tc r)) = W (Proc.devRef .tc r) :=
  after_of_writes_sub _ W opsOut_writes h

end Keep

/-! ## What each stretch leaves in its last buffer, from any contents -/

/-- x · wᵀ + b. -/
def hPre (x : FVec F S1000x128 .f32) (w : FVec F S128x128 .f32) (b : FVec F S128 .f32) : FVec F S1000x128 .f32 :=
  addf (Host.dotGeneral dot_S1000x128_S128x128_S1000x128_1_0_0_1_n_n none x
    (transpose S128x128 [1, 0] w transposes_S128x128_S128x128_1_0)) (rowBias b)

/-- (a ‖ c) · gwᵀ + gb. -/
def gPre (a c : FVec F S1000x128 .f32) (gw : FVec F S128x256 .f32) (gb : FVec F S128 .f32) : FVec F S1000x128 .f32 :=
  addf (Host.dotGeneral dot_S1000x256_S256x128_S1000x128_1_0_0_1_n_n none
    (concatenate S1000x256 1 [⟨S1000x128, a⟩, ⟨S1000x128, c⟩] concatenates_S1000x128_S1000x128_S1000x256_d1)
    (transpose S256x128 [1, 0] gw transposes_S128x256_S256x128_1_0)) (rowBias gb)

theorem hLayer_eq (x : FVec F S1000x128 .f32) (w : FVec F S128x128 .f32) (b : FVec F S128 .f32) :
    hLayer x w b = relu (hPre x w b) := rfl
theorem gLayer_eq (a c : FVec F S1000x128 .f32) (gw : FVec F S128x256 .f32) (gb : FVec F S128 .f32) :
    gLayer a c gw gb = relu (gPre a c gw gb) := rfl

/-- Reads a stretch's last buffer: each operation's result at its own buffer is its function's value, at any
    other buffer what was there; the typed references' transports are the identity at these literal references. -/
macro "stretch_result" : tactic =>
  `(tactic| (after_results_simp <;> (try simp only [TRef.ofBuf, TRef.toBuf, cast_eq]) <;> rfl))

section Results

variable (W : Valuation τ sig (Elt F))

attribute [local irreducible] Host.reduce Host.gather concatenate transpose Host.remsi in
theorem resA0 : after (opsA (F := F)) W (no_index (Proc.devRef .tc main_v0)) = nodeIdx := by
  simp only [opsA]; stretch_result
attribute [local irreducible] Host.reduce Host.gather concatenate transpose Host.remsi in
theorem resA2 : after (opsA (F := F)) W (no_index (Proc.devRef .tc main_v2))
    = addi nodeIdx (broadcastInDim S1000 ![] bcast_S_S1000 (constantI S_ 32 1#32)) := by
  simp only [opsA]; stretch_result
attribute [local irreducible] Host.reduce Host.gather concatenate transpose Host.remsi in
theorem resAc : after (opsA (F := F)) W (no_index (Proc.devRef .tc main_c_0)) = constantI S_ 32 1000#32 := by
  simp only [opsA]; stretch_result
attribute [local irreducible] Host.reduce Host.gather concatenate transpose Host.remsi in
theorem resRem : after (opsRem (F := F)) W (no_index (Proc.devRef .tc main_v3))
    = remBy (W (Proc.devRef .tc main_v2)) (W (Proc.devRef .tc main_c_0)) := by
  simp only [opsRem, remOps]; stretch_result
attribute [local irreducible] Host.reduce Host.gather concatenate transpose Host.remsi in
theorem resT1 : after (opsT1 (F := F)) W (no_index (Proc.devRef .tc main_v4))
    = takeRows (W (Proc.devRef .tc main_arg0)) (W (Proc.devRef .tc main_v3)) := by
  simp only [opsT1, takeOps]; stretch_result
attribute [local irreducible] Host.reduce Host.gather concatenate transpose Host.remsi in
theorem resH1 : after (opsH1 (F := F)) W (no_index (Proc.devRef .tc main_v9))
    = hPre (W (Proc.devRef .tc main_v4)) (W (Proc.devRef .tc main_arg1)) (W (Proc.devRef .tc main_arg2)) := by
  simp only [opsH1, affOps]; stretch_result
attribute [local irreducible] Host.reduce Host.gather concatenate transpose Host.remsi in
theorem resR2 : after (opsR2 (F := F)) W (no_index (Proc.devRef .tc main_v10)) = relu (W (Proc.devRef .tc main_v9)) := by
  simp only [opsR2, reluOps]; stretch_result
attribute [local irreducible] Host.reduce Host.gather concatenate transpose Host.remsi in
theorem resG1 : after (opsG1 (F := F)) W (no_index (Proc.devRef .tc main_v23))
    = gPre (W (Proc.devRef .tc main_v10)) (W (Proc.devRef .tc main_v17)) (W (Proc.devRef .tc main_arg3)) (W (Proc.devRef .tc main_arg4)) := by
  simp only [opsG1, catOps]; stretch_result

end Results

section Results2

variable (W : Valuation τ sig (Elt F))

attribute [local irreducible] Host.reduce Host.gather concatenate transpose Host.remsi in
theorem resT3 : after (opsT3 (F := F)) W (no_index (Proc.devRef .tc main_v11))
    = takeRows (W (Proc.devRef .tc main_arg0)) (W (Proc.devRef .tc main_v0)) := by
  simp only [opsT3, takeOps]; stretch_result
attribute [local irreducible] Host.reduce Host.gather concatenate transpose Host.remsi in
theorem resH3 : after (opsH3 (F := F)) W (no_index (Proc.devRef .tc main_v16))
    = hPre (W (Proc.devRef .tc main_v11)) (W (Proc.devRef .tc main_arg1)) (W (Proc.devRef .tc main_arg2)) := by
  simp only [opsH3, affOps]; stretch_result
attribute [local irreducible] Host.reduce Host.gather concatenate transpose Host.remsi in
theorem resR4 : after (opsR4 (F := F)) W (no_index (Proc.devRef .tc main_v17)) = relu (W (Proc.devRef .tc main_v16)) := by
  simp only [opsR4, reluOps]; stretch_result
attribute [local irreducible] Host.reduce Host.gather concatenate transpose Host.remsi in
theorem resR5 : after (opsR5 (F := F)) W (no_index (Proc.devRef .tc main_v24)) = relu (W (Proc.devRef .tc main_v23)) := by
  simp only [opsR5, reluOps]; stretch_result
attribute [local irreducible] Host.reduce Host.gather concatenate transpose Host.remsi in
theorem resT6 : after (opsT6 (F := F)) W (no_index (Proc.devRef .tc main_v25))
    = takeRows (W (Proc.devRef .tc main_arg0)) (W (Proc.devRef .tc main_v0)) := by
  simp only [opsT6, takeOps]; stretch_result
attribute [local irreducible] Host.reduce Host.gather concatenate transpose Host.remsi in
theorem resH6 : after (opsH6 (F := F)) W (no_index (Proc.devRef .tc main_v30))
    = hPre (W (Proc.devRef .tc main_v25)) (W (Proc.devRef .tc main_arg1)) (W (Proc.devRef .tc main_arg2)) := by
  simp only [opsH6, affOps]; stretch_result
attribute [local irreducible] Host.reduce Host.gather concatenate transpose Host.remsi in
theorem resR7 : after (opsR7 (F := F)) W (no_index (Proc.devRef .tc main_v31)) = relu (W (Proc.devRef .tc main_v30)) := by
  simp only [opsR7, reluOps]; stretch_result
attribute [local irreducible] Host.reduce Host.gather concatenate transpose Host.remsi in
theorem resT8 : after (opsT8 (F := F)) W (no_index (Proc.devRef .tc main_v32))
    = takeRows (W (Proc.devRef .tc main_arg0)) (W (Proc.devRef .tc main_v3)) := by
  simp only [opsT8, takeOps]; stretch_result
attribute [local irreducible] Host.reduce Host.gather concatenate transpose Host.remsi in
theorem resH8 : after (opsH8 (F := F)) W (no_index (Proc.devRef .tc main_v37))
    = hPre (W (Proc.devRef .tc main_v32)) (W (Proc.devRef .tc main_arg1)) (W (Proc.devRef .tc main_arg2)) := by
  simp only [opsH8, affOps]; stretch_result
attribute [local irreducible] Host.reduce Host.gather concatenate transpose Host.remsi in
theorem resR9 : after (opsR9 (F := F)) W (no_index (Proc.devRef .tc main_v38)) = relu (W (Proc.devRef .tc main_v37)) := by
  simp only [opsR9, reluOps]; stretch_result
attribute [local irreducible] Host.reduce Host.gather concatenate transpose Host.remsi in
theorem resG2 : after (opsG2 (F := F)) W (no_index (Proc.devRef .tc main_v44))
    = gPre (W (Proc.devRef .tc main_v31)) (W (Proc.devRef .tc main_v38)) (W (Proc.devRef .tc main_arg3)) (W (Proc.devRef .tc main_arg4)) := by
  simp only [opsG2, catOps]; stretch_result
attribute [local irreducible] Host.reduce Host.gather concatenate transpose Host.remsi in
theorem resR10 : after (opsR10 (F := F)) W (no_index (Proc.devRef .tc main_v45)) = relu (W (Proc.devRef .tc main_v44)) := by
  simp only [opsR10, reluOps]; stretch_result
attribute [local irreducible] Host.reduce Host.gather concatenate transpose Host.remsi in
theorem resE : after (opsE (F := F)) W (no_index (Proc.devRef .tc main_v48))
    = Host.divf (addf (W (Proc.devRef .tc main_v24)) (W (Proc.devRef .tc main_v45)))
        (broadcastInDim S1000x128 ![] bcast_S_S1000x128 (constant S_ .f32 0x40000000#32)) := by
  simp only [opsE]; stretch_result
attribute [local irreducible] Host.reduce Host.gather concatenate transpose Host.remsi in
theorem resR11 : after (opsR11 (F := F)) W (no_index (Proc.devRef .tc main_v49)) = relu (W (Proc.devRef .tc main_v48)) := by
  simp only [opsR11, reluOps]; stretch_result
attribute [local irreducible] Host.reduce Host.gather concatenate transpose Host.remsi in
theorem resH12 : after (opsH12 (F := F)) W (no_index (Proc.devRef .tc main_v54))
    = hPre (W (Proc.devRef .tc main_arg0)) (W (Proc.devRef .tc main_arg1)) (W (Proc.devRef .tc main_arg2)) := by
  simp only [opsH12, affOps]; stretch_result
attribute [local irreducible] Host.reduce Host.gather concatenate transpose Host.remsi in
theorem resR12 : after (opsR12 (F := F)) W (no_index (Proc.devRef .tc main_v55)) = relu (W (Proc.devRef .tc main_v54)) := by
  simp only [opsR12, reluOps]; stretch_result
attribute [local irreducible] Host.reduce Host.gather concatenate transpose Host.remsi in
theorem resG3 : after (opsG3 (F := F)) W (no_index (Proc.devRef .tc main_v61))
    = gPre (W (Proc.devRef .tc main_v55)) (W (Proc.devRef .tc main_v49)) (W (Proc.devRef .tc main_arg3)) (W (Proc.devRef .tc main_arg4)) := by
  simp only [opsG3, catOps]; stretch_result
attribute [local irreducible] Host.reduce Host.gather concatenate transpose Host.remsi in
theorem resR13 : after (opsR13 (F := F)) W (no_index (Proc.devRef .tc main_v62)) = relu (W (Proc.devRef .tc main_v61)) := by
  simp only [opsR13, reluOps]; stretch_result
attribute [local irreducible] Host.reduce Host.gather concatenate transpose Host.remsi in
theorem resOut : after (opsOut (F := F)) W (no_index (Proc.devRef .tc main_v67))
    = addf (Host.dotGeneral dot_S1000x128_S128x2_S1000x2_1_0_0_1_n_n none (W (Proc.devRef .tc main_v62))
          (transpose S128x2 [1, 0] (W (Proc.devRef .tc main_arg5)) transposes_S2x128_S128x2_1_0))
        (broadcastInDim S1000x2 ![0, 1] bcast_S1x2_S1000x2_0_1 (broadcastInDim S1x2 ![1] bcast_S2_S1x2_1 (W (Proc.devRef .tc main_arg6)))) := by
  simp only [opsOut]; stretch_result

end Results2

/-! ## The stretches composed -/

/-- Walks a buffer back through the 25 stretches: through a stretch that does not write it, unchanged; at the
    stretch that ends in it, the stretch's function of the buffers it reads, each walked back in turn. -/
macro "through_stretches" : tactic =>
  `(tactic| (unfold ops
             simp only [after_append]
             simp (disch := decide) only [resA0, resA2, resAc, resRem, resT1, resH1, resR2, resT3, resH3, resR4, resG1, resR5, resT6,
               resH6, resR7, resT8, resH8, resR9, resG2, resR10, resE, resR11, resH12, resR12, resG3, resR13, resOut,
               keepA, keepRem, keepT1, keepH1, keepR2, keepT3, keepH3, keepR4, keepG1, keepR5, keepT6, keepH6, keepR7, keepT8,
               keepH8, keepR9, keepG2, keepR10, keepE, keepR11, keepH12, keepR12, keepG3, keepR13, keepOut]))

section Composed

variable (V : Valuation τ sig (Elt F))

attribute [local irreducible] Host.reduce Host.gather concatenate transpose Host.remsi in
/-- The result buffer after the whole line is `refOut` of the seven arguments' starting contents. -/
theorem out_eq : after (ops (F := F)) V (Proc.devRef .tc main_v67)
    = refOut (V (Proc.devRef .tc main_arg0)) (V (Proc.devRef .tc main_arg1)) (V (Proc.devRef .tc main_arg2))
        (V (Proc.devRef .tc main_arg3)) (V (Proc.devRef .tc main_arg4)) (V (Proc.devRef .tc main_arg5)) (V (Proc.devRef .tc main_arg6)) := by
  through_stretches
  rfl

theorem arg0_eq : after (ops (F := F)) V (Proc.devRef .tc main_arg0) = V (Proc.devRef .tc main_arg0) := by through_stretches
theorem arg1_eq : after (ops (F := F)) V (Proc.devRef .tc main_arg1) = V (Proc.devRef .tc main_arg1) := by through_stretches
theorem arg2_eq : after (ops (F := F)) V (Proc.devRef .tc main_arg2) = V (Proc.devRef .tc main_arg2) := by through_stretches
theorem arg3_eq : after (ops (F := F)) V (Proc.devRef .tc main_arg3) = V (Proc.devRef .tc main_arg3) := by through_stretches
theorem arg4_eq : after (ops (F := F)) V (Proc.devRef .tc main_arg4) = V (Proc.devRef .tc main_arg4) := by through_stretches
theorem arg5_eq : after (ops (F := F)) V (Proc.devRef .tc main_arg5) = V (Proc.devRef .tc main_arg5) := by through_stretches
theorem arg6_eq : after (ops (F := F)) V (Proc.devRef .tc main_arg6) = V (Proc.devRef .tc main_arg6) := by through_stretches

end Composed

/-! ## The run -/

theorem ops_sub : (ops (F := F)).Forall fun op => op.bufs ⊆ tcRefs τ sig := by
  unfold ops
  simp only [List.forall_append]
  exact ⟨⟨⟨⟨⟨⟨⟨⟨⟨⟨⟨⟨⟨⟨⟨⟨⟨⟨⟨⟨⟨⟨⟨⟨opsA_sub, remOps_sub _ _ _⟩, takeOps_sub _ _ _⟩, affOps_sub _ _ _ _ _ _ _ _⟩, reluOps_sub _ _⟩,
    takeOps_sub _ _ _⟩, affOps_sub _ _ _ _ _ _ _ _⟩, reluOps_sub _ _⟩, catOps_sub _ _ _ _ _ _ _ _ _ _⟩, reluOps_sub _ _⟩,
    takeOps_sub _ _ _⟩, affOps_sub _ _ _ _ _ _ _ _⟩, reluOps_sub _ _⟩, takeOps_sub _ _ _⟩, affOps_sub _ _ _ _ _ _ _ _⟩, reluOps_sub _ _⟩,
    catOps_sub _ _ _ _ _ _ _ _ _ _⟩, reluOps_sub _ _⟩, opsE_sub⟩, reluOps_sub _ _⟩, affOps_sub _ _ _ _ _ _ _ _⟩, reluOps_sub _ _⟩,
    catOps_sub _ _ _ _ _ _ _ _ _ _⟩, reluOps_sub _ _⟩, opsOut_sub⟩

theorem ops_fresh : (ops (F := F)).Forall fun op => op.fresh = ∅ := by
  unfold ops
  simp only [List.forall_append]
  exact ⟨⟨⟨⟨⟨⟨⟨⟨⟨⟨⟨⟨⟨⟨⟨⟨⟨⟨⟨⟨⟨⟨⟨⟨opsA_fresh, remOps_fresh _ _ _⟩, takeOps_fresh _ _ _⟩, affOps_fresh _ _ _ _ _ _ _ _⟩, reluOps_fresh _ _⟩,
    takeOps_fresh _ _ _⟩, affOps_fresh _ _ _ _ _ _ _ _⟩, reluOps_fresh _ _⟩, catOps_fresh _ _ _ _ _ _ _ _ _ _⟩, reluOps_fresh _ _⟩,
    takeOps_fresh _ _ _⟩, affOps_fresh _ _ _ _ _ _ _ _⟩, reluOps_fresh _ _⟩, takeOps_fresh _ _ _⟩, affOps_fresh _ _ _ _ _ _ _ _⟩,
    reluOps_fresh _ _⟩, catOps_fresh _ _ _ _ _ _ _ _ _ _⟩, reluOps_fresh _ _⟩, opsE_fresh⟩, reluOps_fresh _ _⟩,
    affOps_fresh _ _ _ _ _ _ _ _⟩, reluOps_fresh _ _⟩, catOps_fresh _ _ _ _ _ _ _ _ _ _⟩, reluOps_fresh _ _⟩, opsOut_fresh⟩

theorem scopedRefs_eq : (Finset.univ.filter fun b : Ref sig .tc => b.isScoped) = ∅ := by decide
theorem scopedSems_eq : (Finset.univ.filter fun sm : SemLoc sig => sm.isScoped .tc) = ∅ := by decide

-- from here on the line is only named: its run is read through the lemmas above, never by unfolding the list
attribute [local irreducible] ops

/-- On every device, for any float values, from any memory with zero counters: every weakly fair execution of the
    reference's @main terminates with its result buffer at `refOut` of the seven arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ
      (fun _ => List.forall_iff_forall_mem.1 ops_fresh))

end Cert.ReferenceIdeal.Ggcn

end
-- ==== Proof.LibRowGather.lean ====
/-
  A row gather read at an index, and the range mask of a filled row take.

  Rows of a two-axis table `x : [N, C]` are gathered at a column `col : [E, 1]` of signed 32-bit start indices, one row per
  entry: result row `e` is the table's row at `col e`, the start index clamped into `[0, N - 1]`. When the entry already
  lies in `[0, N)` the clamp does nothing and the result at `(e, c)` is `x` at row `col e`, column `c`.
-/
import Idealize.ShloMosaic.Lib.ValueIdx
import Idealize.ShloMosaic.Lib.StableHlo.Predicate

noncomputable section

namespace Cert.LibRowGather

open Idealize.ShloMosaic Idealize.ShloMosaic.ValueIdx

/-- The row an in-range signed index word names. -/
def rowOf (N : Nat) (b : BitVec 32) (h : 0 ≤ b.toInt ∧ b.toInt < N) : Fin N := ⟨b.toInt.toNat, by omega⟩

/-- The dimension numbers of a row gather: one start index per result row, naming operand axis 0, which is collapsed;
    the result's axis 1 runs over the operand's whole axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- THE ROW GATHER READ AT `(e, c)`: with the start index of row `e` in `[0, N)`, the table at that row, column `c`. -/
theorem gather_rows_apply {α : Type} {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (col : IVec ⟨2, ![E, 1]⟩ 32) (e : Fin E) (c : Fin C)
    (h : 0 ≤ (col (ix2 e (0 : Fin 1))).toInt ∧ (col (ix2 e (0 : Fin 1))).toInt < N) :
    Host.gather (rowGatherDims N E C wf) x col (ix2 e c) = x (ix2 (rowOf N _ h) c) := by
  -- the operand index is, on each axis, the clamped start plus the batching coordinate plus the offset coordinate;
  -- there is no batching axis
  unfold Host.gather
  congr 1
  funext a
  refine Fin.ext ?_
  show (rowGatherDims N E C wf).start (ix2 e c) col a + (rowGatherDims N E C wf).batchCoord (ix2 e c) a
    + (rowGatherDims N E C wf).offCoord (ix2 e c) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · -- axis 0 (collapsed and start-indexed): no offset; the start is row `e`'s index word read signed and clamped into
    -- `[0, N - 1]`, which is the word's value since it already lies in `[0, N)`
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    show min (col (ix2 e (0 : Fin 1))).toInt.toNat (N - 1) = (col (ix2 e (0 : Fin 1))).toInt.toNat
    omega
  · -- axis 1 (kept, not start-indexed): the start is zero and the offset coordinate is the result's column `c`
    have h10 : (1 : Fin 2) ∉ ([0] : List (Fin 2)) := fun h => absurd (List.mem_singleton.mp h) (by decide)
    unfold GatherDims.start
    rw [dif_neg (show (1 : Fin 2) ∉ (rowGatherDims N E C wf).startIndexMap from h10)]
    unfold GatherDims.offCoord
    rw [dif_pos (show (1 : Fin 2) ∈ (rowGatherDims N E C wf).sKept from
      (GatherDims.mem_sKept _ _).mpr ⟨h10, List.not_mem_nil⟩)]
    simp only [Nat.add_zero, Nat.zero_add]
    rfl

/-- A vector laid out as an `[E, 1]` column reads, at row `e`, the vector at `e`. -/
theorem col_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A vector laid out along the rows of an `[E, C]` rectangle (first as a column, then across) reads, at `(e, c)`, the
    vector at `e`. -/
theorem rows_apply {α : Type} {E C : Nat} (h₁ : (⟨1, ![E]⟩ : Shape).BroadcastsInDim ⟨2, ![E, 1]⟩ ![0])
    (h₂ : (⟨2, ![E, 1]⟩ : Shape).BroadcastsInDim ⟨2, ![E, C]⟩ ![0, 1]) (v : (⟨1, ![E]⟩ : Shape).Idx → α) (e : Fin E) (c : Fin C) :
    broadcastInDim ⟨2, ![E, C]⟩ ![0, 1] h₂ (broadcastInDim ⟨2, ![E, 1]⟩ ![0] h₁ v) (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · split
    · next h2 => change E = 1 at h2; show (0 : Nat) = e.val; omega
    · rfl

/-- A one-bit vector laid out along the rows of an `[E, C]` rectangle reads, at `(e, c)`, the vector at `e`. -/
theorem rowbit_apply {α : Type} {E C : Nat} (h : (⟨1, ![E]⟩ : Shape).BroadcastsInDim ⟨2, ![E, C]⟩ ![0])
    (v : (⟨1, ![E]⟩ : Shape).Idx → α) (e : Fin E) (c : Fin C) :
    broadcastInDim ⟨2, ![E, C]⟩ ![0] h v (ix2 e c) = v (ix1 e) := by
  simp only [broadcastInDim]
  congr 1
  funext a
  obtain rfl : a = 0 := Subsingleton.elim _ _
  apply Fin.ext
  have hp := e.isLt
  split
  · next h1 => change E = 1 at h1; show (0 : Nat) = e.val; omega
  · rfl

/-- A signed-non-negative 32-bit word lies below 2³¹ and reads the same signed and unsigned. -/
private theorem toNat_of_toInt_nonneg (x : BitVec 32) (h : 0 ≤ x.toInt) : x.toNat < 2 ^ 31 ∧ x.toInt = x.toNat := by
  have hc := BitVec.toInt_eq_toNat_cond x
  have hx := x.isLt
  split at hc <;> omega

/-- A left fold by `and` from the bit one over bits that are all one is one. -/
private theorem foldl_andi_one {ι : Type} (f : ι → BitVec 1) :
    ∀ l : List ι, (∀ n ∈ l, f n = 1#1) → l.foldl (fun r n => IntOp.andi r (f n)) 1#1 = 1#1
  | [], _ => rfl
  | b :: l, h => by
    have h11 : IntOp.andi 1#1 1#1 = 1#1 := by decide
    rw [List.foldl_cons, h b List.mem_cons_self, h11]
    exact foldl_andi_one f l (fun n hn => h n (List.mem_cons_of_mem _ hn))

/-- An `and`-reduction from the bit one of an array whose every bit is one is one at every result index. -/
private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) :
    Host.reduce IntOp.andi x init h hu j = 1#1 := by
  rw [Host.reduce_eq_foldl, hinit]
  exact foldl_andi_one x _ (fun i _ => hx i)

section Mask
variable {N E : Nat}
  (hbE : (⟨0, ![]⟩ : Shape).BroadcastsInDim ⟨1, ![E]⟩ ![])
  (hcol : (⟨1, ![E]⟩ : Shape).BroadcastsInDim ⟨2, ![E, 1]⟩ ![0])
  (hbE1 : (⟨0, ![]⟩ : Shape).BroadcastsInDim ⟨2, ![E, 1]⟩ ![])
  (hb11 : (⟨1, ![1]⟩ : Shape).BroadcastsInDim ⟨2, ![1, 1]⟩ ![1])
  (hb11E1 : (⟨2, ![1, 1]⟩ : Shape).BroadcastsInDim ⟨2, ![E, 1]⟩ ![0, 1])
  (hred : (⟨2, ![E, 1]⟩ : Shape).ReducesTo [1] ⟨1, ![E]⟩)
  (h0 : 0 < (⟨0, ![]⟩ : Shape).numel)
  (wN wM : BitVec 32) (a : IVec ⟨1, ![E]⟩ 32)

/-- The index column as printed: a negative entry of `a` wrapped by adding the word `wN`, then laid out as `[E, 1]`. -/
abbrev idxCol : IVec ⟨2, ![E, 1]⟩ 32 :=
  broadcastInDim ⟨2, ![E, 1]⟩ ![0] hcol
    (select (cmpi .slt a (broadcastInDim ⟨1, ![E]⟩ ![] hbE (constantI ⟨0, ![]⟩ 32 0#32)))
      (addi a (broadcastInDim ⟨1, ![E]⟩ ![] hbE (constantI ⟨0, ![]⟩ 32 wN))) a)

/-- The range mask as printed: per row, the column's entry is at least zero and at most the word `wM` (both signed),
    the two tests joined and reduced by `and` along the column's unit axis. -/
abbrev okVec : IVec ⟨1, ![E]⟩ 1 :=
  Host.reduce IntOp.andi
    (andi (cmpi .sge (idxCol hbE hcol wN a) (broadcastInDim ⟨2, ![E, 1]⟩ ![] hbE1 (constantI ⟨0, ![]⟩ 32 0#32)))
      (cmpi .sle (idxCol hbE hcol wN a)
        (broadcastInDim ⟨2, ![E, 1]⟩ ![0, 1] hb11E1 (broadcastInDim ⟨2, ![1, 1]⟩ ![1] hb11 (constantI ⟨1, ![1]⟩ 32 wM)))))
    (constantI ⟨0, ![]⟩ 1 1#1) hred h0

variable (ha : ∀ e : Fin E, 0 ≤ (a (ix1 e)).toInt ∧ (a (ix1 e)).toInt < N)

include ha in
/-- With every index non-negative the wrap does nothing: the column at row `e` is `a e`. -/
theorem idxCol_apply (e : Fin E) : idxCol hbE hcol wN a (ix2 e (0 : Fin 1)) = a (ix1 e) := by
  -- the signed test "entry < 0" is the bit zero, since the entry is non-negative
  have hslt : IntOp.cmpi .slt (a (ix1 e)) 0#32 = 0#1 := by
    have h := (ha e).1
    have h0 : (0#32 : BitVec 32).toInt = 0 := by decide
    have hf : (a (ix1 e)).slt 0#32 = false := by
      simp only [BitVec.slt, h0, decide_eq_false_iff_not, not_lt]; exact h
    show BitVec.ofBool ((a (ix1 e)).slt 0#32) = 0#1
    rw [hf]; rfl
  refine (col_apply hcol _ e).trans ?_
  show Scalar.select (IntOp.cmpi .slt (a (ix1 e)) 0#32) (IntOp.addi (a (ix1 e)) wN) (a (ix1 e)) = a (ix1 e)
  rw [hslt, select_zero]

include ha in
/-- With every index in `[0, N)`, `N` below 2³¹ and `wM` the word of `N - 1`, the mask is one at every row. -/
theorem okVec_apply (hN : N < 2 ^ 31) (hM : wM.toNat = N - 1) (e : Fin E) :
    okVec hbE hcol hbE1 hb11 hb11E1 hred h0 wN wM a (ix1 e) = 1#1 := by
  -- the reduction starts from the bit one, so it is enough that the joined test is one at every entry `(e', 0)`
  refine reduce_andi_of_all _ _ hred h0 _ rfl ?_
  intro i
  obtain ⟨e', z, rfl⟩ : ∃ (e' : Fin E) (z : Fin 1), i = ix2 e' z := ⟨i 0, i 1, eq_ix2 i⟩
  obtain rfl : z = 0 := Subsingleton.elim _ _
  have hcolv := idxCol_apply hbE hcol wN a ha e'
  obtain ⟨hlt, hint⟩ := toNat_of_toInt_nonneg (a (ix1 e')) (ha e').1
  have hup := (ha e').2
  -- both signed tests hold of the entry: it is at least zero and at most N - 1
  have hge : IntOp.cmpi .sge (a (ix1 e')) 0#32 = 1#1 :=
    (StableHlo.Predicate.sge_iff_toNat hlt (by decide)).2 (Nat.zero_le _)
  have hle : IntOp.cmpi .sle (a (ix1 e')) wM = 1#1 :=
    (StableHlo.Predicate.sle_iff_toNat hlt (by omega)).2 (by omega)
  show IntOp.andi (IntOp.cmpi .sge (idxCol hbE hcol wN a (ix2 e' (0 : Fin 1))) 0#32)
    (IntOp.cmpi .sle (idxCol hbE hcol wN a (ix2 e' (0 : Fin 1))) wM) = 1#1
  rw [hcolv, hge, hle]
  decide

end Mask

end Cert.LibRowGather

end
-- ==== Proof.RefValue.lean ====
/-
  The reference's result term read at an index, at the ideal instance (floats are extended reals).

  The two index vectors are words of row numbers: position r holds r, and its ring neighbour holds (r + 1) mod 1000
  (the truncated remainder of a non-negative word by 1000 is the remainder of its value, and the sign fix-up does not
  fire). A row take at such a vector wraps nothing, masks nothing and reads the named row. Each product contracts one
  axis, so at an index it is a sum over that axis of the entries' products; a transpose swaps the coordinates; a bias
  row reads its column; two blocks side by side read the left block below column 128 and the right block from there
  on. Layer by layer the term is then the layered form of the ring network's forward pass.
-/
import proofs.«176965_g80925773791738_cont_9to1c4b_127_19_alg».proof.Proof.RefTerm
import proofs.«176965_g80925773791738_cont_9to1c4b_127_19_alg».proof.Proof.Spec
import proofs.«176965_g80925773791738_cont_9to1c4b_127_19_alg».proof.Proof.LibRowGather
import Idealize.ShloMosaic.Lib.ValueIdx
import Idealize.ShloMosaic.Lib.IdealHost
import Idealize.ShloMosaic.Lib.Pipeline.Value
import Idealize.ShloMosaic.Lib.StackMember
import Idealize.ShloMosaic.Lib.StableHlo.Predicate
import Idealize.ShloMosaic.PureOps.Ideal.Laws

noncomputable section

open scoped BigOperators

namespace Cert.ReferenceIdeal.Ggcn

open Idealize.ShloMosaic Idealize.ShloMosaic.ValueIdx Cert.ReferenceIdeal
open Cert.ReferenceIdeal.Facts₀

variable [Facts]

/-! ### The index vectors -/

/-- The node indices read at r: the word of r. -/
theorem nodeIdx_apply (r : Fin 1000) : nodeIdx (ix1 r) = BitVec.ofNat 32 r.val := rfl

/-- The truncated remainder of a small non-negative word by 1000 is the word of the remainder of its value: the
    divisor is neither zero nor minus one, and both words have a clear sign bit. -/
theorem remsi_host_1000 (a : Nat) (ha : a < 2 ^ 31) :
    IntOp.remsi .host (BitVec.ofNat 32 a) 1000#32 = BitVec.ofNat 32 (a % 1000) := by
  have hc : ¬ IntOp.SDivCorner (BitVec.ofNat 32 a) 1000#32 := by
    rintro (h | ⟨_, h⟩)
    · exact absurd h (by decide)
    · exact absurd h (by decide)
  have hx : (BitVec.ofNat 32 a).msb = false := by
    rw [BitVec.msb_eq_false_iff_two_mul_lt, BitVec.toNat_ofNat]; omega
  have hy : (1000#32 : BitVec 32).msb = false := by decide
  unfold IntOp.remsi
  rw [if_neg hc]
  simp only [BitVec.srem, hx, hy]
  apply BitVec.eq_of_toNat_eq
  simp only [BitVec.umod_eq, BitVec.toNat_umod, BitVec.toNat_ofNat]
  have hm : a % 1000 < 1000 := Nat.mod_lt _ (by norm_num)
  rw [Nat.mod_eq_of_lt (show a < 2 ^ 32 by omega), Nat.mod_eq_of_lt (show a % 1000 < 2 ^ 32 by omega)]

/-- The floored remainder by 1000 on one small non-negative word: the divisor is not replaced, the truncated
    remainder is not negative, so the sign fix-up does not fire. -/
theorem remWord_1000 (x : BitVec 32) (a : Nat) (hx : x = BitVec.ofNat 32 a) (ha : a < 2 ^ 31) :
    Scalar.select
      (IntOp.andi
        (IntOp.cmpi .ne
          (IntOp.cmpi .slt (IntOp.remsi .host x (Scalar.select (IntOp.cmpi .eq 1000#32 0#32) 1#32 1000#32)) 0#32)
          (IntOp.cmpi .slt (Scalar.select (IntOp.cmpi .eq 1000#32 0#32) 1#32 1000#32) 0#32))
        (IntOp.cmpi .ne (IntOp.remsi .host x (Scalar.select (IntOp.cmpi .eq 1000#32 0#32) 1#32 1000#32)) 0#32))
      (IntOp.addi (IntOp.remsi .host x (Scalar.select (IntOp.cmpi .eq 1000#32 0#32) 1#32 1000#32))
        (Scalar.select (IntOp.cmpi .eq 1000#32 0#32) 1#32 1000#32))
      (IntOp.remsi .host x (Scalar.select (IntOp.cmpi .eq 1000#32 0#32) 1#32 1000#32))
      = BitVec.ofNat 32 (a % 1000) := by
  have hd : Scalar.select (IntOp.cmpi .eq (1000#32 : BitVec 32) 0#32) (1#32 : BitVec 32) 1000#32 = 1000#32 := by decide
  have hm : a % 1000 < 1000 := Nat.mod_lt _ (by norm_num)
  rw [hd, hx, remsi_host_1000 a ha]
  -- the remainder is below 1000, so its signed test against zero is the bit zero; so is the divisor's
  have h1 : IntOp.cmpi .slt (BitVec.ofNat 32 (a % 1000)) 0#32 = 0#1 := by
    refine eq_zero_of_ne_one fun h => ?_
    have := (StableHlo.Predicate.slt_iff_toNat (a := BitVec.ofNat 32 (a % 1000)) (b := 0#32)
      (by rw [BitVec.toNat_ofNat]; omega) (by decide)).1 h
    simp at this
  have h2 : IntOp.cmpi .slt (1000#32 : BitVec 32) 0#32 = 0#1 := by decide
  have h3 : IntOp.cmpi .ne (0#1 : BitVec 1) 0#1 = 0#1 := by decide
  have h4 : ∀ b : BitVec 1, IntOp.andi 0#1 b = 0#1 := by decide
  rw [h1, h2, h3, h4, select_zero]

/-- Each node's ring neighbour read at r: the word of (r + 1) mod 1000. -/
theorem ringNext_apply (r : Fin 1000) : ringNext (ix1 r) = BitVec.ofNat 32 ((r.val + 1) % 1000) := by
  have hr := r.isLt
  have hx : IntOp.addi (BitVec.ofNat 32 r.val) 1#32 = BitVec.ofNat 32 (r.val + 1) := by
    show BitVec.ofNat 32 r.val + BitVec.ofNat 32 1 = _
    rw [← BitVec.ofNat_add]
  exact remWord_1000 _ (r.val + 1) hx (by omega)

/-! ### The row take -/

/-- An index vector whose entries are the words of row numbers lies in [0, 1000) read signed. -/
theorem inRange_of_word (idx : IVec S1000 32) (f : Fin 1000 → Fin 1000)
    (h : ∀ e, idx (ix1 e) = BitVec.ofNat 32 (f e).val) (e : Fin 1000) :
    0 ≤ (idx (ix1 e)).toInt ∧ (idx (ix1 e)).toInt < ((1000 : ℕ) : ℤ) := by
  have hf := (f e).isLt
  rw [h e, StableHlo.Predicate.toInt_ofNat_small _ (by omega)]
  constructor
  · exact Int.natCast_nonneg _
  · exact_mod_cast hf

/-- The row take at an index vector of row-number words: entry (r, k) is the table's entry (f r, k). No index is
    negative, so none is wrapped; all lie in range, so the mask keeps every row; the gather reads row f r. -/
theorem takeRows_apply {F : FTy → Type} [FloatOps F] (x : FVec F S1000x128 .f32) (idx : IVec S1000 32)
    (f : Fin 1000 → Fin 1000) (h : ∀ e, idx (ix1 e) = BitVec.ofNat 32 (f e).val) (r : Fin 1000) (k : Fin 128) :
    takeRows x idx (ix2 r k) = x (ix2 (f r) k) := by
  have hidx := inRange_of_word idx f h
  have hcol := LibRowGather.idxCol_apply (N := 1000) bcast_S_S1000 bcast_S1000_S1000x1_0 1000#32 idx hidx r
  have hok := LibRowGather.okVec_apply (N := 1000) bcast_S_S1000 bcast_S1000_S1000x1_0 bcast_S_S1000x1 bcast_S1_S1x1_1
    bcast_S1x1_S1000x1_0_1 reducesTo_S1000x1_S1000_d1 h_S_ 1000#32 999#32 idx hidx (by norm_num) (by decide) r
  have hg : 0 ≤ (LibRowGather.idxCol bcast_S_S1000 bcast_S1000_S1000x1_0 1000#32 idx (ix2 r (0 : Fin 1))).toInt ∧
      (LibRowGather.idxCol bcast_S_S1000 bcast_S1000_S1000x1_0 1000#32 idx (ix2 r (0 : Fin 1))).toInt < ((1000 : ℕ) : ℤ) := by
    rw [hcol]; exact hidx r
  show Scalar.select
      (broadcastInDim S1000x128 ![0] bcast_S1000_S1000x128_0
        (LibRowGather.okVec bcast_S_S1000 bcast_S1000_S1000x1_0 bcast_S_S1000x1 bcast_S1_S1x1_1 bcast_S1x1_S1000x1_0_1
          reducesTo_S1000x1_S1000_d1 h_S_ 1000#32 999#32 idx) (ix2 r k))
      (Host.gather (LibRowGather.rowGatherDims 1000 1000 128 gather_S1000x128_S1000x1_S1000x128_1_0_n_n_0_1_1128_wf) x
        (LibRowGather.idxCol bcast_S_S1000 bcast_S1000_S1000x1_0 1000#32 idx) (ix2 r k))
      _ = _
  rw [LibRowGather.rowbit_apply, hok, select_one, LibRowGather.gather_rows_apply _ x _ r k hg]
  congr 2
  apply Fin.ext
  show (LibRowGather.idxCol bcast_S_S1000 bcast_S1000_S1000x1_0 1000#32 idx (ix2 r (0 : Fin 1))).toInt.toNat = (f r).val
  have hf := (f r).isLt
  rw [hcol, h r, StableHlo.Predicate.toInt_ofNat_small _ (by omega)]
  rfl

/-! ### Layout operations at an index -/

/-- The transpose of a matrix read at (a, b) is the matrix at (b, a). -/
theorem transpose2_apply {α : Type} {m n : Nat} (h : (⟨2, ![m, n]⟩ : Shape).Transposes [1, 0] ⟨2, ![n, m]⟩)
    (x : (⟨2, ![m, n]⟩ : Shape).Idx → α) (a : Fin n) (b : Fin m) :
    transpose ⟨2, ![n, m]⟩ [1, 0] x h (ix2 a b) = x (ix2 b a) := by
  refine transpose_apply [1, 0] x h (ix2 a b) (ix2 b a) ?_
  intro c
  match c with
  | ⟨0, _⟩ => rfl
  | ⟨1, _⟩ => rfl

/-- A vector laid out along the columns of an [E, C] rectangle (first as a row, then down) reads, at (e, c), the
    vector at c. -/
theorem cols_apply {α : Type} {E C : Nat} (h₁ : (⟨1, ![C]⟩ : Shape).BroadcastsInDim ⟨2, ![1, C]⟩ ![1])
    (h₂ : (⟨2, ![1, C]⟩ : Shape).BroadcastsInDim ⟨2, ![E, C]⟩ ![0, 1]) (v : (⟨1, ![C]⟩ : Shape).Idx → α)
    (e : Fin E) (c : Fin C) :
    broadcastInDim ⟨2, ![E, C]⟩ ![0, 1] h₂ (broadcastInDim ⟨2, ![1, C]⟩ ![1] h₁ v) (ix2 e c) = v (ix1 c) := by
  refine (broadcastInDim_apply ![0, 1] h₂ _ (ix2 e c) (ix2 (0 : Fin 1) c) ?_).trans
    (broadcastInDim_apply ![1] h₁ v (ix2 (0 : Fin 1) c) (ix1 c) ?_)
  · intro a
    match a with
    | ⟨0, _⟩ => show (0 : ℕ) = if (1 : ℕ) = 1 then 0 else _; rw [if_pos rfl]
    | ⟨1, _⟩ =>
      show c.val = if C = 1 then 0 else c.val
      split
      · have := c.isLt; omega
      · rfl
  · intro a
    match a with
    | ⟨0, _⟩ =>
      show c.val = if C = 1 then 0 else c.val
      split
      · have := c.isLt; omega
      · rfl

/-- Two 128-column blocks side by side, read at (r, k): the left block's row r below column 128, the right block's
    row r from there on. -/
theorem concat_apply (a c : FVec Ideal S1000x128 .f32) (r : Fin 1000) (k : Fin 256) :
    concatenate S1000x256 1 [⟨S1000x128, a⟩, ⟨S1000x128, c⟩] concatenates_S1000x128_S1000x128_S1000x256_d1 (ix2 r k)
      = Cert.Ggcn.Spec.cat (fun k => a (ix2 r k)) (fun k => c (ix2 r k)) k := by
  unfold Cert.Ggcn.Spec.cat
  by_cases hk : k.val < 128
  · rw [dif_pos hk]
    exact concatenate_pair_apply_left (1 : Fin 2) a c _ (ix2 r k) rfl (ix2 r ⟨k.val, hk⟩)
      (fun b => by match b with | ⟨0, _⟩ => rfl | ⟨1, _⟩ => rfl)
  · rw [dif_neg hk]
    exact concatenate_pair_apply_right (1 : Fin 2) a c _ (ix2 r k) rfl rfl (ix2 r ⟨k.val - 128, by omega⟩)
      (fun b hb => by
        match b, hb with
        | ⟨0, _⟩, _ => rfl
        | ⟨1, _⟩, hb => exact absurd rfl hb)
      (by show (k.val - 128) + 128 = k.val; omega)

/-! ### The pointwise pieces -/

/-- max (·, 0) at an index. -/
theorem relu_apply (x : FVec Ideal S1000x128 .f32) (r : Fin 1000) (j : Fin 128) :
    relu (F := Ideal) x (ix2 r j) = max (x (ix2 r j)) 0 := by
  show max (x (ix2 r j)) (Ideal.ofBits .f32 0x00000000#32) = _
  rw [Ideal.ofBits_zero_f32]

/-- The bias row at an index. -/
theorem rowBias_apply (v : FVec Ideal S128 .f32) (r : Fin 1000) (j : Fin 128) :
    rowBias (F := Ideal) v (ix2 r j) = v (ix1 j) :=
  cols_apply bcast_S128_S1x128_1 bcast_S1x128_S1000x128_0_1 v r j

/-- The pattern 0x40000000 is the real two. -/
theorem ofBits_two_f32 : Ideal.ofBits .f32 0x40000000#32 = ((2 : ℝ) : EReal) := by
  simp [Ideal.ofBits, Ideal.ieee, -EReal.coe_mul]; norm_num

/-! ### The three products: each record is the plain rows-by-columns product -/

theorem dotH_eq : dot_S1000x128_S128x128_S1000x128_1_0_0_1_n_n = DotDims.plain 1000 128 128 := rfl
theorem dotG_eq : dot_S1000x256_S256x128_S1000x128_1_0_0_1_n_n = DotDims.plain 1000 256 128 := rfl
theorem dotF_eq : dot_S1000x128_S128x2_S1000x2_1_0_0_1_n_n = DotDims.plain 1000 128 2 := rfl

/-! ### The layers -/

/-- The hidden layer at (r, j). -/
theorem hLayer_apply (x : FVec Ideal S1000x128 .f32) (w : FVec Ideal S128x128 .f32) (b : FVec Ideal S128 .f32)
    (r : Fin 1000) (j : Fin 128) :
    hLayer (F := Ideal) x w b (ix2 r j)
      = Cert.Ggcn.Spec.hid (fun r k => x (ix2 r k)) (fun j k => w (ix2 j k)) (fun j => b (ix1 j)) r j := by
  unfold hLayer Cert.Ggcn.Spec.hid
  rw [relu_apply, addf_apply, rowBias_apply, dotH_eq, StackMember.dotGeneral_plain_apply]
  have ht : ∀ k : Fin 128, transpose S128x128 [1, 0] w transposes_S128x128_S128x128_1_0 (ix2 k j) = w (ix2 j k) :=
    fun k => transpose2_apply _ w k j
  simp only [ht]

/-- The second layer at (r, j), on two blocks known entry by entry. -/
theorem gLayer_apply (a c : FVec Ideal S1000x128 .f32) (gw : FVec Ideal S128x256 .f32) (gb : FVec Ideal S128 .f32)
    (A C : Fin 1000 → Fin 128 → EReal) (ha : ∀ r k, a (ix2 r k) = A r k) (hc : ∀ r k, c (ix2 r k) = C r k)
    (r : Fin 1000) (j : Fin 128) :
    gLayer (F := Ideal) a c gw gb (ix2 r j)
      = Cert.Ggcn.Spec.g (fun j k => gw (ix2 j k)) (fun j => gb (ix1 j)) A C r j := by
  unfold gLayer Cert.Ggcn.Spec.g
  rw [relu_apply, addf_apply, rowBias_apply, dotG_eq, StackMember.dotGeneral_plain_apply]
  have ht : ∀ k : Fin 256, transpose S256x128 [1, 0] gw transposes_S128x256_S256x128_1_0 (ix2 k j) = gw (ix2 j k) :=
    fun k => transpose2_apply _ gw k j
  simp only [ht, concat_apply, ha, hc] <;> rfl

/-! ### The result, assembled -/

/-- A matrix array read as a function of its two coordinates. -/
abbrev mat {m n : Nat} (x : FVec Ideal ⟨2, ![m, n]⟩ .f32) : Fin m → Fin n → EReal := fun a c => x (ix2 a c)
/-- A vector array read as a function of its coordinate. -/
abbrev vec {n : Nat} (v : FVec Ideal ⟨1, ![n]⟩ .f32) : Fin n → EReal := fun a => v (ix1 a)

section Assembly
variable (x : FVec Ideal S1000x128 .f32) (w : FVec Ideal S128x128 .f32) (b : FVec Ideal S128 .f32)
  (gw : FVec Ideal S128x256 .f32) (gb : FVec Ideal S128 .f32) (fw : FVec Ideal S2x128 .f32) (fb : FVec Ideal S2 .f32)

/-- The hidden layer on the rows taken at the ring neighbours: the hidden row of the neighbour. -/
theorem hNext_apply (r : Fin 1000) (j : Fin 128) :
    hLayer (F := Ideal) (takeRows x ringNext) w b (ix2 r j)
      = Cert.Ggcn.Spec.hid (mat x) (mat w) (vec b) (Cert.Ggcn.Spec.next r) j := by
  rw [hLayer_apply]
  unfold Cert.Ggcn.Spec.hid
  simp only [takeRows_apply x ringNext Cert.Ggcn.Spec.next ringNext_apply] <;> rfl

/-- The hidden layer on the rows taken at the nodes' own indices: the node's hidden row. -/
theorem hSelf_apply (r : Fin 1000) (j : Fin 128) :
    hLayer (F := Ideal) (takeRows x nodeIdx) w b (ix2 r j) = Cert.Ggcn.Spec.hid (mat x) (mat w) (vec b) r j := by
  rw [hLayer_apply]
  unfold Cert.Ggcn.Spec.hid
  simp only [takeRows_apply x nodeIdx id nodeIdx_apply] <;> rfl

/-- The second layer on (neighbour ‖ node). -/
theorem gA_apply (r : Fin 1000) (j : Fin 128) :
    gLayer (F := Ideal) (hLayer (takeRows x ringNext) w b) (hLayer (takeRows x nodeIdx) w b) gw gb (ix2 r j)
      = Cert.Ggcn.Spec.rA (mat x) (mat w) (vec b) (mat gw) (vec gb) r j :=
  gLayer_apply _ _ gw gb (fun r => Cert.Ggcn.Spec.hid (mat x) (mat w) (vec b) (Cert.Ggcn.Spec.next r))
    (Cert.Ggcn.Spec.hid (mat x) (mat w) (vec b)) (hNext_apply x w b) (hSelf_apply x w b) r j

/-- The second layer on (node ‖ neighbour). -/
theorem gB_apply (r : Fin 1000) (j : Fin 128) :
    gLayer (F := Ideal) (hLayer (takeRows x nodeIdx) w b) (hLayer (takeRows x ringNext) w b) gw gb (ix2 r j)
      = Cert.Ggcn.Spec.rB (mat x) (mat w) (vec b) (mat gw) (vec gb) r j :=
  gLayer_apply _ _ gw gb (Cert.Ggcn.Spec.hid (mat x) (mat w) (vec b))
    (fun r => Cert.Ggcn.Spec.hid (mat x) (mat w) (vec b) (Cert.Ggcn.Spec.next r)) (hSelf_apply x w b) (hNext_apply x w b) r j

/-- The average of the two neighbour orders, clipped below at zero. -/
theorem avg_apply (r : Fin 1000) (j : Fin 128) :
    relu (F := Ideal) (Host.divf
        (addf (gLayer (hLayer (takeRows x ringNext) w b) (hLayer (takeRows x nodeIdx) w b) gw gb)
          (gLayer (hLayer (takeRows x nodeIdx) w b) (hLayer (takeRows x ringNext) w b) gw gb))
        (broadcastInDim S1000x128 ![] bcast_S_S1000x128 (constant (F := Ideal) S_ .f32 0x40000000#32))) (ix2 r j)
      = Cert.Ggcn.Spec.rE (mat x) (mat w) (vec b) (mat gw) (vec gb) r j := by
  unfold Cert.Ggcn.Spec.rE
  rw [relu_apply, hostDivf_apply, addf_apply, gA_apply, gB_apply]
  show max (Ideal.div _ (Ideal.ofBits .f32 0x40000000#32)) 0 = _
  rw [ofBits_two_f32]

/-- The second layer on (node's hidden row ‖ the average). -/
theorem e2_apply (r : Fin 1000) (j : Fin 128) :
    gLayer (F := Ideal) (hLayer x w b)
        (relu (Host.divf
          (addf (gLayer (hLayer (takeRows x ringNext) w b) (hLayer (takeRows x nodeIdx) w b) gw gb)
            (gLayer (hLayer (takeRows x nodeIdx) w b) (hLayer (takeRows x ringNext) w b) gw gb))
          (broadcastInDim S1000x128 ![] bcast_S_S1000x128 (constant (F := Ideal) S_ .f32 0x40000000#32))))
        gw gb (ix2 r j)
      = Cert.Ggcn.Spec.rE2 (mat x) (mat w) (vec b) (mat gw) (vec gb) r j :=
  gLayer_apply _ _ gw gb (Cert.Ggcn.Spec.hid (mat x) (mat w) (vec b))
    (Cert.Ggcn.Spec.rE (mat x) (mat w) (vec b) (mat gw) (vec gb)) (hLayer_apply x w b) (avg_apply x w b gw gb) r j

end Assembly

/-- THE REFERENCE'S RESULT AT (r, q): the layered form of the ring network's forward pass. -/
theorem refOut_apply (x : FVec Ideal S1000x128 .f32) (w : FVec Ideal S128x128 .f32) (b : FVec Ideal S128 .f32)
    (gw : FVec Ideal S128x256 .f32) (gb : FVec Ideal S128 .f32) (fw : FVec Ideal S2x128 .f32) (fb : FVec Ideal S2 .f32)
    (r : Fin 1000) (q : Fin 2) :
    refOut (F := Ideal) x w b gw gb fw fb (ix2 r q)
      = Cert.Ggcn.Spec.rY (fun r k => x (ix2 r k)) (fun j k => w (ix2 j k)) (fun j => b (ix1 j))
          (fun j k => gw (ix2 j k)) (fun j => gb (ix1 j)) (fun q j => fw (ix2 q j)) (fun q => fb (ix1 q)) r q := by
  have hb : broadcastInDim S1000x2 ![0, 1] bcast_S1x2_S1000x2_0_1 (broadcastInDim S1x2 ![1] bcast_S2_S1x2_1 fb) (ix2 r q)
      = fb (ix1 q) := cols_apply bcast_S2_S1x2_1 bcast_S1x2_S1000x2_0_1 fb r q
  have ht : ∀ j : Fin 128, transpose S128x2 [1, 0] fw transposes_S2x128_S128x2_1_0 (ix2 j q) = fw (ix2 q j) :=
    fun j => transpose2_apply _ fw j q
  unfold refOut Cert.Ggcn.Spec.rY
  dsimp only
  rw [addf_apply, hb, dotF_eq, StackMember.dotGeneral_plain_apply]
  simp only [ht]
  refine congrArg (· + fb (ix1 q)) (Finset.sum_congr rfl fun j _ => ?_)
  exact congrArg (· * fw (ix2 q j)) (e2_apply x w b gw gb r j)

end Cert.ReferenceIdeal.Ggcn

end
-- ==== Proof.Bridge.lean ====
/-
  The fused form and the layered form of the ring graph network agree on the extended reals.

  Only the commutative-monoid laws of + and · on the extended reals are used (no distributivity, no
  cancellation), so no finiteness of the inputs is needed:

  * a sum over the 256 concatenated columns is the sum over the left half plus the sum over the right half;
  * the two first-layer outputs differ from the fused ones only in where gb is added (+ is commutative and
    associative);
  * their sum Fs is non-negative, and so is Fs · ½, hence relu (Fs / 2) = Fs · ½;
  * (Fs · ½) · W = Fs · (W · ½) by commutativity and associativity of the product.
-/
import Idealize.ShloMosaic.PureOps.Ideal
import Mathlib.Algebra.BigOperators.Fin
import Mathlib.Data.EReal.Operations
import proofs.«176965_g80925773791738_cont_9to1c4b_127_19_alg».proof.Proof.Spec

noncomputable section

open scoped BigOperators

namespace Cert.Ggcn.Spec

open Idealize.ShloMosaic

/-! ### Splitting a row of 256 columns into its two halves -/

/-- The left half of two rows side by side is the first row. -/
theorem cat_lo (a c : Fin 128 → EReal) (k : Fin 128) : cat a c (lo k) = a k := by
  unfold cat lo
  rw [dif_pos k.isLt]

/-- The right half of two rows side by side is the second row. -/
theorem cat_hi (a c : Fin 128 → EReal) (k : Fin 128) : cat a c (hi k) = c k := by
  have h : ¬ (128 + k.val < 128) := by omega
  unfold cat hi
  rw [dif_neg h]
  congr 1
  apply Fin.ext
  show 128 + k.val - 128 = k.val
  omega

/-- A weighted sum over the 256 concatenated columns is the sum over the left half plus the sum over the
right half. -/
theorem sum_cat (a c : Fin 128 → EReal) (v : Fin 256 → EReal) :
    ∑ k : Fin 256, cat a c k * v k
      = ∑ k : Fin 128, a k * v (lo k) + ∑ k : Fin 128, c k * v (hi k) := by
  calc ∑ k : Fin 256, cat a c k * v k
      = ∑ k : Fin 128, cat a c (lo k) * v (lo k) + ∑ k : Fin 128, cat a c (hi k) * v (hi k) :=
        Fin.sum_univ_add (a := 128) (b := 128) (fun k : Fin (128 + 128) => cat a c k * v k)
    _ = ∑ k : Fin 128, a k * v (lo k) + ∑ k : Fin 128, c k * v (hi k) := by
        simp only [cat_lo, cat_hi]

variable (X : Fin 1000 → Fin 128 → EReal) (w : Fin 128 → Fin 128 → EReal) (b : Fin 128 → EReal)
  (gw : Fin 128 → Fin 256 → EReal) (gb : Fin 128 → EReal) (fw : Fin 2 → Fin 128 → EReal) (fb : Fin 2 → EReal)

/-- The second layer on two row families side by side, with the 256-column sum split into its halves. -/
theorem g_eq (a c : Fin 1000 → Fin 128 → EReal) (r : Fin 1000) (j : Fin 128) :
    g gw gb a c r j
      = max ((∑ k : Fin 128, a r k * gw j (lo k) + ∑ k : Fin 128, c r k * gw j (hi k)) + gb j) 0 := by
  unfold g
  rw [sum_cat]

/-! ### The first layer -/

theorem rA_eq_kA (r : Fin 1000) (j : Fin 128) : rA X w b gw gb r j = kA X w b gw gb r j := by
  unfold rA kA P Q
  rw [g_eq, add_right_comm]

theorem rB_eq_kB (r : Fin 1000) (j : Fin 128) : rB X w b gw gb r j = kB X w b gw gb r j := by
  unfold rB kB P Q
  rw [g_eq, add_assoc]

/-! ### The averaged layer -/

/-- One half is non-negative. -/
theorem half_nonneg : (0 : EReal) ≤ half := by
  unfold half
  exact EReal.coe_nonneg.mpr (by norm_num)

/-- The sum of the two first-layer outputs is non-negative: each is a maximum with 0. -/
theorem kF_nonneg (r : Fin 1000) (j : Fin 128) : (0 : EReal) ≤ kF X w b gw gb r j := by
  unfold kF kA kB
  exact add_nonneg (le_max_right _ _) (le_max_right _ _)

/-- Halving a non-negative value keeps it non-negative, so the relu after the average is the identity. -/
theorem rE_eq (r : Fin 1000) (j : Fin 128) : rE X w b gw gb r j = kF X w b gw gb r j * half := by
  have h2 : (2 : ℝ) ≠ 0 := by norm_num
  unfold rE
  rw [rA_eq_kA, rB_eq_kB, Ideal.div_coe h2]
  exact max_eq_left (mul_nonneg (kF_nonneg X w b gw gb r j) half_nonneg)

/-! ### The last two layers -/

theorem rE2_eq_kE2 (r : Fin 1000) (j : Fin 128) : rE2 X w b gw gb r j = kE2 X w b gw gb r j := by
  have hs : ∑ k : Fin 128, rE X w b gw gb r k * gw j (hi k)
      = ∑ k : Fin 128, kF X w b gw gb r k * (gw j (hi k) * half) := by
    refine Finset.sum_congr rfl (fun k _ => ?_)
    rw [rE_eq, mul_assoc, mul_comm half]
  unfold rE2 kE2 P
  rw [g_eq, hs, add_right_comm]

theorem kY_eq_rY (X : Fin 1000 → Fin 128 → EReal) (w : Fin 128 → Fin 128 → EReal) (b : Fin 128 → EReal)
    (gw : Fin 128 → Fin 256 → EReal) (gb : Fin 128 → EReal) (fw : Fin 2 → Fin 128 → EReal) (fb : Fin 2 → EReal)
    (r : Fin 1000) (q : Fin 2) :
    kY X w b gw gb fw fb r q = rY X w b gw gb fw fb r q := by
  unfold kY rY
  congr 1
  refine Finset.sum_congr rfl (fun j _ => ?_)
  rw [rE2_eq_kE2]

end Cert.Ggcn.Spec

end
-- ==== Proof.lean ====
/-
  A two-layer network on a ring graph of 1000 nodes, as one fused kernel against the layered reference.

  Both programs compute the hidden layer hid = relu (X · h1_wᵀ + h1_b) and, with the second layer's weights split into
  their column halves W1 | W2, combine each node with its ring neighbour (r + 1) mod 1000 in both orders. The kernel
  forms P = hid · W1ᵀ and Q = hid · W2ᵀ once, rolls them by one row for the neighbour, and folds the average's ½ into
  W2; the reference gathers the neighbour rows, concatenates the two hidden blocks side by side and multiplies by the
  whole 256-column weight, three times. On the extended reals the two agree: a sum over the 256 concatenated columns
  is the sum of its halves, gA + gB is non-negative so the reference's relu of its half is that half, and
  (F · ½) · W = F · (W · ½). No precondition is used.

  The kernel runs over five grid points, each storing the hidden layer of its 200-row block into a scratch buffer; the
  last point reads the whole scratch and stores the output block. The frame run carries the scratch at some contents
  whose already-stored bands are known; the output array ends at the read-out of the whole hidden layer. The
  reference is a straight line of host operations; its run ends at the operations' composed term.
-/
import proofs.«176965_g80925773791738_cont_9to1c4b_127_19_alg».proof.Defs
import proofs.«176965_g80925773791738_cont_9to1c4b_127_19_alg».proof.Proof.Gen.Kernel
import proofs.«176965_g80925773791738_cont_9to1c4b_127_19_alg».proof.Proof.Gen.KernelIdeal
import proofs.«176965_g80925773791738_cont_9to1c4b_127_19_alg».proof.Proof.Gen.ReferenceIdeal
import proofs.«176965_g80925773791738_cont_9to1c4b_127_19_alg».proof.Proof.Gen.Pre_finite_inputs
import proofs.«176965_g80925773791738_cont_9to1c4b_127_19_alg».proof.Proof.BBodyDat
import proofs.«176965_g80925773791738_cont_9to1c4b_127_19_alg».proof.Proof.KFinal
import proofs.«176965_g80925773791738_cont_9to1c4b_127_19_alg».proof.Proof.KRead
import proofs.«176965_g80925773791738_cont_9to1c4b_127_19_alg».proof.Proof.RefRun
import proofs.«176965_g80925773791738_cont_9to1c4b_127_19_alg».proof.Proof.RefValue
import proofs.«176965_g80925773791738_cont_9to1c4b_127_19_alg».proof.Proof.Bridge
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_k : Cert.frame_Kernel (hKernel := Cert.Kernel.Gen.facts) (hPre_finite_inputs := Cert.Pre_finite_inputs.Gen.facts) :=
  fun m ρ _ => Cert.Kernel.Ggcn.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Ggcn.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Ggcn.run (F := Ideal) m ρ)

/-- From memories agreeing on the arguments both programs end with the same result array: the kernel's read-out
    of its hidden layer and the reference's composed term are, index by index, the fused and the layered form of one
    function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Ggcn.outAll (F := Ideal) m c, Cert.KernelIdeal.Ggcn.run (F := Ideal) m ρ, ?_⟩
  refine (θ_run Cert.ReferenceIdeal.defs _ _).mono (fun _ h c => ⟨(h c).1.trans ?_, (h c).2⟩)
    (Cert.ReferenceIdeal.Ggcn.run (F := Ideal) m' ρ')
  obtain ⟨h0, h1, h2, h3, h4, h5, h6⟩ := hagree c
  rw [h0, h1, h2, h3, h4, h5, h6]
  funext j
  obtain ⟨r, q, rfl⟩ : ∃ (r : Fin 1000) (q : Fin 2), j = ix2 r q := ⟨j 0, j 1, eq_ix2 j⟩
  rw [Cert.ReferenceIdeal.Ggcn.refOut_apply]
  show _ = Cert.KernelIdeal.Ggcn.outAll (F := Ideal) m c (ix2 r q)
  rw [Cert.KernelIdeal.Ggcn.outAll_apply, Cert.Ggcn.Spec.kY_eq_rY]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
